-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x2048 : Shape := ⟨3, ![2, 1, 2048]⟩
abbrev S64x512 : Shape := ⟨2, ![64, 512]⟩
abbrev S6144x512 : Shape := ⟨2, ![6144, 512]⟩
abbrev S6144x2048 : Shape := ⟨2, ![6144, 2048]⟩
abbrev S6144 : Shape := ⟨1, ![6144]⟩
abbrev S16x2048 : Shape := ⟨2, ![16, 2048]⟩
abbrev S16 : Shape := ⟨1, ![16]⟩
abbrev S_ : Shape := ⟨0, ![]⟩

class Facts : Prop where
  bcast_S_S2x1x2048 : S_.BroadcastsInDim S2x1x2048 (![] : Fin 0 → Fin S2x1x2048.rank)
  reducesTo_S2x1x2048_S_d0_1_2 : S2x1x2048.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S6144x512 : S_.BroadcastsInDim S6144x512 (![] : Fin 0 → Fin S6144x512.rank)
  reducesTo_S6144x512_S_d0_1 : S6144x512.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S16x2048 .f32) (main_v50 : FVec F S16x2048 .f32) : IVec S_ 1 :=
  let main_v51 : IVec S16x2048 1 := cmpf .olt main_v49 main_v50
  let main_c_19 : IVec S_ 1 := constantI S_ 1 1#1
  let main_v52 : IVec S_ 1 := (fun x v => Host.reduce IntOp.andi x v reducesTo_S16x2048_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S6144x2048 .f32) (main_arg9 : FVec F S6144 .f32) (main_arg10 : FVec F S6144 .f32) (main_arg11 : FVec F S16x2048 .f32) (main_arg12 : FVec F S16 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg9
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S16x2048 .f32 := Host.absf main_arg11
  let main_cst_18 : FVec F S_ .f32 := constant S_ .f32 0x7F800000#32
  let main_v50 : FVec F S16x2048 .f32 := broadcastInDim S16x2048 ![] bcast_S_S16x2048 main_cst_18
  fn_part3 (F := F) main_arg12 main_v48 main_v49 main_v50

def fn_part1 {F : FTy → Type} [FloatOps F] (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S16x2048 .f32) (main_arg12 : FVec F S16 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144 .f32 := Host.absf main_arg5
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg6
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S6144x2048 .f32 := Host.absf main_arg7
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S1 32) (main_arg1 : FVec F S2x1x2048 .f32) (main_arg2 : FVec F S64x512 .f32) (main_arg3 : FVec F S6144x512 .f32) (main_arg4 : FVec F S6144x2048 .f32) (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S16x2048 .f32) (main_arg12 : FVec F S16 .f32) : IVec S_ 1 :=
  let main_v0 : FVec F S2x1x2048 .f32 := Host.absf main_arg1
  let main_cst : FVec F S_ .f32 := constant S_ .f32 0x7F800000#32
  let main_v1 : FVec F S2x1x2048 .f32 := broadcastInDim S2x1x2048 ![] bcast_S_S2x1x2048 main_cst
  let main_v2 : IVec S2x1x2048 1 := cmpf .olt main_v0 main_v1
  let main_c : IVec S_ 1 := constantI S_ 1 1#1
  let main_v3 : IVec S_ 1 := (fun x v => Host.reduce IntOp.andi x v reducesTo_S2x1x2048_S_d0_1_2 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S6144x512 .f32 := Host.absf main_arg3
  let main_cst_2 : FVec F S_ .f32 := constant S_ .f32 0x7F800000#32
  let main_v10 : FVec F S6144x512 .f32 := broadcastInDim S6144x512 ![] bcast_S_S6144x512 main_cst_2
  let main_v11 : IVec S6144x512 1 := cmpf .olt main_v9 main_v10
  let main_c_3 : IVec S_ 1 := constantI S_ 1 1#1
  let main_v12 : IVec S_ 1 := (fun x v => Host.reduce IntOp.andi x v reducesTo_S6144x512_S_d0_1 h_S_) main_v11 main_c_3
  let main_v13 : IVec S_ 1 := andi main_v8 main_v12
  let main_v14 : FVec F S6144x2048 .f32 := Host.absf main_arg4
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg5 main_arg6 main_arg7 main_arg8 main_arg9 main_arg10 main_arg11 main_arg12 main_v13 main_v16
-- ==== Kernel.lean ====
abbrev S1 : Shape := ⟨1, ![1]⟩
abbrev S2x1x2048 : Shape := ⟨3, ![2, 1, 2048]⟩
abbrev S64x512 : Shape := ⟨2, ![64, 512]⟩
abbrev S6144x512 : Shape := ⟨2, ![6144, 512]⟩
abbrev S6144x2048 : Shape := ⟨2, ![6144, 2048]⟩
abbrev S6144 : Shape := ⟨1, ![6144]⟩
abbrev S16x2048 : Shape := ⟨2, ![16, 2048]⟩
abbrev S16 : Shape := ⟨1, ![16]⟩
abbrev S_ : Shape := ⟨0, ![]⟩
abbrev S1x512 : Shape := ⟨2, ![1, 512]⟩
abbrev S512 : Shape := ⟨1, ![512]⟩
abbrev S1x1x2048 : Shape := ⟨3, ![1, 1, 2048]⟩
abbrev S1x2048 : Shape := ⟨2, ![1, 2048]⟩
abbrev S3x2048x512 : Shape := ⟨3, ![3, 2048, 512]⟩
abbrev S3x2048x2048 : Shape := ⟨3, ![3, 2048, 2048]⟩
abbrev S3x2048 : Shape := ⟨2, ![3, 2048]⟩
abbrev S3x256x512 : Shape := ⟨3, ![3, 256, 512]⟩
abbrev S3x256x2048 : Shape := ⟨3, ![3, 256, 2048]⟩
abbrev S3x256 : Shape := ⟨2, ![3, 256]⟩
abbrev S1x256 : Shape := ⟨2, ![1, 256]⟩
abbrev S1x256x512 : Shape := ⟨3, ![1, 256, 512]⟩
abbrev S256x512 : Shape := ⟨2, ![256, 512]⟩
abbrev S256 : Shape := ⟨1, ![256]⟩
abbrev S1x256x2048 : Shape := ⟨3, ![1, 256, 2048]⟩
abbrev S256x2048 : Shape := ⟨2, ![256, 2048]⟩
abbrev S3x128x2048 : Shape := ⟨3, ![3, 128, 2048]⟩
abbrev S3x128 : Shape := ⟨2, ![3, 128]⟩
abbrev S1x128 : Shape := ⟨2, ![1, 128]⟩
abbrev S1x128x2048 : Shape := ⟨3, ![1, 128, 2048]⟩
abbrev S128x2048 : Shape := ⟨2, ![128, 2048]⟩
abbrev S128 : Shape := ⟨1, ![128]⟩
abbrev S2048x16 : Shape := ⟨2, ![2048, 16]⟩
abbrev S1x16 : Shape := ⟨2, ![1, 16]⟩
abbrev S1x1 : Shape := ⟨2, ![1, 1]⟩

abbrev nBuf : Space → Nat
  | .hbm => 65
  | .vmem => 24
  | .smem => 0
  | _ => 0

abbrev bufTy : (tb : Table) → Fin (tcTables nBuf tb) → BufTy
  | .hbm, ⟨0, _⟩ => ⟨S1, .i32⟩
  | .hbm, ⟨1, _⟩ => ⟨S2x1x2048, .f32⟩
  | .hbm, ⟨2, _⟩ => ⟨S64x512, .f32⟩
  | .hbm, ⟨3, _⟩ => ⟨S6144x512, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S16x2048, .f32⟩
  | .hbm, ⟨12, _⟩ => ⟨S16, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1x1x2048, .f32⟩
  | .hbm, ⟨31, _⟩ => ⟨S1x2048, .f32⟩
  | .hbm, ⟨32, _⟩ => ⟨S1x1x2048, .f32⟩
  | .hbm, ⟨33, _⟩ => ⟨S1x2048, .f32⟩
  | .hbm, ⟨34, _⟩ => ⟨S3x2048x512, .f32⟩
  | .hbm, ⟨35, _⟩ => ⟨S3x2048x2048, .f32⟩
  | .hbm, ⟨36, _⟩ => ⟨S3x2048, .f32⟩
  | .hbm, ⟨37, _⟩ => ⟨S3x2048, .f32⟩
  | .hbm, ⟨38, _⟩ => ⟨S3x2048x2048, .f32⟩
  | .hbm, ⟨39, _⟩ => ⟨S3x2048x2048, .f32⟩
  | .hbm, ⟨40, _⟩ => ⟨S3x2048, .f32⟩
  | .hbm, ⟨41, _⟩ => ⟨S3x2048, .f32⟩
  | .hbm, ⟨42, _⟩ => ⟨S1x2048, .f32⟩
  | .hbm, ⟨43, _⟩ => ⟨S1x2048, .f32⟩
  | .hbm, ⟨44, _⟩ => ⟨S2048x16, .f32⟩
  | .hbm, ⟨45, _⟩ => ⟨S1x16, .f32⟩
  | .hbm, ⟨46, _⟩ => ⟨S1x16, .f32⟩
  | .hbm, ⟨47, _⟩ => ⟨S1x16, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1x1, .f32⟩
  | .hbm, ⟨54, _⟩ => ⟨S1x16, .f32⟩
  | .hbm, ⟨55, _⟩ => ⟨S1x16, .f32⟩
  | .hbm, ⟨56, _⟩ => ⟨S1x16, .f32⟩
  | .hbm, ⟨57, _⟩ => ⟨S_, .f32⟩
  | .hbm, ⟨58, _⟩ => ⟨S1, .f32⟩
  | .hbm, ⟨59, _⟩ => ⟨S1x1, .f32⟩
  | .hbm, ⟨60, _⟩ => ⟨S1x16, .f32⟩
  | .hbm, ⟨61, _⟩ => ⟨S1x16, .f32⟩
  | .hbm, ⟨62, _⟩ => ⟨S1x1x2048, .f32⟩
  | .hbm, ⟨63, _⟩ => ⟨S1x1x2048, .f32⟩
  | .hbm, ⟨64, _⟩ => ⟨S2x1x2048, .f32⟩
  | .local _ .vmem, ⟨0, _⟩ => ⟨S1x512, .f32⟩
  | .local _ .vmem, ⟨1, _⟩ => ⟨S1x2048, .f32⟩
  | .local _ .vmem, ⟨2, _⟩ => ⟨S3x256x512, .f32⟩
  | .local _ .vmem, ⟨3, _⟩ => ⟨S3x256x512, .f32⟩
  | .local _ .vmem, ⟨4, _⟩ => ⟨S3x256x2048, .f32⟩
  | .local _ .vmem, ⟨5, _⟩ => ⟨S3x256x2048, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2048, .f32⟩
  | .local _ .vmem, ⟨13, _⟩ => ⟨S1x2048, .f32⟩
  | .local _ .vmem, ⟨14, _⟩ => ⟨S3x128x2048, .f32⟩
  | .local _ .vmem, ⟨15, _⟩ => ⟨S3x128x2048, .f32⟩
  | .local _ .vmem, ⟨16, _⟩ => ⟨S3x128x2048, .f32⟩
  | .local _ .vmem, ⟨17, _⟩ => ⟨S3x128x2048, .f32⟩
  | .local _ .vmem, ⟨18, _⟩ => ⟨S3x128, .f32⟩
  | .local _ .vmem, ⟨19, _⟩ => ⟨S3x128, .f32⟩
  | .local _ .vmem, ⟨20, _⟩ => ⟨S3x128, .f32⟩
  | .local _ .vmem, ⟨21, _⟩ => ⟨S3x128, .f32⟩
  | .local _ .vmem, ⟨22, _⟩ => ⟨S1x128, .f32⟩
  | .local _ .vmem, ⟨23, _⟩ => ⟨S1x128, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_c_2 : Ref sig .tc := ⟨.hbm, 20, rfl⟩
abbrev main_v4 : Ref sig .tc := ⟨.hbm, 21, rfl⟩
abbrev main_c_3 : Ref sig .tc := ⟨.hbm, 22, rfl⟩
abbrev main_c_4 : Ref sig .tc := ⟨.hbm, 23, rfl⟩
abbrev main_v5 : Ref sig .tc := ⟨.hbm, 24, rfl⟩
abbrev main_c_5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c128_i32 : BitVec 32 := 128#32
  let v0 : BitVec 32 := Scalar.muli arg0 c128_i32
  v0
def k1_off1 (i : grid1.Coords) : Fin 2 → Nat :=
  let c0_3 : Index := 0#32
  let arg0 : BitVec 32 := BitVec.ofNat 32 (i 0).val
  let c128_i32 : BitVec 32 := 128#32
  let v0 : BitVec 32 := Scalar.muli arg0 c128_i32
  let v1 : BitVec 32 := v0
  let v8 : Index := Scalar.indexCast v1
  ![0, v8.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1_S_ : S1.ShapeCasts S_
  sliceFits_S64x512_S1x512 : S64x512.Slices (fun _ => 0) S1x512
  h_S_ : 0 < S_.numel
  shapeCasts_S1x512_S512 : S1x512.ShapeCasts S512
  bcast_S512_S1x512_1 : S512.BroadcastsInDim S1x512 (![1] : Fin 1 → Fin S1x512.rank)
  slices_S2x1x2048_S1x1x2048_0_0_0 : S2x1x2048.Slices ![0, 0, 0] S1x1x2048
  shapeCasts_S1x1x2048_S1x2048 : S1x1x2048.ShapeCasts S1x2048
  slices_S2x1x2048_S1x1x2048_1_0_0 : S2x1x2048.Slices ![1, 0, 0] S1x1x2048
  shapeCasts_S6144x512_S3x2048x512 : S6144x512.ShapeCasts S3x2048x512
  shapeCasts_S6144x2048_S3x2048x2048 : S6144x2048.ShapeCasts S3x2048x2048
  shapeCasts_S6144_S3x2048 : S6144.ShapeCasts S3x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S1x256 : 0 < S1x256.numel
  shapeCasts_S1x256_S1x256 : S1x256.ShapeCasts S1x256
  inb_S3x256x512_S3x256x512_0_0_0 : ∀ a, (![0, 0, 0] : Fin 3 → Nat) a + S3x256x512.size a ≤ S3x256x512.size a
  h_S3x256x512 : 0 < S3x256x512.numel
  shapeCasts_S3x256x512_S3x256x512 : S3x256x512.ShapeCasts S3x256x512
  inb_S3x256x2048_S3x256x2048_0_0_0 : ∀ a, (![0, 0, 0] : Fin 3 → Nat) a + S3x256x2048.size a ≤ S3x256x2048.size a
  h_S3x256x2048 : 0 < S3x256x2048.numel
  shapeCasts_S3x256x2048_S3x256x2048 : S3x256x2048.ShapeCasts S3x256x2048
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S3x256x512_o0_0_0_S1x256x512 : S3x256x512.Slices ![0, 0, 0] S1x256x512
  shapeCasts_S1x256x512_S256x512 : S1x256x512.ShapeCasts S256x512
  slices_S3x256_o0_0_S1x256 : S3x256.Slices ![0, 0] S1x256
  shapeCasts_S1x256_S256 : S1x256.ShapeCasts S256
  shapeCasts_S256_S1x256 : S256.ShapeCasts S1x256
  slices_S3x256x512_o1_0_0_S1x256x512 : S3x256x512.Slices ![1, 0, 0] S1x256x512
  slices_S3x256_o1_0_S1x256 : S3x256.Slices ![1, 0] S1x256
  slices_S3x256x512_o2_0_0_S1x256x512 : S3x256x512.Slices ![2, 0, 0] S1x256x512
  slices_S3x256_o2_0_S1x256 : S3x256.Slices ![2, 0] S1x256
  slices_S3x256x2048_o0_0_0_S1x256x2048 : S3x256x2048.Slices ![0, 0, 0] S1x256x2048
  shapeCasts_S1x256x2048_S256x2048 : S1x256x2048.ShapeCasts S256x2048
  slices_S3x256x2048_o1_0_0_S1x256x2048 : S3x256x2048.Slices ![1, 0, 0] S1x256x2048
  slices_S3x256x2048_o2_0_0_S1x256x2048 : S3x256x2048.Slices ![2, 0, 0] S1x256x2048
  inb_S1x256_S1x256_0_0 : ∀ a, (![0, 0] : Fin 2 → Nat) a + S1x256.size a ≤ S1x256.size a
  h_S1x128 : 0 < S1x128.numel
  shapeCasts_S1x128_S1x128 : S1x128.ShapeCasts S1x128
  inb_S3x128x2048_S3x128x2048_0_0_0 : ∀ a, (![0, 0, 0] : Fin 3 → Nat) a + S3x128x2048.size a ≤ S3x128x2048.size a
  h_S3x128x2048 : 0 < S3x128x2048.numel
  shapeCasts_S3x128x2048_S3x128x2048 : S3x128x2048.ShapeCasts S3x128x2048
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S3x128x2048_o0_0_0_S1x128x2048 : S3x128x2048.Slices ![0, 0, 0] S1x128x2048
  shapeCasts_S1x128x2048_S128x2048 : S1x128x2048.ShapeCasts S128x2048
  slices_S3x128_o0_0_S1x128 : S3x128.Slices ![0, 0] S1x128
  shapeCasts_S1x128_S128 : S1x128.ShapeCasts S128
  shapeCasts_S128_S1x128 : S128.ShapeCasts S1x128
  slices_S3x128x2048_o1_0_0_S1x128x2048 : S3x128x2048.Slices ![1, 0, 0] S1x128x2048
  slices_S3x128_o1_0_S1x128 : S3x128.Slices ![1, 0] S1x128
  slices_S3x128x2048_o2_0_0_S1x128x2048 : S3x128x2048.Slices ![2, 0, 0] S1x128x2048
  slices_S3x128_o2_0_S1x128 : S3x128.Slices ![2, 0] S1x128
  inb_S1x128_S1x128_0_0 : ∀ a, (![0, 0] : Fin 2 → Nat) a + S1x128.size a ≤ S1x128.size a
  transposes_S16x2048_S2048x16_1_0 : S16x2048.Transposes [1, 0] S2048x16
  bcast_S16_S1x16_1 : S16.BroadcastsInDim S1x16 (![1] : Fin 1 → Fin S1x16.rank)
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  dot_S1x512_S256x512_S1x256_1_1_0_0_n_n_wf : DotDims.WF S1x512 S256x512 S1x256 [1] [1] [0] [0] [] []
  dot_S1x2048_S256x2048_S1x256_1_1_0_0_n_n_wf : DotDims.WF S1x2048 S256x2048 S1x256 [1] [1] [0] [0] [] []
  dot_S1x2048_S128x2048_S1x128_1_1_0_0_n_n_wf : DotDims.WF S1x2048 S128x2048 S1x128 [1] [1] [0] [0] [] []
  dot_S1x2048_S2048x16_S1x16_1_0_0_1_n_n_wf : DotDims.WF S1x2048 S2048x16 S1x16 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x256.size a ≤ S1x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256x512.size a ≤ S3x2048x512.size a
  hwx0_2 : ∀ i : grid0.Coords, EltTy.bits .f32 = 32 ∨ (Rect.block (s := S3x2048x512) S3x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x256x2048.size a ≤ S3x2048x2048.size a
  hwx0_3 : ∀ i : grid0.Coords, EltTy.bits .f32 = 32 ∨ (Rect.block (s := S3x2048x2048) S3x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x2048.size a
  hwx0_4 : ∀ i : grid0.Coords, EltTy.bits .f32 = 32 ∨ (Rect.block (s := S3x2048) S3x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x2048.size a
  hwx0_5 : ∀ i : grid0.Coords, EltTy.bits .f32 = 32 ∨ (Rect.block (s := S3x2048) S3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x128.size a ≤ S1x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x128x2048.size a ≤ S3x2048x2048.size a
  hwx1_2 : ∀ i : grid1.Coords, EltTy.bits .f32 = 32 ∨ (Rect.block (s := S3x2048x2048) S3x128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x128x2048.size a ≤ S3x2048x2048.size a
  hwx1_3 : ∀ i : grid1.Coords, EltTy.bits .f32 = 32 ∨ (Rect.block (s := S3x2048x2048) S3x128x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x128.size a ≤ S3x2048.size a
  hwx1_4 : ∀ i : grid1.Coords, EltTy.bits .f32 = 32 ∨ (Rect.block (s := S3x2048) S3x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x128.size a ≤ S3x2048.size a
  hwx1_5 : ∀ i : grid1.Coords, EltTy.bits .f32 = 32 ∨ (Rect.block (s := S3x2048) S3x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x2048.size a
  hwx1_6 : ∀ i : grid1.Coords, EltTy.bits .f32 = 32 ∨ (Rect.block (s := S1x2048) S1x128.size (cc1_transform_6 i) (hinb1_6 i)).WholeWords (EltTy.packing .f32)

variable [Facts₀]

def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x2048_S128x2048_S1x128_1_1_0_0_n_n : DotDims S1x2048 S128x2048 S1x128 where
  lhsContracting := [1]
  rhsContracting := [1]
  lhsNonContracting := [0]
  rhsNonContracting := [0]
  lhsBatch := []
  rhsBatch := []
  wf := dot_S1x2048_S128x2048_S1x128_1_1_0_0_n_n_wf
def dot_S1x2048_S2048x16_S1x16_1_0_0_1_n_n : DotDims S1x2048 S2048x16 S1x16 where
  lhsContracting := [1]
  rhsContracting := [0]
  lhsNonContracting := [0]
  rhsNonContracting := [1]
  lhsBatch := []
  rhsBatch := []
  wf := dot_S1x2048_S2048x16_S1x16_1_0_0_1_n_n_wf

abbrev win0_0 : Pipeline.Window sig grid0 :=
  Pipeline.Window.ofSpec (Memref.whole main_v9) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S3x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S3x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S3x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S3x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S3x128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S3x128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S3x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S3x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1 : Shape := ⟨1, ![1]⟩
abbrev S2x1x2048 : Shape := ⟨3, ![2, 1, 2048]⟩
abbrev S64x512 : Shape := ⟨2, ![64, 512]⟩
abbrev S6144x512 : Shape := ⟨2, ![6144, 512]⟩
abbrev S6144x2048 : Shape := ⟨2, ![6144, 2048]⟩
abbrev S6144 : Shape := ⟨1, ![6144]⟩
abbrev S16x2048 : Shape := ⟨2, ![16, 2048]⟩
abbrev S16 : Shape := ⟨1, ![16]⟩
abbrev S_ : Shape := ⟨0, ![]⟩
abbrev S1x1 : Shape := ⟨2, ![1, 1]⟩
abbrev S1x512 : Shape := ⟨2, ![1, 512]⟩
abbrev S1x1x2048 : Shape := ⟨3, ![1, 1, 2048]⟩
abbrev S1x2048 : Shape := ⟨2, ![1, 2048]⟩
abbrev S512x6144 : Shape := ⟨2, ![512, 6144]⟩
abbrev S1x6144 : Shape := ⟨2, ![1, 6144]⟩
abbrev S2048x6144 : Shape := ⟨2, ![2048, 6144]⟩
abbrev S2048x16 : Shape := ⟨2, ![2048, 16]⟩
abbrev S1x16 : Shape := ⟨2, ![1, 16]⟩

abbrev nBuf : Space → Nat
  | .hbm => 129
  | .vmem => 0
  | .smem => 0
  | _ => 0

abbrev hbmTy0_0 (i : Nat) : BufTy := match i % 128 with
  | 0 => ⟨S1, .i32⟩
  | 1 => ⟨S2x1x2048, .f32⟩
  | 2 => ⟨S64x512, .f32⟩
  | 3 => ⟨S6144x512, .f32⟩
  | 4 => ⟨S6144x2048, .f32⟩
  | 5 => ⟨S6144, .f32⟩
  | 6 => ⟨S6144, .f32⟩
  | 7 => ⟨S6144x2048, .f32⟩
  | 8 => ⟨S6144x2048, .f32⟩
  | 9 => ⟨S6144, .f32⟩
  | 10 => ⟨S6144, .f32⟩
  | 11 => ⟨S16x2048, .f32⟩
  | 12 => ⟨S16, .f32⟩
  | 13 => ⟨S_, .i32⟩
  | 14 => ⟨S1, .i32⟩
  | 15 => ⟨S1, .i1⟩
  | 16 => ⟨S_, .i32⟩
  | 17 => ⟨S1, .i32⟩
  | 18 => ⟨S1, .i32⟩
  | 19 => ⟨S1, .i32⟩
  | 20 => ⟨S1x1, .i32⟩
  | 21 => ⟨S1x512, .f32⟩
  | 22 => ⟨S1x1x2048, .f32⟩
  | 23 => ⟨S1x2048, .f32⟩
  | 24 => ⟨S512x6144, .f32⟩
  | 25 => ⟨S1x6144, .f32⟩
  | 26 => ⟨S1x6144, .f32⟩
  | 27 => ⟨S1x6144, .f32⟩
  | 28 => ⟨S2048x6144, .f32⟩
  | 29 => ⟨S1x6144, .f32⟩
  | 30 => ⟨S1x6144, .f32⟩
  | 31 => ⟨S1x6144, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S_, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x1x2048, .f32⟩
  | 66 => ⟨S1x2048, .f32⟩
  | 67 => ⟨S2048x6144, .f32⟩
  | 68 => ⟨S1x6144, .f32⟩
  | 69 => ⟨S1x6144, .f32⟩
  | 70 => ⟨S1x6144, .f32⟩
  | 71 => ⟨S2048x6144, .f32⟩
  | 72 => ⟨S1x6144, .f32⟩
  | 73 => ⟨S1x6144, .f32⟩
  | 74 => ⟨S1x6144, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S_, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S1x2048, .f32⟩
  | 106 => ⟨S1x2048, .f32⟩
  | 107 => ⟨S1x2048, .f32⟩
  | 108 => ⟨S2048x16, .f32⟩
  | 109 => ⟨S1x16, .f32⟩
  | 110 => ⟨S1x16, .f32⟩
  | 111 => ⟨S1x16, .f32⟩
  | 112 => ⟨S_, .f32⟩
  | 113 => ⟨S1, .f32⟩
  | 114 => ⟨S_, .f32⟩
  | 115 => ⟨S1, .f32⟩
  | 116 => ⟨S1, .f32⟩
  | 117 => ⟨S1x1, .f32⟩
  | 118 => ⟨S1x16, .f32⟩
  | 119 => ⟨S1x16, .f32⟩
  | 120 => ⟨S1x16, .f32⟩
  | 121 => ⟨S_, .f32⟩
  | 122 => ⟨S1, .f32⟩
  | 123 => ⟨S1x1, .f32⟩
  | 124 => ⟨S1x16, .f32⟩
  | 125 => ⟨S1x16, .f32⟩
  | 126 => ⟨S1x1x2048, .f32⟩
  | 127 => ⟨S1x1x2048, .f32⟩
  | _ => ⟨S1, .i32⟩

abbrev hbmTy0_1 (i : Nat) : BufTy := match i % 128 with
  | 0 => ⟨S2x1x2048, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_cst_11 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_12 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  slices_S2x1x2048_S1x1x2048_0_0_0 : S2x1x2048.Slices ![0, 0, 0] S1x1x2048
  shapeCasts_S1x1x2048_S1x2048 : S1x1x2048.ShapeCasts S1x2048
  transposes_S6144x512_S512x6144_1_0 : S6144x512.Transposes [1, 0] S512x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  slices_S2x1x2048_S1x1x2048_1_0_0 : S2x1x2048.Slices ![1, 0, 0] S1x1x2048
  transposes_S16x2048_S2048x16_1_0 : S16x2048.Transposes [1, 0] S2048x16
  bcast_S16_S1x16_1 : S16.BroadcastsInDim S1x16 (![1] : Fin 1 → Fin S1x16.rank)
  reducesTo_S1x16_S1_d1 : S1x16.ReducesTo [1] S1
  h_S_ : 0 < S_.numel
  bcast_S1x1_S1x16_0_1 : S1x1.BroadcastsInDim S1x16 (![0, 1] : Fin 2 → Fin S1x16.rank)
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  gather_S64x512_S1x1_S1x512_1_0_n_n_0_1_1512_wf : GatherDims.WF S64x512 S1x1 S1x512 [1] [0] [] [0] [] 1 ![1, 512]
  dot_S1x512_S512x6144_S1x6144_1_0_0_1_n_n_wf : DotDims.WF S1x512 S512x6144 S1x6144 [1] [0] [0] [1] [] []
  dot_S1x2048_S2048x6144_S1x6144_1_0_0_1_n_n_wf : DotDims.WF S1x2048 S2048x6144 S1x6144 [1] [0] [0] [1] [] []
  dot_S1x2048_S2048x16_S1x16_1_0_0_1_n_n_wf : DotDims.WF S1x2048 S2048x16 S1x16 [1] [0] [0] [1] [] []

variable [Facts₀]

def gather_S64x512_S1x1_S1x512_1_0_n_n_0_1_1512 : GatherDims S64x512 S1x1 S1x512 where
  offsetDims := [1]
  collapsedSliceDims := [0]
  operandBatchingDims := []
  startIndicesBatchingDims := []
  startIndexMap := [0]
  indexVectorDim := 1
  sliceSizes := ![1, 512]
  wf := gather_S64x512_S1x1_S1x512_1_0_n_n_0_1_1512_wf
def dot_S1x512_S512x6144_S1x6144_1_0_0_1_n_n : DotDims S1x512 S512x6144 S1x6144 where
  lhsContracting := [1]
  rhsContracting := [0]
  lhsNonContracting := [0]
  rhsNonContracting := [1]
  lhsBatch := []
  rhsBatch := []
  wf := dot_S1x512_S512x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x16_S1x16_1_0_0_1_n_n : DotDims S1x2048 S2048x16 S1x16 where
  lhsContracting := [1]
  rhsContracting := [0]
  lhsNonContracting := [0]
  rhsNonContracting := [1]
  lhsBatch := []
  rhsBatch := []
  wf := dot_S1x2048_S2048x16_S1x16_1_0_0_1_n_n_wf

class Facts : Prop extends Facts₀ where

variable [Facts]
-- ==== Proof.Region0.lean ====
/-
  The first GRU layer's pallas_call (pipeline 0 of the program) at a parameter V, the contents of the TensorCore's buffers
  when the region is entered.

  The grid has 8 points; point t computes columns [256 t, 256 t + 256) of the new hidden state. Six input windows: the
  layer input x (1 x 512) and the previous hidden state h (1 x 2048), both whole and fetched once; the two weight
  tensors (3 x 2048 x K) and the two bias matrices (3 x 2048), cut along the middle (resp. last) axis into blocks of
  256 rows. One output window, the 1 x 256 block of the result.

  What one run of the body leaves in the output block is ONE store, of the body's arithmetic (the skeleton's payloads)
  applied to what its loads read: the whole x, the whole h, the 256 columns of h at offset 256 t (the body slices the
  resident h at the point's own offset), and the four weight / bias blocks (tileOut0). The body's Hoare triple
  (kernel0_triple) is run symbolically once at a generic grid point; the proof data (dat0) records each input window's
  block (tileIn0) and that output block; body0_obligation is the per-point obligation the launch theorem asks for.
-/
import proofs.«147042_j85452669321958_1_alg».proof.Proof.Gen.KernelIdeal.Launch
import proofs.«147042_j85452669321958_1_alg».proof.Proof.Gen.KernelIdeal.Skeleton
import proofs.«147042_j85452669321958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def tileIn0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it at that
    point or kept it from the point before (the block index did not move then), for any proof data over the arrays V
    whose body leaves the input blocks in place. One statement per input window (the block's index type is the
    window's own). -/
theorem tileIn0_found0 {c : Dev nD} (dat : Dat τ (Elt F) Unit ℕ (UR sig nD τ) ℕ cfg0 c) (hA : dat.A 0 = V c (Pipeline.arrRef spec0 0))
    (hafter : ∀ t, dat.after 0 t = tileIn0 V c 0 t) (t : Fin cfg0.N) (d) : dat.before 0 t d = tileIn0 V c 0 t :=
  (dat.before_in_eq_fetched 0 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found1 {c : Dev nD} (dat : Dat τ (Elt F) Unit ℕ (UR sig nD τ) ℕ cfg0 c) (hA : dat.A 1 = V c (Pipeline.arrRef spec0 1))
    (hafter : ∀ t, dat.after 1 t = tileIn0 V c 1 t) (t : Fin cfg0.N) (d) : dat.before 1 t d = tileIn0 V c 1 t :=
  (dat.before_in_eq_fetched 1 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found2 {c : Dev nD} (dat : Dat τ (Elt F) Unit ℕ (UR sig nD τ) ℕ cfg0 c) (hA : dat.A 2 = V c (Pipeline.arrRef spec0 2))
    (hafter : ∀ t, dat.after 2 t = tileIn0 V c 2 t) (t : Fin cfg0.N) (d) : dat.before 2 t d = tileIn0 V c 2 t :=
  (dat.before_in_eq_fetched 2 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found3 {c : Dev nD} (dat : Dat τ (Elt F) Unit ℕ (UR sig nD τ) ℕ cfg0 c) (hA : dat.A 3 = V c (Pipeline.arrRef spec0 3))
    (hafter : ∀ t, dat.after 3 t = tileIn0 V c 3 t) (t : Fin cfg0.N) (d) : dat.before 3 t d = tileIn0 V c 3 t :=
  (dat.before_in_eq_fetched 3 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found4 {c : Dev nD} (dat : Dat τ (Elt F) Unit ℕ (UR sig nD τ) ℕ cfg0 c) (hA : dat.A 4 = V c (Pipeline.arrRef spec0 4))
    (hafter : ∀ t, dat.after 4 t = tileIn0 V c 4 t) (t : Fin cfg0.N) (d) : dat.before 4 t d = tileIn0 V c 4 t :=
  (dat.before_in_eq_fetched 4 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found5 {c : Dev nD} (dat : Dat τ (Elt F) Unit ℕ (UR sig nD τ) ℕ cfg0 c) (hA : dat.A 5 = V c (Pipeline.arrRef spec0 5))
    (hafter : ∀ t, dat.after 5 t = tileIn0 V c 5 t) (t : Fin cfg0.N) (d) : dat.before 5 t d = tileIn0 V c 5 t :=
  (dat.before_in_eq_fetched 5 rfl (fun _ => rfl) (fun _ _ _ => rfl) (fun t => by rw [hafter]; unfold Dat.blockOf tileIn0; rw [hA]; try rfl) t d).trans
    (by unfold Dat.fetched Dat.blockOf tileIn0; rw [hA]; try rfl)

/-! ## The body's accesses -/

abbrev rX0 : Rect S1x512 := Rect.unit (s := S1x512) ![0, 0] S1x512.size inb_S1x512_S1x512_0_0
abbrev rH0 : Rect S1x2048 := Rect.unit (s := S1x2048) ![0, 0] S1x2048.size inb_S1x2048_S1x2048_0_0
/-- The 256 columns of the resident hidden state that the point's own output block updates. -/
abbrev rHt0 (i : grid0.Coords) : Rect S1x2048 := Rect.unit (s := S1x2048) (k0_off1 i) S1x256.size (k0_off1_inb i)
abbrev rWi0 : Rect S3x256x512 := Rect.unit (s := S3x256x512) ![0, 0, 0] S3x256x512.size inb_S3x256x512_S3x256x512_0_0_0
abbrev rWh0 : Rect S3x256x2048 := Rect.unit (s := S3x256x2048) ![0, 0, 0] S3x256x2048.size inb_S3x256x2048_S3x256x2048_0_0_0
abbrev rB0 : Rect S3x256 := Rect.unit (s := S3x256) ![0, 0] S3x256.size inb_S3x256_S3x256_0_0
abbrev rO0 : Rect S1x256 := Rect.unit (s := S1x256) ![0, 0] S1x256.size inb_S1x256_S1x256_0_0

/-! ## What the body leaves in the output block -/

/-- The output block after the body at grid coordinates i, from the six input blocks: one whole-block store of the
    GRU arithmetic of the loaded values. -/
def tileOut0 (i : grid0.Coords) (x0 : Vec F S1x512 .f32) (x1 : Vec F S1x2048 .f32) (x2 : Vec F S3x256x512 .f32) (x3 : Vec F S3x256x2048 .f32)
    (x4 : Vec F S3x256 .f32) (x5 : Vec F S3x256 .f32) : Vec F S1x256 .f32 :=
  View.canon [⟨rO0, k0_pay1 (k0_pay3 (View.ld x1 rH0)) (k0_pay4 (View.ld x1 (rHt0 i))) (k0_pay6 (View.ld x3 rWh0)) (k0_pay8 (View.ld x5 rB0))
    (k0_pay9 (View.ld x0 rX0) (View.ld x2 rWi0) (View.ld x4 rB0)) (k0_pay10 (View.ld x0 rX0) (View.ld x2 rWi0) (View.ld x4 rB0))
    (k0_pay11 (View.ld x0 rX0) (View.ld x2 rWi0)) (k0_pay12 (View.ld x4 rB0))⟩]

/-- The one store covers the block. -/
theorem tileOut0_cover (p0 : Vec F S1x256 .f32) (y : S1x256.Idx) :
    ∃ pc ∈ ([⟨rO0, p0⟩] : List (View.Piece (Elt F) S1x256 .f32)), y ∈ pc.1.set :=
  View.cover_of_tiled [⟨rO0, p0⟩] S1x256.size (by rfl) y

/-! ## The body's triple -/

set_option maxHeartbeats 1000000 in
/-- The kernel body at grid coordinates i on whole staging memrefs — the inputs' at contents x0 … x5, the output's at
    anything — runs to its continuation with the inputs' as they were and the output's at tileOut0 of the inputs'. -/
theorem kernel0_triple (c : Dev nD) (E : Set ℕ) (i : grid0.Coords)
    (arg1 : Memref sig .tc .vmem S1x512 .f32) (harg1 : arg1.IsWhole) (arg2 : Memref sig .tc .vmem S1x2048 .f32) (harg2 : arg2.IsWhole)
    (arg3 : Memref sig .tc .vmem S3x256x512 .f32) (harg3 : arg3.IsWhole) (arg4 : Memref sig .tc .vmem S3x256x2048 .f32) (harg4 : arg4.IsWhole)
    (arg5 : Memref sig .tc .vmem S3x256 .f32) (harg5 : arg5.IsWhole) (arg6 : Memref sig .tc .vmem S3x256 .f32) (harg6 : arg6.IsWhole)
    (arg7 : Memref sig .tc .vmem S1x256 .f32) (harg7 : arg7.IsWhole)
    (x0 : Vec F S1x512 .f32) (x1 : Vec F S1x2048 .f32) (x2 : Vec F S3x256x512 .f32) (x3 : Vec F S3x256x2048 .f32)
    (x4 : Vec F S3x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tileOut0 i x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tileOut0_cover _)

/-! ## The pipeline's proof data -/

/-- The proof data of pipeline 0 on core c: the arrays as the region finds them; after the body at point t each input's
    buffer at its block and the output's at tileOut0 of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => tileIn0 V c 0 t
    | ⟨1, _⟩ => tileIn0 V c 1 t
    | ⟨2, _⟩ => tileIn0 V c 2 t
    | ⟨3, _⟩ => tileIn0 V c 3 t
    | ⟨4, _⟩ => tileIn0 V c 4 t
    | ⟨5, _⟩ => tileIn0 V c 5 t
    | ⟨6, _⟩ => tileOut0 (grid0.coords t) (tileIn0 V c 0 t) (tileIn0 V c 1 t) (tileIn0 V c 2 t) (tileIn0 V c 3 t) (tileIn0 V c 4 t) (tileIn0 V c 5 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = tileIn0 V c 0 t := by dsimp only [dat0]
theorem dat0_after1 (c : Dev nD) (t : Fin cfg0.N) : (dat0 V c).after 1 t = tileIn0 V c 1 t := by dsimp only [dat0]
theorem dat0_after2 (c : Dev nD) (t : Fin cfg0.N) : (dat0 V c).after 2 t = tileIn0 V c 2 t := by dsimp only [dat0]
theorem dat0_after3 (c : Dev nD) (t : Fin cfg0.N) : (dat0 V c).after 3 t = tileIn0 V c 3 t := by dsimp only [dat0]
theorem dat0_after4 (c : Dev nD) (t : Fin cfg0.N) : (dat0 V c).after 4 t = tileIn0 V c 4 t := by dsimp only [dat0]
theorem dat0_after5 (c : Dev nD) (t : Fin cfg0.N) : (dat0 V c).after 5 t = tileIn0 V c 5 t := by dsimp only [dat0]
theorem dat0_after6 (c : Dev nD) (t : Fin cfg0.N) : (dat0 V c).after 6 t
    = tileOut0 (grid0.coords t) (tileIn0 V c 0 t) (tileIn0 V c 1 t) (tileIn0 V c 2 t) (tileIn0 V c 3 t) (tileIn0 V c 4 t) (tileIn0 V c 5 t) := by
  dsimp only [dat0]

theorem dat0_before0 (c : Dev nD) (t : Fin cfg0.N) (d) : (dat0 V c).before 0 t d = tileIn0 V c 0 t :=
  tileIn0_found0 V (dat0 V c) (dat0_A V c 0) (dat0_after0 V c) t d
theorem dat0_before1 (c : Dev nD) (t : Fin cfg0.N) (d) : (dat0 V c).before 1 t d = tileIn0 V c 1 t :=
  tileIn0_found1 V (dat0 V c) (dat0_A V c 1) (dat0_after1 V c) t d
theorem dat0_before2 (c : Dev nD) (t : Fin cfg0.N) (d) : (dat0 V c).before 2 t d = tileIn0 V c 2 t :=
  tileIn0_found2 V (dat0 V c) (dat0_A V c 2) (dat0_after2 V c) t d
theorem dat0_before3 (c : Dev nD) (t : Fin cfg0.N) (d) : (dat0 V c).before 3 t d = tileIn0 V c 3 t :=
  tileIn0_found3 V (dat0 V c) (dat0_A V c 3) (dat0_after3 V c) t d
theorem dat0_before4 (c : Dev nD) (t : Fin cfg0.N) (d) : (dat0 V c).before 4 t d = tileIn0 V c 4 t :=
  tileIn0_found4 V (dat0 V c) (dat0_A V c 4) (dat0_after4 V c) t d
theorem dat0_before5 (c : Dev nD) (t : Fin cfg0.N) (d) : (dat0 V c).before 5 t d = tileIn0 V c 5 t :=
  tileIn0_found5 V (dat0 V c) (dat0_A V c 5) (dat0_after5 V c) t d

/-! ## The body obligation, at a generic point -/

/-- What the body is called with at point t, the windows one by one. -/
def body0_pre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns. -/
def body0_post (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and what the
    core owes pass through unread. -/
theorem body0_sound (c : Dev nD) (t : Fin cfg0.N) :
    body0_pre V c t ⊢ wp frame (wpE (defs₀ (F := F)) Variants.none c none) Set.univ (bodyAt0 t) (fun _ => body0_post V c t) := by
  unfold body0_pre body0_post bodyAt0
  simp only [dat0_before0, dat0_before1, dat0_before2, dat0_before3, dat0_before4, dat0_before5]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5, dat0_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel0_triple c Set.univ (grid0.coords t) _ _ _ _ _ _ _ _ _ _ _ _ _ _
    (tileIn0 V c 0 t) (tileIn0 V c 1 t) (tileIn0 V c 2 t) (tileIn0 V c 3 t) (tileIn0 V c 4 t) (tileIn0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body0_obligation (c : Dev nD) : BodyObligation (dat0 (F := F) V c) (defs₀ (F := F)) Variants.none () Set.univ := fun t => by
  rw [bigSep_W0, bigSep_W0]
  exact body0_sound V c t

end Cert.KernelIdeal.Hand

end
-- ==== Proof.Region1.lean ====
/-
  The second GRU layer's pallas_call (pipeline 1 of the program) at a parameter V, the contents of the TensorCore's buffers
  when the region is entered.

  The grid has 16 points; point t computes columns [128 t, 128 t + 128) of the new hidden state. Six input windows: the
  layer input x (1 x 2048) and the previous hidden state h (1 x 2048), both whole and fetched once; the two weight
  tensors (3 x 2048 x K) and the two bias matrices (3 x 2048), cut along the middle (resp. last) axis into blocks of
  128 rows. One output window, the 1 x 128 block of the result.

  What one run of the body leaves in the output block is ONE store, of the body's arithmetic (the skeleton's payloads)
  applied to what its loads read: the whole x, the whole h, the 128 columns of h at offset 128 t (the body slices the
  resident h at the point's own offset), and the four weight / bias blocks (tileOut1). The body's Hoare triple
  (kernel1_triple) is run symbolically once at a generic grid point; the proof data (dat1) records each input window's
  block (tileIn1) and that output block; body1_obligation is the per-point obligation the launch theorem asks for.
-/
import proofs.«147042_j85452669321958_1_alg».proof.Proof.Gen.KernelIdeal.Launch
import proofs.«147042_j85452669321958_1_alg».proof.Proof.Gen.KernelIdeal.Skeleton
import proofs.«147042_j85452669321958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def tileIn1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it at that
    point or kept it from the point before (the block index did not move then), for any proof data over the arrays V
    whose body leaves the input blocks in place. One statement per input window (the block's index type is the
    window's own). -/
theorem tileIn1_found0 {c : Dev nD} (dat : Dat τ (Elt F) Unit ℕ (UR sig nD τ) ℕ cfg1 c) (hA : dat.A 0 = V c (Pipeline.arrRef spec1 0))
    (hafter : ∀ t, dat.after 0 t = tileIn1 V c 0 t) (t : Fin cfg1.N) (d) : dat.before 0 t d = tileIn1 V c 0 t :=
  (dat.before_in_eq_fetched 0 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found1 {c : Dev nD} (dat : Dat τ (Elt F) Unit ℕ (UR sig nD τ) ℕ cfg1 c) (hA : dat.A 1 = V c (Pipeline.arrRef spec1 1))
    (hafter : ∀ t, dat.after 1 t = tileIn1 V c 1 t) (t : Fin cfg1.N) (d) : dat.before 1 t d = tileIn1 V c 1 t :=
  (dat.before_in_eq_fetched 1 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found2 {c : Dev nD} (dat : Dat τ (Elt F) Unit ℕ (UR sig nD τ) ℕ cfg1 c) (hA : dat.A 2 = V c (Pipeline.arrRef spec1 2))
    (hafter : ∀ t, dat.after 2 t = tileIn1 V c 2 t) (t : Fin cfg1.N) (d) : dat.before 2 t d = tileIn1 V c 2 t :=
  (dat.before_in_eq_fetched 2 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found3 {c : Dev nD} (dat : Dat τ (Elt F) Unit ℕ (UR sig nD τ) ℕ cfg1 c) (hA : dat.A 3 = V c (Pipeline.arrRef spec1 3))
    (hafter : ∀ t, dat.after 3 t = tileIn1 V c 3 t) (t : Fin cfg1.N) (d) : dat.before 3 t d = tileIn1 V c 3 t :=
  (dat.before_in_eq_fetched 3 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found4 {c : Dev nD} (dat : Dat τ (Elt F) Unit ℕ (UR sig nD τ) ℕ cfg1 c) (hA : dat.A 4 = V c (Pipeline.arrRef spec1 4))
    (hafter : ∀ t, dat.after 4 t = tileIn1 V c 4 t) (t : Fin cfg1.N) (d) : dat.before 4 t d = tileIn1 V c 4 t :=
  (dat.before_in_eq_fetched 4 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found5 {c : Dev nD} (dat : Dat τ (Elt F) Unit ℕ (UR sig nD τ) ℕ cfg1 c) (hA : dat.A 5 = V c (Pipeline.arrRef spec1 5))
    (hafter : ∀ t, dat.after 5 t = tileIn1 V c 5 t) (t : Fin cfg1.N) (d) : dat.before 5 t d = tileIn1 V c 5 t :=
  (dat.before_in_eq_fetched 5 rfl (fun _ => rfl) (fun _ _ _ => rfl) (fun t => by rw [hafter]; unfold Dat.blockOf tileIn1; rw [hA]; try rfl) t d).trans
    (by unfold Dat.fetched Dat.blockOf tileIn1; rw [hA]; try rfl)

/-! ## The body's accesses -/

abbrev rX1 : Rect S1x2048 := Rect.unit (s := S1x2048) ![0, 0] S1x2048.size inb_S1x2048_S1x2048_0_0
abbrev rH1 : Rect S1x2048 := Rect.unit (s := S1x2048) ![0, 0] S1x2048.size inb_S1x2048_S1x2048_0_0
/-- The 128 columns of the resident hidden state that the point's own output block updates. -/
abbrev rHt1 (i : grid1.Coords) : Rect S1x2048 := Rect.unit (s := S1x2048) (k1_off1 i) S1x128.size (k1_off1_inb i)
abbrev rWi1 : Rect S3x128x2048 := Rect.unit (s := S3x128x2048) ![0, 0, 0] S3x128x2048.size inb_S3x128x2048_S3x128x2048_0_0_0
abbrev rWh1 : Rect S3x128x2048 := Rect.unit (s := S3x128x2048) ![0, 0, 0] S3x128x2048.size inb_S3x128x2048_S3x128x2048_0_0_0
abbrev rB1 : Rect S3x128 := Rect.unit (s := S3x128) ![0, 0] S3x128.size inb_S3x128_S3x128_0_0
abbrev rO1 : Rect S1x128 := Rect.unit (s := S1x128) ![0, 0] S1x128.size inb_S1x128_S1x128_0_0

/-! ## What the body leaves in the output block -/

/-- The output block after the body at grid coordinates i, from the six input blocks: one whole-block store of the
    GRU arithmetic of the loaded values. -/
def tileOut1 (i : grid1.Coords) (x0 : Vec F S1x2048 .f32) (x1 : Vec F S1x2048 .f32) (x2 : Vec F S3x128x2048 .f32) (x3 : Vec F S3x128x2048 .f32)
    (x4 : Vec F S3x128 .f32) (x5 : Vec F S3x128 .f32) : Vec F S1x128 .f32 :=
  View.canon [⟨rO1, k1_pay1 (k1_pay3 (View.ld x1 rH1)) (k1_pay4 (View.ld x1 (rHt1 i))) (k1_pay6 (View.ld x3 rWh1)) (k1_pay8 (View.ld x5 rB1))
    (k1_pay9 (View.ld x0 rX1) (View.ld x2 rWi1) (View.ld x4 rB1)) (k1_pay10 (View.ld x0 rX1) (View.ld x2 rWi1) (View.ld x4 rB1))
    (k1_pay11 (View.ld x0 rX1) (View.ld x2 rWi1)) (k1_pay12 (View.ld x4 rB1))⟩]

/-- The one store covers the block. -/
theorem tileOut1_cover (p0 : Vec F S1x128 .f32) (y : S1x128.Idx) :
    ∃ pc ∈ ([⟨rO1, p0⟩] : List (View.Piece (Elt F) S1x128 .f32)), y ∈ pc.1.set :=
  View.cover_of_tiled [⟨rO1, p0⟩] S1x128.size (by rfl) y

/-! ## The body's triple -/

set_option maxHeartbeats 1000000 in
/-- The kernel body at grid coordinates i on whole staging memrefs — the inputs' at contents x0 … x5, the output's at
    anything — runs to its continuation with the inputs' as they were and the output's at tileOut1 of the inputs'. -/
theorem kernel1_triple (c : Dev nD) (E : Set ℕ) (i : grid1.Coords)
    (arg1 : Memref sig .tc .vmem S1x2048 .f32) (harg1 : arg1.IsWhole) (arg2 : Memref sig .tc .vmem S1x2048 .f32) (harg2 : arg2.IsWhole)
    (arg3 : Memref sig .tc .vmem S3x128x2048 .f32) (harg3 : arg3.IsWhole) (arg4 : Memref sig .tc .vmem S3x128x2048 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S1x128 .f32) (harg7 : arg7.IsWhole)
    (x0 : Vec F S1x2048 .f32) (x1 : Vec F S1x2048 .f32) (x2 : Vec F S3x128x2048 .f32) (x3 : Vec F S3x128x2048 .f32)
    (x4 : Vec F S3x128 .f32) (x5 : Vec F S3x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tileOut1 i x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tileOut1_cover _)

/-! ## The pipeline's proof data -/

/-- The proof data of pipeline 1 on core c: the arrays as the region finds them; after the body at point t each input's
    buffer at its block and the output's at tileOut1 of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => tileIn1 V c 0 t
    | ⟨1, _⟩ => tileIn1 V c 1 t
    | ⟨2, _⟩ => tileIn1 V c 2 t
    | ⟨3, _⟩ => tileIn1 V c 3 t
    | ⟨4, _⟩ => tileIn1 V c 4 t
    | ⟨5, _⟩ => tileIn1 V c 5 t
    | ⟨6, _⟩ => tileOut1 (grid1.coords t) (tileIn1 V c 0 t) (tileIn1 V c 1 t) (tileIn1 V c 2 t) (tileIn1 V c 3 t) (tileIn1 V c 4 t) (tileIn1 V c 5 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = tileIn1 V c 0 t := by dsimp only [dat1]
theorem dat1_after1 (c : Dev nD) (t : Fin cfg1.N) : (dat1 V c).after 1 t = tileIn1 V c 1 t := by dsimp only [dat1]
theorem dat1_after2 (c : Dev nD) (t : Fin cfg1.N) : (dat1 V c).after 2 t = tileIn1 V c 2 t := by dsimp only [dat1]
theorem dat1_after3 (c : Dev nD) (t : Fin cfg1.N) : (dat1 V c).after 3 t = tileIn1 V c 3 t := by dsimp only [dat1]
theorem dat1_after4 (c : Dev nD) (t : Fin cfg1.N) : (dat1 V c).after 4 t = tileIn1 V c 4 t := by dsimp only [dat1]
theorem dat1_after5 (c : Dev nD) (t : Fin cfg1.N) : (dat1 V c).after 5 t = tileIn1 V c 5 t := by dsimp only [dat1]
theorem dat1_after6 (c : Dev nD) (t : Fin cfg1.N) : (dat1 V c).after 6 t
    = tileOut1 (grid1.coords t) (tileIn1 V c 0 t) (tileIn1 V c 1 t) (tileIn1 V c 2 t) (tileIn1 V c 3 t) (tileIn1 V c 4 t) (tileIn1 V c 5 t) := by
  dsimp only [dat1]

theorem dat1_before0 (c : Dev nD) (t : Fin cfg1.N) (d) : (dat1 V c).before 0 t d = tileIn1 V c 0 t :=
  tileIn1_found0 V (dat1 V c) (dat1_A V c 0) (dat1_after0 V c) t d
theorem dat1_before1 (c : Dev nD) (t : Fin cfg1.N) (d) : (dat1 V c).before 1 t d = tileIn1 V c 1 t :=
  tileIn1_found1 V (dat1 V c) (dat1_A V c 1) (dat1_after1 V c) t d
theorem dat1_before2 (c : Dev nD) (t : Fin cfg1.N) (d) : (dat1 V c).before 2 t d = tileIn1 V c 2 t :=
  tileIn1_found2 V (dat1 V c) (dat1_A V c 2) (dat1_after2 V c) t d
theorem dat1_before3 (c : Dev nD) (t : Fin cfg1.N) (d) : (dat1 V c).before 3 t d = tileIn1 V c 3 t :=
  tileIn1_found3 V (dat1 V c) (dat1_A V c 3) (dat1_after3 V c) t d
theorem dat1_before4 (c : Dev nD) (t : Fin cfg1.N) (d) : (dat1 V c).before 4 t d = tileIn1 V c 4 t :=
  tileIn1_found4 V (dat1 V c) (dat1_A V c 4) (dat1_after4 V c) t d
theorem dat1_before5 (c : Dev nD) (t : Fin cfg1.N) (d) : (dat1 V c).before 5 t d = tileIn1 V c 5 t :=
  tileIn1_found5 V (dat1 V c) (dat1_A V c 5) (dat1_after5 V c) t d

/-! ## The body obligation, at a generic point -/

/-- What the body is called with at point t, the windows one by one. -/
def body1_pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def body1_post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and what the
    core owes pass through unread. -/
theorem body1_sound (c : Dev nD) (t : Fin cfg1.N) :
    body1_pre V c t ⊢ wp frame (wpE (defs₀ (F := F)) Variants.none c none) Set.univ (bodyAt1 t) (fun _ => body1_post V c t) := by
  unfold body1_pre body1_post bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel1_triple c Set.univ (grid1.coords t) _ _ _ _ _ _ _ _ _ _ _ _ _ _
    (tileIn1 V c 0 t) (tileIn1 V c 1 t) (tileIn1 V c 2 t) (tileIn1 V c 3 t) (tileIn1 V c 4 t) (tileIn1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body1_obligation (c : Dev nD) : BodyObligation (dat1 (F := F) V c) (defs₀ (F := F)) Variants.none () Set.univ := fun t => by
  rw [bigSep_W1, bigSep_W1]
  exact body1_sound V c t

end Cert.KernelIdeal.Hand

end
-- ==== Proof.Assembly.lean ====
/-
  The run of @main: the host operations before the two pallas_calls, the first GRU layer's region, the second layer's
  region, and the host operations after them (the head's matrix product, the softmax, the stacking of the two hidden
  states), composed into ONE statement: every weakly fair execution terminates without a fault, and at the end every
  unscoped buffer of a TensorCore holds the contents the fold below names (run_all).

  The fold walks the buffers' contents through the four items: at launch the memory (buf0); after the first host
  stretch the operations applied (buf1); after a region its operand arrays at what the pipeline's write-backs leave —
  the inputs as found, the result array the blocks the grid points wrote (buf2, buf3) —; after the last stretch its
  operations applied (buf4). No item writes an argument array, so each argument ends as launched (buf4_arg).

  Between two items a core holds all its unscoped buffers at the current contents, its generator register at some state,
  and owes nothing. A region takes its seven operand arrays out of that state on entry and puts them back, at the
  contents the pipeline computed, on exit.
-/
import proofs.«147042_j85452669321958_1_alg».proof.Proof.Gen.KernelIdeal.Launch
import proofs.«147042_j85452669321958_1_alg».proof.Proof.Gen.KernelIdeal.Skeleton
import proofs.«147042_j85452669321958_1_alg».proof.Proof.Gen.KernelIdeal.Points
import proofs.«147042_j85452669321958_1_alg».proof.Proof.Gen.KernelIdeal.Regions
import proofs.«147042_j85452669321958_1_alg».proof.Proof.Region0
import proofs.«147042_j85452669321958_1_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev buf0 : Dev nD → Valuation τ sig (Elt F) := fun c b => m (c, b)
/-- After the host operations before the first pallas_call. -/
abbrev buf1 : Dev nD → Valuation τ sig (Elt F) := fun c => StableHlo.after hostOps0 (buf0 m c)
/-- The same read at the TensorCore's references (what the first region's proof data take). -/
abbrev ent1 : (c : Dev nD) → (b : Ref sig .tc) → Buf (Elt F) ((c : Thread nD τ).loc b) := fun c b => buf1 m c b
/-- At the first region's exit: its operand arrays at what the pipeline leaves, every other buffer as entered. -/
def buf2 (c : Dev nD) : Valuation τ sig (Elt F) :=
  Pipeline.withArrays spec0 c (buf1 m c) fun w => (dat0 (ent1 m) c).arrAt w cfg0.N
theorem buf2_arr (c : Dev nD) (w : Fin cfg0.W) :
    buf2 m c (Proc.devRef .tc (Pipeline.arrRef spec0 w)) = (dat0 (ent1 m) c).arrAt w cfg0.N := by
  unfold buf2; exact Pipeline.withArrays_arr spec0 launch0.win.arr_inj c _ _ w
theorem buf2_of_ne (c : Dev nD) (b : Ref sig .tc) (hb : ∀ w, Pipeline.arrRef spec0 w ≠ b) :
    buf2 m c (Proc.devRef .tc b) = buf1 m c (Proc.devRef .tc b) := by
  unfold buf2; exact Pipeline.withArrays_of_ne spec0 c _ _ b hb
abbrev ent2 : (c : Dev nD) → (b : Ref sig .tc) → Buf (Elt F) ((c : Thread nD τ).loc b) := fun c b => buf2 m c b
theorem region0_final (c : Dev nD) (w : Fin cfg0.W) : (dat0 (ent1 m) c).arrAt w cfg0.N = ent2 m c (Pipeline.arrRef spec0 w) :=
  (buf2_arr m c w).symm
theorem region0_rest (c : Dev nD) : ∀ b, b ∉ Finset.univ.image (Pipeline.arrRef spec0) → ent2 m c b = ent1 m c b :=
  fun b hb => buf2_of_ne m c b fun w e => hb (Finset.mem_image.mpr ⟨w, Finset.mem_univ _, e⟩)

/-- At the second region's exit (it is entered straight from the first region's exit). -/
def buf3 (c : Dev nD) : Valuation τ sig (Elt F) :=
  Pipeline.withArrays spec1 c (buf2 m c) fun w => (dat1 (ent2 m) c).arrAt w cfg1.N
theorem buf3_arr (c : Dev nD) (w : Fin cfg1.W) :
    buf3 m c (Proc.devRef .tc (Pipeline.arrRef spec1 w)) = (dat1 (ent2 m) c).arrAt w cfg1.N := by
  unfold buf3; exact Pipeline.withArrays_arr spec1 launch1.win.arr_inj c _ _ w
theorem buf3_of_ne (c : Dev nD) (b : Ref sig .tc) (hb : ∀ w, Pipeline.arrRef spec1 w ≠ b) :
    buf3 m c (Proc.devRef .tc b) = buf2 m c (Proc.devRef .tc b) := by
  unfold buf3; exact Pipeline.withArrays_of_ne spec1 c _ _ b hb
abbrev ent3 : (c : Dev nD) → (b : Ref sig .tc) → Buf (Elt F) ((c : Thread nD τ).loc b) := fun c b => buf3 m c b
theorem region1_final (c : Dev nD) (w : Fin cfg1.W) : (dat1 (ent2 m) c).arrAt w cfg1.N = ent3 m c (Pipeline.arrRef spec1 w) :=
  (buf3_arr m c w).symm
theorem region1_rest (c : Dev nD) : ∀ b, b ∉ Finset.univ.image (Pipeline.arrRef spec1) → ent3 m c b = ent2 m c b :=
  fun b hb => buf3_of_ne m c b fun w e => hb (Finset.mem_image.mpr ⟨w, Finset.mem_univ _, e⟩)

/-- After the host operations that follow the two regions: the end of @main. -/
abbrev buf4 : Dev nD → Valuation τ sig (Elt F) := fun c => StableHlo.after hostOps2 (buf3 m c)

/-- A buffer no host operation writes and no region has among its operand arrays ends as launched. -/
theorem buf4_untouched (c : Dev nD) (b : Ref sig .tc) (h0 : b ∉ hostOps0_W) (h2 : b ∉ hostOps2_W)
    (hr0 : ∀ w, Pipeline.arrRef spec0 w ≠ b) (hr1 : ∀ w, Pipeline.arrRef spec1 w ≠ b) :
    buf4 m c (Proc.devRef .tc b) = m ((c : Thread nD τ).loc b) :=
  calc buf4 m c (Proc.devRef .tc b)
    _ = buf3 m c (Proc.devRef .tc b) := StableHlo.after_of_writes_sub hostOps2 _ hostOps2_writes h2
    _ = buf2 m c (Proc.devRef .tc b) := buf3_of_ne m c b hr1
    _ = buf1 m c (Proc.devRef .tc b) := buf2_of_ne m c b hr0
    _ = buf0 m c (Proc.devRef .tc b) := StableHlo.after_of_writes_sub hostOps0 _ hostOps0_writes h0
    _ = m ((c : Thread nD τ).loc b) := rfl

/-! ## The proof data family and the thread state -/

/-- Every pipeline's proof data, each at its region's entry contents. -/
def regionData : (p : Fin 2) → (c : Dev nD) → Dat τ (Elt F) Unit ℕ (UR sig nD τ) ℕ (Pipeline.pin (pcfgs (F := F)) adm p) c
  | ⟨0, _⟩ => fun c => dat0 (ent1 m) c
  | ⟨1, _⟩ => fun c => dat1 (ent2 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)
/-- A host stretch as a segment over all the unscoped references from given contents. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the final contents, the generator register. -/
abbrev lastState (c : Dev nD) : sProp 𝕄 := iprop(StableHlo.held (c : Thread nD τ) (Pipeline.ucRefs τ sig) (buf4 m c) ∗ ∃ r, prngReg c r)

/-! ## The regions as segments -/

set_option backward.isDefEq.respectTransparency.types false in
/-- The first layer's region: entered with every unscoped buffer at buf1, left with them at buf2. -/
def regionSeg0 : Pipeline.RegionSeg (pcfgs (F := F)) adm (regionData m) () defs₀ noVariants noPairs noLevel 0 where
  win := launch0.win.to₀
  block_pos := launch0.block_pos
  stage_whole := launch0.stage_whole
  K := PEmpty
  osem k := k.elim
  ho := Pipeline.OwnSemFacts.none _
  hbody c := (body0_obligation (ent1 m) c).loose
  hwaits := Pipeline.hwaits_of_owed_zero _ _ _ _ noPairs noLevel 0 fun _ _ => rfl
  pre c := iprop(StableHlo.held (c : Thread nD τ) (Pipeline.ucRefs τ sig) (buf1 m c) ∗ riding c)
  post c := iprop(StableHlo.held (c : Thread nD τ) (Pipeline.ucRefs τ sig) (buf2 m c) ∗ riding c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) adm (regionData m) launch0.win launch0.arr_whole c
      ((regionData m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (regionData m) ((regionData m 0 c).share_full fun _ => rfl)
      (ent1 m c) (ent2 m c) ((regionData m 0 c).arrAt · cfg0.N) (region0_final m c) (region0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered with every unscoped buffer at buf2, left with them at buf3. -/
def regionSeg1 : Pipeline.RegionSeg (pcfgs (F := F)) adm (regionData m) () defs₀ noVariants noPairs noLevel 1 where
  win := launch1.win.to₀
  block_pos := launch1.block_pos
  stage_whole := launch1.stage_whole
  K := PEmpty
  osem k := k.elim
  ho := Pipeline.OwnSemFacts.none _
  hbody c := (body1_obligation (ent2 m) c).loose
  hwaits := Pipeline.hwaits_of_owed_zero _ _ _ _ noPairs noLevel 1 fun _ _ => rfl
  pre c := iprop(StableHlo.held (c : Thread nD τ) (Pipeline.ucRefs τ sig) (buf2 m c) ∗ riding c)
  post c := iprop(StableHlo.held (c : Thread nD τ) (Pipeline.ucRefs τ sig) (buf3 m c) ∗ riding c)
  X c := iprop(∃ r, prngReg c r)
  Y c := iprop(∃ r, prngReg c r)
  Z c := Pipeline.unscopedRest (Ix := Unit) (Name := ℕ) (U := UR sig nD τ) (Lvl := ℕ) spec1 c (ent2 m c)
  hentry c := by
    rw [Pipeline.ownSems0_none]
    have hsplit := Pipeline.arrays_of_unscopedBufs (p := 1) (pcfgs (F := F)) adm (regionData m) launch1.win launch1.arr_whole c
      ((regionData m 1 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (regionData m) ((regionData m 1 c).share_full fun _ => rfl)
      (ent2 m c) (ent3 m c) ((regionData m 1 c).arrAt · cfg1.N) (region1_final m c) (region1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (regionData m) () defs₀ noVariants noPairs noLevel) :=
  [ .host (hostStretch hostOps0 hostOps0_sub hostOps0_fresh (buf0 m)),
    .region (regionSeg0 m),
    .region (regionSeg1 m),
    .host (hostStretch hostOps2 hostOps2_sub hostOps2_fresh (buf3 m)) ]

/-- @main is the run of the items. -/
theorem main_items (c : Dev nD) : main (F := F) c = Pipeline.Seg.run (items m) := (main_chain c).trans (by chain_rfl)

set_option backward.isDefEq.respectTransparency.types false in
/-- THE RUN. From any memory with zero counters, every weakly fair execution of @main on the TensorCores terminates,
    nothing faulting, and every final state has every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = buf4 m c b) :=
  Pipeline.θ_run_regions_kit (pcfgs (F := F)) adm (regionData m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (buf0 m c) ∗ riding c)) (Tₙ := lastState m)
    (hch := ⟨fun _ => .rfl, fun _ => .rfl, fun _ => .rfl, fun _ => .rfl, fun c => by
      show iprop(StableHlo.held (c : Thread nD τ) (Pipeline.ucRefs τ sig) (buf4 m c) ∗ riding c)
        ⊢ iprop(lastState m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (buf0 m c)
        from Pipeline.unscopedBufs_held c (buf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = buf4 m c b)
    (hfin := fun c s' => by
      iintro ⟨⟨Hh, -⟩, HSI⟩
      unfold StableHlo.held
      imodintro
      iapply (pointsTo_read_all (Pipeline.ucRefs τ sig) (fun b => (((c : Thread nD τ)).1, b)) (buf4 m c) s')
      isplitl [Hh] <;> iassumption)
    (hQ := fun s h c => h c)

end Cert.KernelIdeal.Hand

end
-- ==== Proof.BitsRegion0.lean ====
/-
  The first GRU layer's pallas_call (pipeline 0 of the program) at a parameter V, the contents of the TensorCore's buffers
  when the region is entered.

  The grid has 8 points; point t computes columns [256 t, 256 t + 256) of the new hidden state. Six input windows: the
  layer input x (1 x 512) and the previous hidden state h (1 x 2048), both whole and fetched once; the two weight
  tensors (3 x 2048 x K) and the two bias matrices (3 x 2048), cut along the middle (resp. last) axis into blocks of
  256 rows. One output window, the 1 x 256 block of the result.

  What one run of the body leaves in the output block is ONE store, of the body's arithmetic (the skeleton's payloads)
  applied to what its loads read: the whole x, the whole h, the 256 columns of h at offset 256 t (the body slices the
  resident h at the point's own offset), and the four weight / bias blocks (tileOut0). The body's Hoare triple
  (kernel0_triple) is run symbolically once at a generic grid point; the proof data (dat0) records each input window's
  block (tileIn0) and that output block; body0_obligation is the per-point obligation the launch theorem asks for.
-/
import proofs.«147042_j85452669321958_1_alg».proof.Proof.Gen.Kernel.Launch
import proofs.«147042_j85452669321958_1_alg».proof.Proof.Gen.Kernel.Skeleton
import proofs.«147042_j85452669321958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def tileIn0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the pipeline fetched it at that
    point or kept it from the point before (the block index did not move then), for any proof data over the arrays V
    whose body leaves the input blocks in place. One statement per input window (the block's index type is the
    window's own). -/
theorem tileIn0_found0 {c : Dev nD} (dat : Dat τ (Elt F) Unit ℕ (UR sig nD τ) ℕ cfg0 c) (hA : dat.A 0 = V c (Pipeline.arrRef spec0 0))
    (hafter : ∀ t, dat.after 0 t = tileIn0 V c 0 t) (t : Fin cfg0.N) (d) : dat.before 0 t d = tileIn0 V c 0 t :=
  (dat.before_in_eq_fetched 0 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found1 {c : Dev nD} (dat : Dat τ (Elt F) Unit ℕ (UR sig nD τ) ℕ cfg0 c) (hA : dat.A 1 = V c (Pipeline.arrRef spec0 1))
    (hafter : ∀ t, dat.after 1 t = tileIn0 V c 1 t) (t : Fin cfg0.N) (d) : dat.before 1 t d = tileIn0 V c 1 t :=
  (dat.before_in_eq_fetched 1 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found2 {c : Dev nD} (dat : Dat τ (Elt F) Unit ℕ (UR sig nD τ) ℕ cfg0 c) (hA : dat.A 2 = V c (Pipeline.arrRef spec0 2))
    (hafter : ∀ t, dat.after 2 t = tileIn0 V c 2 t) (t : Fin cfg0.N) (d) : dat.before 2 t d = tileIn0 V c 2 t :=
  (dat.before_in_eq_fetched 2 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found3 {c : Dev nD} (dat : Dat τ (Elt F) Unit ℕ (UR sig nD τ) ℕ cfg0 c) (hA : dat.A 3 = V c (Pipeline.arrRef spec0 3))
    (hafter : ∀ t, dat.after 3 t = tileIn0 V c 3 t) (t : Fin cfg0.N) (d) : dat.before 3 t d = tileIn0 V c 3 t :=
  (dat.before_in_eq_fetched 3 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found4 {c : Dev nD} (dat : Dat τ (Elt F) Unit ℕ (UR sig nD τ) ℕ cfg0 c) (hA : dat.A 4 = V c (Pipeline.arrRef spec0 4))
    (hafter : ∀ t, dat.after 4 t = tileIn0 V c 4 t) (t : Fin cfg0.N) (d) : dat.before 4 t d = tileIn0 V c 4 t :=
  (dat.before_in_eq_fetched 4 rfl (fun _ => rfl) (fun _ _ _ => rfl) (fun t => by rw [hafter]; unfold Dat.blockOf tileIn0; rw [hA]; try rfl) t d).trans
    (by unfold Dat.fetched Dat.blockOf tileIn0; rw [hA]; try rfl)
theorem tileIn0_found5 {c : Dev nD} (dat : Dat τ (Elt F) Unit ℕ (UR sig nD τ) ℕ cfg0 c) (hA : dat.A 5 = V c (Pipeline.arrRef spec0 5))
    (hafter : ∀ t, dat.after 5 t = tileIn0 V c 5 t) (t : Fin cfg0.N) (d) : dat.before 5 t d = tileIn0 V c 5 t :=
  (dat.before_in_eq_fetched 5 rfl (fun _ => rfl) (fun _ _ _ => rfl) (fun t => by rw [hafter]; unfold Dat.blockOf tileIn0; rw [hA]; try rfl) t d).trans
    (by unfold Dat.fetched Dat.blockOf tileIn0; rw [hA]; try rfl)

/-! ## The body's accesses -/

abbrev rX0 : Rect S1x512 := Rect.unit (s := S1x512) ![0, 0] S1x512.size inb_S1x512_S1x512_0_0
abbrev rH0 : Rect S1x2048 := Rect.unit (s := S1x2048) ![0, 0] S1x2048.size inb_S1x2048_S1x2048_0_0
/-- The 256 columns of the resident hidden state that the point's own output block updates. -/
abbrev rHt0 (i : grid0.Coords) : Rect S1x2048 := Rect.unit (s := S1x2048) (k0_off1 i) S1x256.size (k0_off1_inb i)
abbrev rWi0 : Rect S3x256x512 := Rect.unit (s := S3x256x512) ![0, 0, 0] S3x256x512.size inb_S3x256x512_S3x256x512_0_0_0
abbrev rWh0 : Rect S3x256x2048 := Rect.unit (s := S3x256x2048) ![0, 0, 0] S3x256x2048.size inb_S3x256x2048_S3x256x2048_0_0_0
abbrev rB0 : Rect S3x256 := Rect.unit (s := S3x256) ![0, 0] S3x256.size inb_S3x256_S3x256_0_0
abbrev rO0 : Rect S1x256 := Rect.unit (s := S1x256) ![0, 0] S1x256.size inb_S1x256_S1x256_0_0

/-! ## What the body leaves in the output block -/

/-- The output block after the body at grid coordinates i, from the six input blocks: one whole-block store of the
    GRU arithmetic of the loaded values. -/
def tileOut0 (i : grid0.Coords) (x0 : Vec F S1x512 .f32) (x1 : Vec F S1x2048 .f32) (x2 : Vec F S3x256x512 .f32) (x3 : Vec F S3x256x2048 .f32)
    (x4 : Vec F S3x256 .f32) (x5 : Vec F S3x256 .f32) : Vec F S1x256 .f32 :=
  View.canon [⟨rO0, k0_pay1 (k0_pay3 (View.ld x1 rH0)) (k0_pay4 (View.ld x1 (rHt0 i))) (k0_pay6 (View.ld x3 rWh0)) (k0_pay8 (View.ld x5 rB0))
    (k0_pay9 (View.ld x0 rX0) (View.ld x2 rWi0) (View.ld x4 rB0)) (k0_pay10 (View.ld x0 rX0) (View.ld x2 rWi0) (View.ld x4 rB0))
    (k0_pay11 (View.ld x0 rX0) (View.ld x2 rWi0)) (k0_pay12 (View.ld x4 rB0))⟩]

/-- The one store covers the block. -/
theorem tileOut0_cover (p0 : Vec F S1x256 .f32) (y : S1x256.Idx) :
    ∃ pc ∈ ([⟨rO0, p0⟩] : List (View.Piece (Elt F) S1x256 .f32)), y ∈ pc.1.set :=
  View.cover_of_tiled [⟨rO0, p0⟩] S1x256.size (by rfl) y

/-! ## The body's triple -/

set_option maxHeartbeats 1000000 in
/-- The kernel body at grid coordinates i on whole staging memrefs — the inputs' at contents x0 … x5, the output's at
    anything — runs to its continuation with the inputs' as they were and the output's at tileOut0 of the inputs'. -/
theorem kernel0_triple (c : Dev nD) (E : Set ℕ) (i : grid0.Coords)
    (arg1 : Memref sig .tc .vmem S1x512 .f32) (harg1 : arg1.IsWhole) (arg2 : Memref sig .tc .vmem S1x2048 .f32) (harg2 : arg2.IsWhole)
    (arg3 : Memref sig .tc .vmem S3x256x512 .f32) (harg3 : arg3.IsWhole) (arg4 : Memref sig .tc .vmem S3x256x2048 .f32) (harg4 : arg4.IsWhole)
    (arg5 : Memref sig .tc .vmem S3x256 .f32) (harg5 : arg5.IsWhole) (arg6 : Memref sig .tc .vmem S3x256 .f32) (harg6 : arg6.IsWhole)
    (arg7 : Memref sig .tc .vmem S1x256 .f32) (harg7 : arg7.IsWhole)
    (x0 : Vec F S1x512 .f32) (x1 : Vec F S1x2048 .f32) (x2 : Vec F S3x256x512 .f32) (x3 : Vec F S3x256x2048 .f32)
    (x4 : Vec F S3x256 .f32) (x5 : Vec F S3x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tileOut0 i x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tileOut0_cover _)

/-! ## The pipeline's proof data -/

/-- The proof data of pipeline 0 on core c: the arrays as the region finds them; after the body at point t each input's
    buffer at its block and the output's at tileOut0 of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => tileIn0 V c 0 t
    | ⟨1, _⟩ => tileIn0 V c 1 t
    | ⟨2, _⟩ => tileIn0 V c 2 t
    | ⟨3, _⟩ => tileIn0 V c 3 t
    | ⟨4, _⟩ => tileIn0 V c 4 t
    | ⟨5, _⟩ => tileIn0 V c 5 t
    | ⟨6, _⟩ => tileOut0 (grid0.coords t) (tileIn0 V c 0 t) (tileIn0 V c 1 t) (tileIn0 V c 2 t) (tileIn0 V c 3 t) (tileIn0 V c 4 t) (tileIn0 V c 5 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = tileIn0 V c 0 t := by dsimp only [dat0]
theorem dat0_after1 (c : Dev nD) (t : Fin cfg0.N) : (dat0 V c).after 1 t = tileIn0 V c 1 t := by dsimp only [dat0]
theorem dat0_after2 (c : Dev nD) (t : Fin cfg0.N) : (dat0 V c).after 2 t = tileIn0 V c 2 t := by dsimp only [dat0]
theorem dat0_after3 (c : Dev nD) (t : Fin cfg0.N) : (dat0 V c).after 3 t = tileIn0 V c 3 t := by dsimp only [dat0]
theorem dat0_after4 (c : Dev nD) (t : Fin cfg0.N) : (dat0 V c).after 4 t = tileIn0 V c 4 t := by dsimp only [dat0]
theorem dat0_after5 (c : Dev nD) (t : Fin cfg0.N) : (dat0 V c).after 5 t = tileIn0 V c 5 t := by dsimp only [dat0]
theorem dat0_after6 (c : Dev nD) (t : Fin cfg0.N) : (dat0 V c).after 6 t
    = tileOut0 (grid0.coords t) (tileIn0 V c 0 t) (tileIn0 V c 1 t) (tileIn0 V c 2 t) (tileIn0 V c 3 t) (tileIn0 V c 4 t) (tileIn0 V c 5 t) := by
  dsimp only [dat0]

theorem dat0_before0 (c : Dev nD) (t : Fin cfg0.N) (d) : (dat0 V c).before 0 t d = tileIn0 V c 0 t :=
  tileIn0_found0 V (dat0 V c) (dat0_A V c 0) (dat0_after0 V c) t d
theorem dat0_before1 (c : Dev nD) (t : Fin cfg0.N) (d) : (dat0 V c).before 1 t d = tileIn0 V c 1 t :=
  tileIn0_found1 V (dat0 V c) (dat0_A V c 1) (dat0_after1 V c) t d
theorem dat0_before2 (c : Dev nD) (t : Fin cfg0.N) (d) : (dat0 V c).before 2 t d = tileIn0 V c 2 t :=
  tileIn0_found2 V (dat0 V c) (dat0_A V c 2) (dat0_after2 V c) t d
theorem dat0_before3 (c : Dev nD) (t : Fin cfg0.N) (d) : (dat0 V c).before 3 t d = tileIn0 V c 3 t :=
  tileIn0_found3 V (dat0 V c) (dat0_A V c 3) (dat0_after3 V c) t d
theorem dat0_before4 (c : Dev nD) (t : Fin cfg0.N) (d) : (dat0 V c).before 4 t d = tileIn0 V c 4 t :=
  tileIn0_found4 V (dat0 V c) (dat0_A V c 4) (dat0_after4 V c) t d
theorem dat0_before5 (c : Dev nD) (t : Fin cfg0.N) (d) : (dat0 V c).before 5 t d = tileIn0 V c 5 t :=
  tileIn0_found5 V (dat0 V c) (dat0_A V c 5) (dat0_after5 V c) t d

/-! ## The body obligation, at a generic point -/

/-- What the body is called with at point t, the windows one by one. -/
def body0_pre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns. -/
def body0_post (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and what the
    core owes pass through unread. -/
theorem body0_sound (c : Dev nD) (t : Fin cfg0.N) :
    body0_pre V c t ⊢ wp frame (wpE (defs₀ (F := F)) Variants.none c none) Set.univ (bodyAt0 t) (fun _ => body0_post V c t) := by
  unfold body0_pre body0_post bodyAt0
  simp only [dat0_before0, dat0_before1, dat0_before2, dat0_before3, dat0_before4, dat0_before5]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5, dat0_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel0_triple c Set.univ (grid0.coords t) _ _ _ _ _ _ _ _ _ _ _ _ _ _
    (tileIn0 V c 0 t) (tileIn0 V c 1 t) (tileIn0 V c 2 t) (tileIn0 V c 3 t) (tileIn0 V c 4 t) (tileIn0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body0_obligation (c : Dev nD) : BodyObligation (dat0 (F := F) V c) (defs₀ (F := F)) Variants.none () Set.univ := fun t => by
  rw [bigSep_W0, bigSep_W0]
  exact body0_sound V c t

end Cert.Kernel.Hand

end
-- ==== Proof.BitsRegion1.lean ====
/-
  The second GRU layer's pallas_call (pipeline 1 of the program) at a parameter V, the contents of the TensorCore's buffers
  when the region is entered.

  The grid has 16 points; point t computes columns [128 t, 128 t + 128) of the new hidden state. Six input windows: the
  layer input x (1 x 2048) and the previous hidden state h (1 x 2048), both whole and fetched once; the two weight
  tensors (3 x 2048 x K) and the two bias matrices (3 x 2048), cut along the middle (resp. last) axis into blocks of
  128 rows. One output window, the 1 x 128 block of the result.

  What one run of the body leaves in the output block is ONE store, of the body's arithmetic (the skeleton's payloads)
  applied to what its loads read: the whole x, the whole h, the 128 columns of h at offset 128 t (the body slices the
  resident h at the point's own offset), and the four weight / bias blocks (tileOut1). The body's Hoare triple
  (kernel1_triple) is run symbolically once at a generic grid point; the proof data (dat1) records each input window's
  block (tileIn1) and that output block; body1_obligation is the per-point obligation the launch theorem asks for.
-/
import proofs.«147042_j85452669321958_1_alg».proof.Proof.Gen.Kernel.Launch
import proofs.«147042_j85452669321958_1_alg».proof.Proof.Gen.Kernel.Skeleton
import proofs.«147042_j85452669321958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def tileIn1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the pipeline fetched it at that
    point or kept it from the point before (the block index did not move then), for any proof data over the arrays V
    whose body leaves the input blocks in place. One statement per input window (the block's index type is the
    window's own). -/
theorem tileIn1_found0 {c : Dev nD} (dat : Dat τ (Elt F) Unit ℕ (UR sig nD τ) ℕ cfg1 c) (hA : dat.A 0 = V c (Pipeline.arrRef spec1 0))
    (hafter : ∀ t, dat.after 0 t = tileIn1 V c 0 t) (t : Fin cfg1.N) (d) : dat.before 0 t d = tileIn1 V c 0 t :=
  (dat.before_in_eq_fetched 0 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found1 {c : Dev nD} (dat : Dat τ (Elt F) Unit ℕ (UR sig nD τ) ℕ cfg1 c) (hA : dat.A 1 = V c (Pipeline.arrRef spec1 1))
    (hafter : ∀ t, dat.after 1 t = tileIn1 V c 1 t) (t : Fin cfg1.N) (d) : dat.before 1 t d = tileIn1 V c 1 t :=
  (dat.before_in_eq_fetched 1 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found2 {c : Dev nD} (dat : Dat τ (Elt F) Unit ℕ (UR sig nD τ) ℕ cfg1 c) (hA : dat.A 2 = V c (Pipeline.arrRef spec1 2))
    (hafter : ∀ t, dat.after 2 t = tileIn1 V c 2 t) (t : Fin cfg1.N) (d) : dat.before 2 t d = tileIn1 V c 2 t :=
  (dat.before_in_eq_fetched 2 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found3 {c : Dev nD} (dat : Dat τ (Elt F) Unit ℕ (UR sig nD τ) ℕ cfg1 c) (hA : dat.A 3 = V c (Pipeline.arrRef spec1 3))
    (hafter : ∀ t, dat.after 3 t = tileIn1 V c 3 t) (t : Fin cfg1.N) (d) : dat.before 3 t d = tileIn1 V c 3 t :=
  (dat.before_in_eq_fetched 3 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found4 {c : Dev nD} (dat : Dat τ (Elt F) Unit ℕ (UR sig nD τ) ℕ cfg1 c) (hA : dat.A 4 = V c (Pipeline.arrRef spec1 4))
    (hafter : ∀ t, dat.after 4 t = tileIn1 V c 4 t) (t : Fin cfg1.N) (d) : dat.before 4 t d = tileIn1 V c 4 t :=
  (dat.before_in_eq_fetched 4 rfl (fun _ => rfl) (fun _ _ _ => rfl) (fun t => by rw [hafter]; unfold Dat.blockOf tileIn1; rw [hA]; try rfl) t d).trans
    (by unfold Dat.fetched Dat.blockOf tileIn1; rw [hA]; try rfl)
theorem tileIn1_found5 {c : Dev nD} (dat : Dat τ (Elt F) Unit ℕ (UR sig nD τ) ℕ cfg1 c) (hA : dat.A 5 = V c (Pipeline.arrRef spec1 5))
    (hafter : ∀ t, dat.after 5 t = tileIn1 V c 5 t) (t : Fin cfg1.N) (d) : dat.before 5 t d = tileIn1 V c 5 t :=
  (dat.before_in_eq_fetched 5 rfl (fun _ => rfl) (fun _ _ _ => rfl) (fun t => by rw [hafter]; unfold Dat.blockOf tileIn1; rw [hA]; try rfl) t d).trans
    (by unfold Dat.fetched Dat.blockOf tileIn1; rw [hA]; try rfl)

/-! ## The body's accesses -/

abbrev rX1 : Rect S1x2048 := Rect.unit (s := S1x2048) ![0, 0] S1x2048.size inb_S1x2048_S1x2048_0_0
abbrev rH1 : Rect S1x2048 := Rect.unit (s := S1x2048) ![0, 0] S1x2048.size inb_S1x2048_S1x2048_0_0
/-- The 128 columns of the resident hidden state that the point's own output block updates. -/
abbrev rHt1 (i : grid1.Coords) : Rect S1x2048 := Rect.unit (s := S1x2048) (k1_off1 i) S1x128.size (k1_off1_inb i)
abbrev rWi1 : Rect S3x128x2048 := Rect.unit (s := S3x128x2048) ![0, 0, 0] S3x128x2048.size inb_S3x128x2048_S3x128x2048_0_0_0
abbrev rWh1 : Rect S3x128x2048 := Rect.unit (s := S3x128x2048) ![0, 0, 0] S3x128x2048.size inb_S3x128x2048_S3x128x2048_0_0_0
abbrev rB1 : Rect S3x128 := Rect.unit (s := S3x128) ![0, 0] S3x128.size inb_S3x128_S3x128_0_0
abbrev rO1 : Rect S1x128 := Rect.unit (s := S1x128) ![0, 0] S1x128.size inb_S1x128_S1x128_0_0

/-! ## What the body leaves in the output block -/

/-- The output block after the body at grid coordinates i, from the six input blocks: one whole-block store of the
    GRU arithmetic of the loaded values. -/
def tileOut1 (i : grid1.Coords) (x0 : Vec F S1x2048 .f32) (x1 : Vec F S1x2048 .f32) (x2 : Vec F S3x128x2048 .f32) (x3 : Vec F S3x128x2048 .f32)
    (x4 : Vec F S3x128 .f32) (x5 : Vec F S3x128 .f32) : Vec F S1x128 .f32 :=
  View.canon [⟨rO1, k1_pay1 (k1_pay3 (View.ld x1 rH1)) (k1_pay4 (View.ld x1 (rHt1 i))) (k1_pay6 (View.ld x3 rWh1)) (k1_pay8 (View.ld x5 rB1))
    (k1_pay9 (View.ld x0 rX1) (View.ld x2 rWi1) (View.ld x4 rB1)) (k1_pay10 (View.ld x0 rX1) (View.ld x2 rWi1) (View.ld x4 rB1))
    (k1_pay11 (View.ld x0 rX1) (View.ld x2 rWi1)) (k1_pay12 (View.ld x4 rB1))⟩]

/-- The one store covers the block. -/
theorem tileOut1_cover (p0 : Vec F S1x128 .f32) (y : S1x128.Idx) :
    ∃ pc ∈ ([⟨rO1, p0⟩] : List (View.Piece (Elt F) S1x128 .f32)), y ∈ pc.1.set :=
  View.cover_of_tiled [⟨rO1, p0⟩] S1x128.size (by rfl) y

/-! ## The body's triple -/

set_option maxHeartbeats 1000000 in
/-- The kernel body at grid coordinates i on whole staging memrefs — the inputs' at contents x0 … x5, the output's at
    anything — runs to its continuation with the inputs' as they were and the output's at tileOut1 of the inputs'. -/
theorem kernel1_triple (c : Dev nD) (E : Set ℕ) (i : grid1.Coords)
    (arg1 : Memref sig .tc .vmem S1x2048 .f32) (harg1 : arg1.IsWhole) (arg2 : Memref sig .tc .vmem S1x2048 .f32) (harg2 : arg2.IsWhole)
    (arg3 : Memref sig .tc .vmem S3x128x2048 .f32) (harg3 : arg3.IsWhole) (arg4 : Memref sig .tc .vmem S3x128x2048 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S1x128 .f32) (harg7 : arg7.IsWhole)
    (x0 : Vec F S1x2048 .f32) (x1 : Vec F S1x2048 .f32) (x2 : Vec F S3x128x2048 .f32) (x3 : Vec F S3x128x2048 .f32)
    (x4 : Vec F S3x128 .f32) (x5 : Vec F S3x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tileOut1 i x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tileOut1_cover _)

/-! ## The pipeline's proof data -/

/-- The proof data of pipeline 1 on core c: the arrays as the region finds them; after the body at point t each input's
    buffer at its block and the output's at tileOut1 of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => tileIn1 V c 0 t
    | ⟨1, _⟩ => tileIn1 V c 1 t
    | ⟨2, _⟩ => tileIn1 V c 2 t
    | ⟨3, _⟩ => tileIn1 V c 3 t
    | ⟨4, _⟩ => tileIn1 V c 4 t
    | ⟨5, _⟩ => tileIn1 V c 5 t
    | ⟨6, _⟩ => tileOut1 (grid1.coords t) (tileIn1 V c 0 t) (tileIn1 V c 1 t) (tileIn1 V c 2 t) (tileIn1 V c 3 t) (tileIn1 V c 4 t) (tileIn1 V c 5 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = tileIn1 V c 0 t := by dsimp only [dat1]
theorem dat1_after1 (c : Dev nD) (t : Fin cfg1.N) : (dat1 V c).after 1 t = tileIn1 V c 1 t := by dsimp only [dat1]
theorem dat1_after2 (c : Dev nD) (t : Fin cfg1.N) : (dat1 V c).after 2 t = tileIn1 V c 2 t := by dsimp only [dat1]
theorem dat1_after3 (c : Dev nD) (t : Fin cfg1.N) : (dat1 V c).after 3 t = tileIn1 V c 3 t := by dsimp only [dat1]
theorem dat1_after4 (c : Dev nD) (t : Fin cfg1.N) : (dat1 V c).after 4 t = tileIn1 V c 4 t := by dsimp only [dat1]
theorem dat1_after5 (c : Dev nD) (t : Fin cfg1.N) : (dat1 V c).after 5 t = tileIn1 V c 5 t := by dsimp only [dat1]
theorem dat1_after6 (c : Dev nD) (t : Fin cfg1.N) : (dat1 V c).after 6 t
    = tileOut1 (grid1.coords t) (tileIn1 V c 0 t) (tileIn1 V c 1 t) (tileIn1 V c 2 t) (tileIn1 V c 3 t) (tileIn1 V c 4 t) (tileIn1 V c 5 t) := by
  dsimp only [dat1]

theorem dat1_before0 (c : Dev nD) (t : Fin cfg1.N) (d) : (dat1 V c).before 0 t d = tileIn1 V c 0 t :=
  tileIn1_found0 V (dat1 V c) (dat1_A V c 0) (dat1_after0 V c) t d
theorem dat1_before1 (c : Dev nD) (t : Fin cfg1.N) (d) : (dat1 V c).before 1 t d = tileIn1 V c 1 t :=
  tileIn1_found1 V (dat1 V c) (dat1_A V c 1) (dat1_after1 V c) t d
theorem dat1_before2 (c : Dev nD) (t : Fin cfg1.N) (d) : (dat1 V c).before 2 t d = tileIn1 V c 2 t :=
  tileIn1_found2 V (dat1 V c) (dat1_A V c 2) (dat1_after2 V c) t d
theorem dat1_before3 (c : Dev nD) (t : Fin cfg1.N) (d) : (dat1 V c).before 3 t d = tileIn1 V c 3 t :=
  tileIn1_found3 V (dat1 V c) (dat1_A V c 3) (dat1_after3 V c) t d
theorem dat1_before4 (c : Dev nD) (t : Fin cfg1.N) (d) : (dat1 V c).before 4 t d = tileIn1 V c 4 t :=
  tileIn1_found4 V (dat1 V c) (dat1_A V c 4) (dat1_after4 V c) t d
theorem dat1_before5 (c : Dev nD) (t : Fin cfg1.N) (d) : (dat1 V c).before 5 t d = tileIn1 V c 5 t :=
  tileIn1_found5 V (dat1 V c) (dat1_A V c 5) (dat1_after5 V c) t d

/-! ## The body obligation, at a generic point -/

/-- What the body is called with at point t, the windows one by one. -/
def body1_pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def body1_post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and what the
    core owes pass through unread. -/
theorem body1_sound (c : Dev nD) (t : Fin cfg1.N) :
    body1_pre V c t ⊢ wp frame (wpE (defs₀ (F := F)) Variants.none c none) Set.univ (bodyAt1 t) (fun _ => body1_post V c t) := by
  unfold body1_pre body1_post bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel1_triple c Set.univ (grid1.coords t) _ _ _ _ _ _ _ _ _ _ _ _ _ _
    (tileIn1 V c 0 t) (tileIn1 V c 1 t) (tileIn1 V c 2 t) (tileIn1 V c 3 t) (tileIn1 V c 4 t) (tileIn1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body1_obligation (c : Dev nD) : BodyObligation (dat1 (F := F) V c) (defs₀ (F := F)) Variants.none () Set.univ := fun t => by
  rw [bigSep_W1, bigSep_W1]
  exact body1_sound V c t

end Cert.Kernel.Hand

end
-- ==== Proof.BitsAssembly.lean ====
/-
  The run of @main: the host operations before the two pallas_calls, the first GRU layer's region, the second layer's
  region, and the host operations after them (the head's matrix product, the softmax, the stacking of the two hidden
  states), composed into ONE statement: every weakly fair execution terminates without a fault, and at the end every
  unscoped buffer of a TensorCore holds the contents the fold below names (run_all).

  The fold walks the buffers' contents through the four items: at launch the memory (buf0); after the first host
  stretch the operations applied (buf1); after a region its operand arrays at what the pipeline's write-backs leave —
  the inputs as found, the result array the blocks the grid points wrote (buf2, buf3) —; after the last stretch its
  operations applied (buf4). No item writes an argument array, so each argument ends as launched (buf4_arg).

  Between two items a core holds all its unscoped buffers at the current contents, its generator register at some state,
  and owes nothing. A region takes its seven operand arrays out of that state on entry and puts them back, at the
  contents the pipeline computed, on exit.
-/
import proofs.«147042_j85452669321958_1_alg».proof.Proof.Gen.Kernel.Launch
import proofs.«147042_j85452669321958_1_alg».proof.Proof.Gen.Kernel.Skeleton
import proofs.«147042_j85452669321958_1_alg».proof.Proof.Gen.Kernel.Points
import proofs.«147042_j85452669321958_1_alg».proof.Proof.Gen.Kernel.Regions
import proofs.«147042_j85452669321958_1_alg».proof.Proof.BitsRegion0
import proofs.«147042_j85452669321958_1_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev buf0 : Dev nD → Valuation τ sig (Elt F) := fun c b => m (c, b)
/-- After the host operations before the first pallas_call. -/
abbrev buf1 : Dev nD → Valuation τ sig (Elt F) := fun c => StableHlo.after hostOps0 (buf0 m c)
/-- The same read at the TensorCore's references (what the first region's proof data take). -/
abbrev ent1 : (c : Dev nD) → (b : Ref sig .tc) → Buf (Elt F) ((c : Thread nD τ).loc b) := fun c b => buf1 m c b
/-- At the first region's exit: its operand arrays at what the pipeline leaves, every other buffer as entered. -/
def buf2 (c : Dev nD) : Valuation τ sig (Elt F) :=
  Pipeline.withArrays spec0 c (buf1 m c) fun w => (dat0 (ent1 m) c).arrAt w cfg0.N
theorem buf2_arr (c : Dev nD) (w : Fin cfg0.W) :
    buf2 m c (Proc.devRef .tc (Pipeline.arrRef spec0 w)) = (dat0 (ent1 m) c).arrAt w cfg0.N := by
  unfold buf2; exact Pipeline.withArrays_arr spec0 launch0.win.arr_inj c _ _ w
theorem buf2_of_ne (c : Dev nD) (b : Ref sig .tc) (hb : ∀ w, Pipeline.arrRef spec0 w ≠ b) :
    buf2 m c (Proc.devRef .tc b) = buf1 m c (Proc.devRef .tc b) := by
  unfold buf2; exact Pipeline.withArrays_of_ne spec0 c _ _ b hb
abbrev ent2 : (c : Dev nD) → (b : Ref sig .tc) → Buf (Elt F) ((c : Thread nD τ).loc b) := fun c b => buf2 m c b
theorem region0_final (c : Dev nD) (w : Fin cfg0.W) : (dat0 (ent1 m) c).arrAt w cfg0.N = ent2 m c (Pipeline.arrRef spec0 w) :=
  (buf2_arr m c w).symm
theorem region0_rest (c : Dev nD) : ∀ b, b ∉ Finset.univ.image (Pipeline.arrRef spec0) → ent2 m c b = ent1 m c b :=
  fun b hb => buf2_of_ne m c b fun w e => hb (Finset.mem_image.mpr ⟨w, Finset.mem_univ _, e⟩)

/-- At the second region's exit (it is entered straight from the first region's exit). -/
def buf3 (c : Dev nD) : Valuation τ sig (Elt F) :=
  Pipeline.withArrays spec1 c (buf2 m c) fun w => (dat1 (ent2 m) c).arrAt w cfg1.N
theorem buf3_arr (c : Dev nD) (w : Fin cfg1.W) :
    buf3 m c (Proc.devRef .tc (Pipeline.arrRef spec1 w)) = (dat1 (ent2 m) c).arrAt w cfg1.N := by
  unfold buf3; exact Pipeline.withArrays_arr spec1 launch1.win.arr_inj c _ _ w
theorem buf3_of_ne (c : Dev nD) (b : Ref sig .tc) (hb : ∀ w, Pipeline.arrRef spec1 w ≠ b) :
    buf3 m c (Proc.devRef .tc b) = buf2 m c (Proc.devRef .tc b) := by
  unfold buf3; exact Pipeline.withArrays_of_ne spec1 c _ _ b hb
abbrev ent3 : (c : Dev nD) → (b : Ref sig .tc) → Buf (Elt F) ((c : Thread nD τ).loc b) := fun c b => buf3 m c b
theorem region1_final (c : Dev nD) (w : Fin cfg1.W) : (dat1 (ent2 m) c).arrAt w cfg1.N = ent3 m c (Pipeline.arrRef spec1 w) :=
  (buf3_arr m c w).symm
theorem region1_rest (c : Dev nD) : ∀ b, b ∉ Finset.univ.image (Pipeline.arrRef spec1) → ent3 m c b = ent2 m c b :=
  fun b hb => buf3_of_ne m c b fun w e => hb (Finset.mem_image.mpr ⟨w, Finset.mem_univ _, e⟩)

/-- After the host operations that follow the two regions: the end of @main. -/
abbrev buf4 : Dev nD → Valuation τ sig (Elt F) := fun c => StableHlo.after hostOps2 (buf3 m c)

/-- A buffer no host operation writes and no region has among its operand arrays ends as launched. -/
theorem buf4_untouched (c : Dev nD) (b : Ref sig .tc) (h0 : b ∉ hostOps0_W) (h2 : b ∉ hostOps2_W)
    (hr0 : ∀ w, Pipeline.arrRef spec0 w ≠ b) (hr1 : ∀ w, Pipeline.arrRef spec1 w ≠ b) :
    buf4 m c (Proc.devRef .tc b) = m ((c : Thread nD τ).loc b) :=
  calc buf4 m c (Proc.devRef .tc b)
    _ = buf3 m c (Proc.devRef .tc b) := StableHlo.after_of_writes_sub hostOps2 _ hostOps2_writes h2
    _ = buf2 m c (Proc.devRef .tc b) := buf3_of_ne m c b hr1
    _ = buf1 m c (Proc.devRef .tc b) := buf2_of_ne m c b hr0
    _ = buf0 m c (Proc.devRef .tc b) := StableHlo.after_of_writes_sub hostOps0 _ hostOps0_writes h0
    _ = m ((c : Thread nD τ).loc b) := rfl

/-! ## The proof data family and the thread state -/

/-- Every pipeline's proof data, each at its region's entry contents. -/
def regionData : (p : Fin 2) → (c : Dev nD) → Dat τ (Elt F) Unit ℕ (UR sig nD τ) ℕ (Pipeline.pin (pcfgs (F := F)) adm p) c
  | ⟨0, _⟩ => fun c => dat0 (ent1 m) c
  | ⟨1, _⟩ => fun c => dat1 (ent2 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)
/-- A host stretch as a segment over all the unscoped references from given contents. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the final contents, the generator register. -/
abbrev lastState (c : Dev nD) : sProp 𝕄 := iprop(StableHlo.held (c : Thread nD τ) (Pipeline.ucRefs τ sig) (buf4 m c) ∗ ∃ r, prngReg c r)

/-! ## The regions as segments -/

set_option backward.isDefEq.respectTransparency.types false in
/-- The first layer's region: entered with every unscoped buffer at buf1, left with them at buf2. -/
def regionSeg0 : Pipeline.RegionSeg (pcfgs (F := F)) adm (regionData m) () defs₀ noVariants noPairs noLevel 0 where
  win := launch0.win.to₀
  block_pos := launch0.block_pos
  stage_whole := launch0.stage_whole
  K := PEmpty
  osem k := k.elim
  ho := Pipeline.OwnSemFacts.none _
  hbody c := (body0_obligation (ent1 m) c).loose
  hwaits := Pipeline.hwaits_of_owed_zero _ _ _ _ noPairs noLevel 0 fun _ _ => rfl
  pre c := iprop(StableHlo.held (c : Thread nD τ) (Pipeline.ucRefs τ sig) (buf1 m c) ∗ riding c)
  post c := iprop(StableHlo.held (c : Thread nD τ) (Pipeline.ucRefs τ sig) (buf2 m c) ∗ riding c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) adm (regionData m) launch0.win launch0.arr_whole c
      ((regionData m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (regionData m) ((regionData m 0 c).share_full fun _ => rfl)
      (ent1 m c) (ent2 m c) ((regionData m 0 c).arrAt · cfg0.N) (region0_final m c) (region0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered with every unscoped buffer at buf2, left with them at buf3. -/
def regionSeg1 : Pipeline.RegionSeg (pcfgs (F := F)) adm (regionData m) () defs₀ noVariants noPairs noLevel 1 where
  win := launch1.win.to₀
  block_pos := launch1.block_pos
  stage_whole := launch1.stage_whole
  K := PEmpty
  osem k := k.elim
  ho := Pipeline.OwnSemFacts.none _
  hbody c := (body1_obligation (ent2 m) c).loose
  hwaits := Pipeline.hwaits_of_owed_zero _ _ _ _ noPairs noLevel 1 fun _ _ => rfl
  pre c := iprop(StableHlo.held (c : Thread nD τ) (Pipeline.ucRefs τ sig) (buf2 m c) ∗ riding c)
  post c := iprop(StableHlo.held (c : Thread nD τ) (Pipeline.ucRefs τ sig) (buf3 m c) ∗ riding c)
  X c := iprop(∃ r, prngReg c r)
  Y c := iprop(∃ r, prngReg c r)
  Z c := Pipeline.unscopedRest (Ix := Unit) (Name := ℕ) (U := UR sig nD τ) (Lvl := ℕ) spec1 c (ent2 m c)
  hentry c := by
    rw [Pipeline.ownSems0_none]
    have hsplit := Pipeline.arrays_of_unscopedBufs (p := 1) (pcfgs (F := F)) adm (regionData m) launch1.win launch1.arr_whole c
      ((regionData m 1 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (regionData m) ((regionData m 1 c).share_full fun _ => rfl)
      (ent2 m c) (ent3 m c) ((regionData m 1 c).arrAt · cfg1.N) (region1_final m c) (region1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev items : List (Pipeline.Seg (pcfgs (F := F)) adm (regionData m) () defs₀ noVariants noPairs noLevel) :=
  [ .host (hostStretch hostOps0 hostOps0_sub hostOps0_fresh (buf0 m)),
    .region (regionSeg0 m),
    .region (regionSeg1 m),
    .host (hostStretch hostOps2 hostOps2_sub hostOps2_fresh (buf3 m)) ]

/-- @main is the run of the items. -/
theorem main_items (c : Dev nD) : main (F := F) c = Pipeline.Seg.run (items m) := (main_chain c).trans (by chain_rfl)

set_option backward.isDefEq.respectTransparency.types false in
/-- THE RUN. From any memory with zero counters, every weakly fair execution of @main on the TensorCores terminates,
    nothing faulting, and every final state has every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = buf4 m c b) :=
  Pipeline.θ_run_regions_kit (pcfgs (F := F)) adm (regionData m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (buf0 m c) ∗ riding c)) (Tₙ := lastState m)
    (hch := ⟨fun _ => .rfl, fun _ => .rfl, fun _ => .rfl, fun _ => .rfl, fun c => by
      show iprop(StableHlo.held (c : Thread nD τ) (Pipeline.ucRefs τ sig) (buf4 m c) ∗ riding c)
        ⊢ iprop(lastState m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (buf0 m c)
        from Pipeline.unscopedBufs_held c (buf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = buf4 m c b)
    (hfin := fun c s' => by
      iintro ⟨⟨Hh, -⟩, HSI⟩
      unfold StableHlo.held
      imodintro
      iapply (pointsTo_read_all (Pipeline.ucRefs τ sig) (fun b => (((c : Thread nD τ)).1, b)) (buf4 m c) s')
      isplitl [Hh] <;> iassumption)
    (hQ := fun s h c => h c)

end Cert.Kernel.Hand

end
-- ==== Proof.Spec.lean ====
/-
  One column of a GRU cell over the extended reals.

  For a layer input x (K entries), a previous hidden state h (2048 entries), and — for the output column in question —
  the three rows of the input weights (wi g, one per gate g = reset, update, candidate), the three rows of the hidden
  weights (wh g), the six biases (bi g, bh g) and the column's own previous hidden entry hj:

    gi g = (sum over k of x k * wi g k) + bi g          gh g = (sum over k of h k * wh g k) + bh g
    r = logistic (gi 0 + gh 0)        z = logistic (gi 1 + gh 1)        n = tanh (gi 2 + r * gh 2)
    result = (1 - z) * n + z * hj

  Both programs compute exactly this expression, operation for operation, for every column; they differ only in how
  they lay the weights out (one 6144-row matrix against a 3 x 2048-row tensor cut into blocks) and in which device
  operation carries a sum (a matrix unit's product into a zero accumulator against a host dot product).
-/
import Idealize.ShloMosaic.PureOps.Ideal

noncomputable section

namespace Cert.GruSpec

open Idealize.ShloMosaic

/-- A gate's pre-activation for one column: the row's dot product with the vector, plus the bias. -/
def gatePre {K : ℕ} (a : Fin K → EReal) (w : Fin K → EReal) (b : EReal) : EReal :=
  (∑ k : Fin K, a k * w k) + b

/-- One output column of the GRU cell. -/
def gruCol {K : ℕ} (x : Fin K → EReal) (h : Fin 2048 → EReal) (wi : Fin 3 → Fin K → EReal) (wh : Fin 3 → Fin 2048 → EReal)
    (bi bh : Fin 3 → EReal) (hj : EReal) : EReal :=
  (1 - Ideal.logistic (gatePre x (wi 1) (bi 1) + gatePre h (wh 1) (bh 1)))
      * Ideal.tanh (gatePre x (wi 2) (bi 2) + Ideal.logistic (gatePre x (wi 0) (bi 0) + gatePre h (wh 0) (bh 0)) * gatePre h (wh 2) (bh 2))
    + Ideal.logistic (gatePre x (wi 1) (bi 1) + gatePre h (wh 1) (bh 1)) * hj

/-- The embedding row an index word names: a negative index counts from the end (64 is added to it), as array indexing
    normalises a negative index. -/
def wrapIdx (x : BitVec 32) : BitVec 32 := Scalar.select (IntOp.cmpi .slt x 0#32) (IntOp.addi x 64#32) x

/-- … read signed and clamped into the table's 64 rows, as both the host's gather and its dynamic slice clamp a start
    index. -/
def embRow (x : BitVec 32) : Fin 64 := ⟨min (wrapIdx x).toInt.toNat 63, by omega⟩

end Cert.GruSpec

end
-- ==== Proof.Tile0.lean ====
/-
  One entry of the first GRU layer's output block, as the GRU column formula of the body's loads.

  The body stores ONE value into its 1 x 256 output block: pointwise arithmetic (sums, products, a difference from one,
  two logistics, a hyperbolic tangent) of six gate pre-activations and of the column's own previous hidden entry. Each
  pre-activation is a row vector (the layer input, or the whole previous hidden state) times the transposed 256 x K
  matrix of one gate — gate g's slice of a 3 x 256 x K weight block — into a zero accumulator, plus gate g's row of a
  3 x 256 bias block. Changing a value's format changes no value over the extended reals, and the shape changes are
  re-indexings. So entry (0, j) of the block reads, of the weights, only rows (g, j), of the biases only entries (g, j),
  and all of the input and of the hidden state.

  The steps: the product of a row with the rows of a matrix, read at an entry, is a dot product (whatever the name of
  the dimension numbers that say "contract the second axis of both, no batch axis"); a gate's slice of a stack read at
  an entry; each of the body's named values at entry (0, j); the assembly.
-/
import proofs.«147042_j85452669321958_1_alg».proof.Proof.Region0
import proofs.«147042_j85452669321958_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx

/-! ## A row against the rows of a matrix -/

/-- A one-row left operand [1, K] against a right operand [N, K], both contracted along their second axis, into a zero
    accumulator: entry (0, j) of the [1, N] product is the dot product of the row with row j of the right operand. The
    contraction index has one coordinate, k; the left operand is read at (0, k) and the right one at (j, k). -/
theorem tile0_rowdot_apply {N K : ℕ} {φ₁ φ₂ : FTy}
    (w : DotDims.WF ⟨2, ![1, K]⟩ ⟨2, ![N, K]⟩ ⟨2, ![1, N]⟩ [1] [1] [0] [0] [] [])
    (prec : Option ContractPrecision) (A : FVec Ideal ⟨2, ![1, K]⟩ φ₁) (B : FVec Ideal ⟨2, ![N, K]⟩ φ₂) (j : Fin N) :
    matmul (⟨[1], [1], [0], [0], [], [], w⟩ : DotDims _ _ _) prec A B (constant (F := Ideal) ⟨2, ![1, N]⟩ .f32 0x00000000#32)
        (ix2 (0 : Fin 1) j)
      = ∑ k : Fin K, A (ix2 (0 : Fin 1) k) * B (ix2 j k) := by
  show FloatOps.matmul _ prec A B _ (ix2 (0 : Fin 1) j) = _
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![1, K]⟩ ⟨2, ![N, K]⟩ ⟨2, ![1, N]⟩) K rfl rfl c
  have l2 : (⟨[1], [1], [0], [0], [], [], w⟩ : DotDims ⟨2, ![1, K]⟩ ⟨2, ![N, K]⟩ ⟨2, ![1, N]⟩).lhsIdx (ix2 (0 : Fin 1) j)
      ((contrEquiv1 _ K rfl rfl).symm c) = ix2 (0 : Fin 1) c := by
    funext ax; apply Fin.ext
    match ax with
    | ⟨0, _⟩ => simp [DotDims.lhsIdx]
    | ⟨1, _⟩ => simp [DotDims.lhsIdx]; exact c2
  have r2 : (⟨[1], [1], [0], [0], [], [], w⟩ : DotDims ⟨2, ![1, K]⟩ ⟨2, ![N, K]⟩ ⟨2, ![1, N]⟩).rhsIdx (ix2 (0 : Fin 1) j)
      ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- The same for ANY dimension numbers over these shapes that contract the second axis of both operands, keep the first
    axis of each and have no batch axis: such a record is the one above, whatever name a program gives it. -/
theorem tile0_rowdot_of_dims {N K : ℕ} {φ₁ φ₂ : FTy} (d : DotDims ⟨2, ![1, K]⟩ ⟨2, ![N, K]⟩ ⟨2, ![1, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![1, K]⟩ φ₁) (B : FVec Ideal ⟨2, ![N, K]⟩ φ₂) (j : Fin N) :
    matmul d prec A B (constant (F := Ideal) ⟨2, ![1, N]⟩ .f32 0x00000000#32) (ix2 (0 : Fin 1) j)
      = ∑ k : Fin K, A (ix2 (0 : Fin 1) k) * B (ix2 j k) := by
  obtain ⟨lc, rc, ln, rn, lb, rb, w⟩ := d
  simp only at hlc hrc hln hrn hlb hrb
  subst hlc hrc hln hrn hlb hrb
  exact tile0_rowdot_apply w prec A B j

/-! ## A gate's slice of a stack of three -/

/-- Gate g's rows of a stack [3, N, K] of three weight matrices: the slice of the stack at offset g along its first
    axis, read as an [N, K] matrix, has at (j, k) the stack's entry (g, j, k). -/
theorem tile0_gateRows_apply {α : Type} {N K : ℕ} (W : (⟨3, ![3, N, K]⟩ : Shape).Idx → α) (g : Fin 3) (o : ℕ) (ho : o = g.val)
    (hs : (⟨3, ![3, N, K]⟩ : Shape).Slices ![o, 0, 0] ⟨3, ![1, N, K]⟩)
    (hc : (⟨3, ![1, N, K]⟩ : Shape).ShapeCasts ⟨2, ![N, K]⟩) (j : Fin N) (k : Fin K) :
    shapeCast ⟨2, ![N, K]⟩ (extractStridedSlice ⟨3, ![1, N, K]⟩ ![o, 0, 0] W hs) hc (ix2 j k) = W (ix3 g j k) := by
  refine (shapeCast_1ab_ab_apply _ hc j k).trans ?_
  refine extractStridedSlice_apply _ W hs (ix3 (0 : Fin 1) j k) (ix3 g j k) fun ax => ?_
  match ax with
  | ⟨0, _⟩ => show g.val = o + 0; omega
  | ⟨1, _⟩ => exact (Nat.zero_add _).symm
  | ⟨2, _⟩ => exact (Nat.zero_add _).symm

/-- Gate g's row of a stack [3, N] of three bias rows: the slice at offset g along the first axis has at (0, j) the
    stack's entry (g, j). -/
theorem tile0_gateBias_apply {α : Type} {N : ℕ} (B : (⟨2, ![3, N]⟩ : Shape).Idx → α) (g : Fin 3) (o : ℕ) (ho : o = g.val)
    (hs : (⟨2, ![3, N]⟩ : Shape).Slices ![o, 0] ⟨2, ![1, N]⟩) (j : Fin N) :
    extractStridedSlice ⟨2, ![1, N]⟩ ![o, 0] B hs (ix2 (0 : Fin 1) j) = B (ix2 g j) :=
  slice2_axis0_apply o B hs (0 : Fin 1) j g (by show g.val = o + 0; omega)

/-- A gate's product: the row a (its format narrowed, which changes no value) against gate g's rows of the weight stack
    (narrowed likewise), into a zero accumulator, has at (0, j) the dot product of a with the stack's row (g, j). -/
theorem tile0_gateDot_apply {N K : ℕ} (d : DotDims ⟨2, ![1, K]⟩ ⟨2, ![N, K]⟩ ⟨2, ![1, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (a : FVec Ideal ⟨2, ![1, K]⟩ .f32) (W : FVec Ideal ⟨3, ![3, N, K]⟩ .f32)
    (g : Fin 3) (o : ℕ) (ho : o = g.val) (hs : (⟨3, ![3, N, K]⟩ : Shape).Slices ![o, 0, 0] ⟨3, ![1, N, K]⟩)
    (hc : (⟨3, ![1, N, K]⟩ : Shape).ShapeCasts ⟨2, ![N, K]⟩) (hb hb' : FTy.bits .bf16 < FTy.bits .f32) (j : Fin N) :
    matmul d prec (truncf .bf16 a hb)
        (truncf .bf16 (shapeCast ⟨2, ![N, K]⟩ (extractStridedSlice ⟨3, ![1, N, K]⟩ ![o, 0, 0] W hs) hc) hb')
        (constant (F := Ideal) ⟨2, ![1, N]⟩ .f32 0x00000000#32) (ix2 (0 : Fin 1) j)
      = ∑ k : Fin K, a (ix2 (0 : Fin 1) k) * W (ix3 g j k) := by
  rw [tile0_rowdot_of_dims d hlc hrc hln hrn hlb hrb]
  refine Finset.sum_congr rfl fun k _ => ?_
  rw [truncf_apply, truncf_apply, tile0_gateRows_apply W g o ho hs hc j k]

/-! ## The four values the body forms from the layer input, at column j

Each is opened to its operations; the shape changes that keep the shape, or go to a vector and back, drop out; what is
left is a gate's product and a gate's bias row, read as above (the side conditions are the record's six lists and the
slice offsets, all literal). -/

/-- The reset gate's input half at column j: the input row against row (0, j) of the input weights, plus bias (0, j). -/
theorem tile0_pay9_apply (X : Vec Ideal S1x512 .f32) (W : Vec Ideal S3x256x512 .f32) (B : Vec Ideal S3x256 .f32) (j : Fin 256) :
    k0_pay9 X W B (ix2 (0 : Fin 1) j)
      = gatePre (fun k : Fin 512 => X (ix2 (0 : Fin 1) k)) (fun k => W (ix3 (0 : Fin 3) j k)) (B (ix2 (0 : Fin 3) j)) := by
  unfold k0_pay9 k0_pay2 k0_pay5 k0_pay7 gatePre
  simp only [shapeCast_self, shapeCast_shapeCast]
  rw [addf_apply, tile0_gateDot_apply (g := 0) (o := 0), tile0_gateBias_apply (g := 0) (o := 0)]
  all_goals rfl

/-- The update gate's input half at column j: row (1, j) of the input weights and bias (1, j). -/
theorem tile0_pay10_apply (X : Vec Ideal S1x512 .f32) (W : Vec Ideal S3x256x512 .f32) (B : Vec Ideal S3x256 .f32) (j : Fin 256) :
    k0_pay10 X W B (ix2 (0 : Fin 1) j)
      = gatePre (fun k : Fin 512 => X (ix2 (0 : Fin 1) k)) (fun k => W (ix3 (1 : Fin 3) j k)) (B (ix2 (1 : Fin 3) j)) := by
  unfold k0_pay10 k0_pay2 k0_pay5 k0_pay7 gatePre
  simp only [shapeCast_self, shapeCast_shapeCast]
  rw [addf_apply, tile0_gateDot_apply (g := 1) (o := 1), tile0_gateBias_apply (g := 1) (o := 1)]
  all_goals rfl

/-- The candidate's input product at column j: the input row against row (2, j) of the input weights (its bias is added
    later, inside the stored value). -/
theorem tile0_pay11_apply (X : Vec Ideal S1x512 .f32) (W : Vec Ideal S3x256x512 .f32) (j : Fin 256) :
    k0_pay11 X W (ix2 (0 : Fin 1) j) = ∑ k : Fin 512, X (ix2 (0 : Fin 1) k) * W (ix3 (2 : Fin 3) j k) := by
  unfold k0_pay11 k0_pay2 k0_pay5
  simp only [shapeCast_self]
  rw [tile0_gateDot_apply (g := 2) (o := 2)]
  all_goals rfl

/-- The candidate's input bias at column j: entry (2, j) of the input biases. -/
theorem tile0_pay12_apply (B : Vec Ideal S3x256 .f32) (j : Fin 256) :
    k0_pay12 B (ix2 (0 : Fin 1) j) = B (ix2 (2 : Fin 3) j) := by
  unfold k0_pay12 k0_pay7
  simp only [shapeCast_self]
  rw [tile0_gateBias_apply (g := 2) (o := 2)]
  all_goals rfl

/-! ## The column's own previous hidden entry -/

/-- The columns of the resident hidden state that the point's output block updates start at column 256 * i: entry
    (0, j) of that load is the hidden state's entry (0, 256 * i + j) (the offsets are (0, 256 * i), the strides one). -/
theorem tile0_hslice_apply (i : grid0.Coords) (H : Vec Ideal S1x2048 .f32) (j : Fin 256) (hq : 256 * (i 0).val + j.val < 2048) :
    k0_pay4 (View.ld H (rHt0 i)) (ix2 (0 : Fin 1) j) = H (ix2 (0 : Fin 1) ⟨256 * (i 0).val + j.val, hq⟩) := by
  unfold k0_pay4
  simp only [shapeCast_self]
  show H ((rHt0 i).idx (ix2 (0 : Fin 1) j)) = _
  refine congrArg H (funext fun a => Fin.ext ?_)
  match a with
  | ⟨0, _⟩ => show (k0_off1 i) 0 + 1 * 0 = 0; rw [k0_off1_eq]; rfl
  | ⟨1, _⟩ => show (k0_off1 i) 1 + 1 * j.val = 256 * (i 0).val + j.val; rw [k0_off1_eq]; show 256 * (i 0).val + 1 * j.val = _; omega

/-! ## The stored value at column j -/

/-- The logistic of a vector at an index is the extended reals' logistic of the element. -/
theorem tile0_logistic_apply {s : Shape} {φ : FTy} (x : FVec Ideal s φ) (i : s.Idx) : logistic x i = Ideal.logistic (x i) := rfl
/-- The hyperbolic tangent of a vector at an index is the extended reals' of the element. -/
theorem tile0_tanh_apply {s : Shape} {φ : FTy} (x : FVec Ideal s φ) (i : s.Idx) : tanh x i = Ideal.tanh (x i) := rfl

/-- The stored value at column j, from the hidden state H, the column's own previous entry hj, the hidden weights and
    biases, and the four input-side values at the column (the reset and update gates' input halves a0 and a1, the
    candidate's input product p2 and input bias c2): the three hidden-side pre-activations gh g are formed (H against row
    (g, j) of the hidden weights, plus bias (g, j)), then
      r = logistic (a0 + gh 0),  z = logistic (a1 + gh 1),  n = tanh ((p2 + c2) + r * gh 2),  (1 - z) * n + z * hj,
    the one being the word 0x3F800000. -/
theorem tile0_pay1_apply (H : Vec Ideal S1x2048 .f32) (hj : FVec Ideal S1x256 .f32) (Wh : Vec Ideal S3x256x2048 .f32)
    (Bh : Vec Ideal S3x256 .f32) (a0 a1 p2 c2 : FVec Ideal S1x256 .f32) (j : Fin 256) :
    k0_pay1 (k0_pay3 H) hj (k0_pay6 Wh) (k0_pay8 Bh) a0 a1 p2 c2 (ix2 (0 : Fin 1) j)
      = (1 - Ideal.logistic (a1 (ix2 (0 : Fin 1) j)
              + gatePre (fun k : Fin 2048 => H (ix2 (0 : Fin 1) k)) (fun k => Wh (ix3 (1 : Fin 3) j k)) (Bh (ix2 (1 : Fin 3) j))))
          * Ideal.tanh ((p2 (ix2 (0 : Fin 1) j) + c2 (ix2 (0 : Fin 1) j))
              + Ideal.logistic (a0 (ix2 (0 : Fin 1) j)
                  + gatePre (fun k : Fin 2048 => H (ix2 (0 : Fin 1) k)) (fun k => Wh (ix3 (0 : Fin 3) j k)) (Bh (ix2 (0 : Fin 3) j)))
                * gatePre (fun k : Fin 2048 => H (ix2 (0 : Fin 1) k)) (fun k => Wh (ix3 (2 : Fin 3) j k)) (Bh (ix2 (2 : Fin 3) j)))
        + Ideal.logistic (a1 (ix2 (0 : Fin 1) j)
              + gatePre (fun k : Fin 2048 => H (ix2 (0 : Fin 1) k)) (fun k => Wh (ix3 (1 : Fin 3) j k)) (Bh (ix2 (1 : Fin 3) j)))
          * hj (ix2 (0 : Fin 1) j) := by
  unfold k0_pay1 k0_pay3 k0_pay6 k0_pay8 gatePre
  simp only [shapeCast_self, shapeCast_shapeCast]
  simp only [addf_apply, mulf_apply, subf_apply, broadcast_apply, tile0_logistic_apply, tile0_tanh_apply]
  rw [tile0_gateDot_apply (g := 0) (o := 0), tile0_gateDot_apply (g := 1) (o := 1), tile0_gateDot_apply (g := 2) (o := 2),
    tile0_gateBias_apply (g := 0) (o := 0), tile0_gateBias_apply (g := 1) (o := 1), tile0_gateBias_apply (g := 2) (o := 2),
    show (FloatOps.ofBits .f32 0x3F800000#32 : Ideal .f32) = (1 : EReal) from Ideal.ofBits_one_f32]
  all_goals rfl

/-! ## The output block's entry -/

/-- Zero offsets, as the body's whole-block accesses spell them, at rank two and at rank three. -/
theorem tile0_zero2 : (![0, 0] : Fin 2 → ℕ) = fun _ => 0 := funext fun a => by fin_cases a <;> rfl
theorem tile0_zero3 : (![0, 0, 0] : Fin 3 → ℕ) = fun _ => 0 := funext fun a => by fin_cases a <;> rfl

/-- Entry (0, j) of the output block the body leaves at grid coordinates i is the GRU column of: the whole input x0; the whole
    previous hidden state x1; rows (g, j) of the two weight blocks x2, x3; entries (g, j) of the two bias blocks x4, x5;
    and the previous hidden entry of this very column, column 256 * i + j of x1. -/
theorem tile0_value (i : grid0.Coords) (x0 : Vec Ideal S1x512 .f32) (x1 : Vec Ideal S1x2048 .f32) (x2 : Vec Ideal S3x256x512 .f32)
    (x3 : Vec Ideal S3x256x2048 .f32) (x4 x5 : Vec Ideal S3x256 .f32) (j : Fin 256) (hq : 256 * (i 0).val + j.val < 2048) :
    tileOut0 (F := Ideal) i x0 x1 x2 x3 x4 x5 (ix2 (0 : Fin 1) j)
      = gruCol (fun k : Fin 512 => x0 (ix2 (0 : Fin 1) k)) (fun k : Fin 2048 => x1 (ix2 (0 : Fin 1) k))
          (fun g k => x2 (ix3 g j k)) (fun g k => x3 (ix3 g j k)) (fun g => x4 (ix2 g j)) (fun g => x5 (ix2 g j))
          (x1 (ix2 (0 : Fin 1) ⟨256 * (i 0).val + j.val, hq⟩)) := by
  -- the one store covers the block, so the block holds its value; the whole-block loads read their blocks as they are
  unfold tileOut0
  rw [View.canon_unit_zero tile0_zero2]
  simp only [View.ld_unit_zero (S := S1x512) tile0_zero2, View.ld_unit_zero (S := S1x2048) tile0_zero2,
    View.ld_unit_zero (S := S3x256x512) tile0_zero3, View.ld_unit_zero (S := S3x256x2048) tile0_zero3,
    View.ld_unit_zero (S := S3x256) tile0_zero2]
  -- the stored value at column j, then its four input-side operands and the column's previous entry; what is left is
  -- the column formula with the candidate's input pre-activation written as its product plus its bias
  rw [tile0_pay1_apply, tile0_pay9_apply, tile0_pay10_apply, tile0_pay11_apply, tile0_pay12_apply, tile0_hslice_apply i x1 j hq]
  rfl

end Cert.KernelIdeal.Hand

end
-- ==== Proof.Blocks0.lean ====
/-
  The first GRU layer's result array after its pallas_call, column by column: each column of the new hidden state is the GRU
  column formula of the region's operand arrays.

  Column q lies in the block of grid point q / 256, at offset q % 256. That point's output block is the body's result on
  the point's input blocks; each input block is a box of its operand array (the layer input and the previous hidden state
  whole, the weight and bias blocks the 256 rows from row 256 t on of their cut axis), so entry j of the output block at point t
  is the column formula at column 256 t + j; and the write-backs, each its block of one and the same array, leave that
  array behind.
-/
import proofs.«147042_j85452669321958_1_alg».proof.Proof.Tile0
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx

variable (V : (c : Dev nD) → (b : Ref sig .tc) → Buf (Elt Ideal) ((c : Thread nD τ).loc b))

/-! ## Where the blocks sit, decided over the grid -/

/-- Point t's one grid coordinate is t, and the 256 columns from 256 t on are among the 2048. -/
theorem block0_point : ∀ t : Fin cfg0.N, ((grid0.coords t) 0).val = t.val ∧ 256 * t.val + 256 ≤ 2048 :=
  (by decide +kernel : ∀ t : Fin grid0.N, _)

/-- The two whole operands (the layer input, the previous hidden state) are block (0, 0) at every point. -/
theorem block0_whole : ∀ t : Fin cfg0.N, (cfg0.win 0).index t (0 : Fin 2) = 0 ∧ (cfg0.win 0).index t (1 : Fin 2) = 0
    ∧ (cfg0.win 1).index t (0 : Fin 2) = 0 ∧ (cfg0.win 1).index t (1 : Fin 2) = 0 :=
  (by decide +kernel : ∀ t : Fin grid0.N, _)

/-- The two weight tensors are at block (0, t, 0), the two bias matrices at block (0, t). -/
theorem block0_rows : ∀ t : Fin cfg0.N,
    (cfg0.win 2).index t (0 : Fin 3) = 0 ∧ (cfg0.win 2).index t (1 : Fin 3) = t.val ∧ (cfg0.win 2).index t (2 : Fin 3) = 0
    ∧ (cfg0.win 3).index t (0 : Fin 3) = 0 ∧ (cfg0.win 3).index t (1 : Fin 3) = t.val ∧ (cfg0.win 3).index t (2 : Fin 3) = 0
    ∧ (cfg0.win 4).index t (0 : Fin 2) = 0 ∧ (cfg0.win 4).index t (1 : Fin 2) = t.val
    ∧ (cfg0.win 5).index t (0 : Fin 2) = 0 ∧ (cfg0.win 5).index t (1 : Fin 2) = t.val :=
  (by decide +kernel : ∀ t : Fin grid0.N, _)

/-- The result is at block (0, t), and every point writes its block back. -/
theorem block0_result : ∀ t : Fin cfg0.N, (cfg0.win 6).index t (0 : Fin 2) = 0 ∧ (cfg0.win 6).index t (1 : Fin 2) = t.val
    ∧ (cfg0.win 6).flush t = true :=
  (by decide +kernel : ∀ t : Fin grid0.N, _)

/-- The blocks are as many as fill the 2048 columns. -/
theorem block0_count : cfg0.N * 256 = 2048 := (by decide +kernel : grid0.N * 256 = 2048)

/-! ## The input blocks as boxes of their arrays

A block's entry sits in the array, on each axis, at the block index times the block's size plus the entry's own coordinate. -/

/-- The layer input's block is the whole row. -/
theorem block0_in0 (c : Dev nD) (t : Fin cfg0.N) (k : Fin 512) :
    tileIn0 V c 0 t (ix2 (0 : Fin 1) k) = V c main_v9 (ix2 (0 : Fin 1) k) := by
  obtain ⟨e0, e1, -⟩ := block0_whole t
  unfold tileIn0
  rw [View.read_apply]
  show V c main_v9 (((cfg0.win 0).blk t).view.emb (ix2 (0 : Fin 1) k)) = V c main_v9 (ix2 (0 : Fin 1) k)
  refine congrArg _ (funext fun a => Fin.ext ?_)
  match a with
  | ⟨0, _⟩ => show (cfg0.win 0).index t (0 : Fin 2) * 1 + 1 * 0 = 0; omega
  | ⟨1, _⟩ => show (cfg0.win 0).index t (1 : Fin 2) * 512 + 1 * k.val = k.val; omega

/-- The previous hidden state's block is the whole row. -/
theorem block0_in1 (c : Dev nD) (t : Fin cfg0.N) (k : Fin 2048) :
    tileIn0 V c 1 t (ix2 (0 : Fin 1) k) = V c main_v11 (ix2 (0 : Fin 1) k) := by
  obtain ⟨-, -, e0, e1⟩ := block0_whole t
  unfold tileIn0
  rw [View.read_apply]
  show V c main_v11 (((cfg0.win 1).blk t).view.emb (ix2 (0 : Fin 1) k)) = V c main_v11 (ix2 (0 : Fin 1) k)
  refine congrArg _ (funext fun a => Fin.ext ?_)
  match a with
  | ⟨0, _⟩ => show (cfg0.win 1).index t (0 : Fin 2) * 1 + 1 * 0 = 0; omega
  | ⟨1, _⟩ => show (cfg0.win 1).index t (1 : Fin 2) * 2048 + 1 * k.val = k.val; omega

/-- Row (g, j) of the input weights' block at point t is row (g, 256 t + j) of the tensor. -/
theorem block0_in2 (c : Dev nD) (t : Fin cfg0.N) (g : Fin 3) (j : Fin 256) (k : Fin 512) (hq : 256 * t.val + j.val < 2048) :
    tileIn0 V c 2 t (ix3 g j k) = V c main_v14 (ix3 g (⟨256 * t.val + j.val, hq⟩ : Fin 2048) k) := by
  obtain ⟨e0, e1, e2, -⟩ := block0_rows t
  unfold tileIn0
  rw [View.read_apply]
  show V c main_v14 (((cfg0.win 2).blk t).view.emb (ix3 g j k)) = V c main_v14 (ix3 g (⟨256 * t.val + j.val, hq⟩ : Fin 2048) k)
  refine congrArg _ (funext fun a => Fin.ext ?_)
  match a with
  | ⟨0, _⟩ => show (cfg0.win 2).index t (0 : Fin 3) * 3 + 1 * g.val = g.val; omega
  | ⟨1, _⟩ => show (cfg0.win 2).index t (1 : Fin 3) * 256 + 1 * j.val = 256 * t.val + j.val; omega
  | ⟨2, _⟩ => show (cfg0.win 2).index t (2 : Fin 3) * 512 + 1 * k.val = k.val; omega

/-- Row (g, j) of the hidden weights' block at point t is row (g, 256 t + j) of the tensor. -/
theorem block0_in3 (c : Dev nD) (t : Fin cfg0.N) (g : Fin 3) (j : Fin 256) (k : Fin 2048) (hq : 256 * t.val + j.val < 2048) :
    tileIn0 V c 3 t (ix3 g j k) = V c main_v15 (ix3 g (⟨256 * t.val + j.val, hq⟩ : Fin 2048) k) := by
  obtain ⟨-, -, -, e0, e1, e2, -⟩ := block0_rows t
  unfold tileIn0
  rw [View.read_apply]
  show V c main_v15 (((cfg0.win 3).blk t).view.emb (ix3 g j k)) = V c main_v15 (ix3 g (⟨256 * t.val + j.val, hq⟩ : Fin 2048) k)
  refine congrArg _ (funext fun a => Fin.ext ?_)
  match a with
  | ⟨0, _⟩ => show (cfg0.win 3).index t (0 : Fin 3) * 3 + 1 * g.val = g.val; omega
  | ⟨1, _⟩ => show (cfg0.win 3).index t (1 : Fin 3) * 256 + 1 * j.val = 256 * t.val + j.val; omega
  | ⟨2, _⟩ => show (cfg0.win 3).index t (2 : Fin 3) * 2048 + 1 * k.val = k.val; omega

/-- Entry (g, j) of the input biases' block at point t is entry (g, 256 t + j) of the matrix. -/
theorem block0_in4 (c : Dev nD) (t : Fin cfg0.N) (g : Fin 3) (j : Fin 256) (hq : 256 * t.val + j.val < 2048) :
    tileIn0 V c 4 t (ix2 g j) = V c main_v16 (ix2 g (⟨256 * t.val + j.val, hq⟩ : Fin 2048)) := by
  obtain ⟨-, -, -, -, -, -, e0, e1, -⟩ := block0_rows t
  unfold tileIn0
  rw [View.read_apply]
  show V c main_v16 (((cfg0.win 4).blk t).view.emb (ix2 g j)) = V c main_v16 (ix2 g (⟨256 * t.val + j.val, hq⟩ : Fin 2048))
  refine congrArg _ (funext fun a => Fin.ext ?_)
  match a with
  | ⟨0, _⟩ => show (cfg0.win 4).index t (0 : Fin 2) * 3 + 1 * g.val = g.val; omega
  | ⟨1, _⟩ => show (cfg0.win 4).index t (1 : Fin 2) * 256 + 1 * j.val = 256 * t.val + j.val; omega

/-- Entry (g, j) of the hidden biases' block at point t is entry (g, 256 t + j) of the matrix. -/
theorem block0_in5 (c : Dev nD) (t : Fin cfg0.N) (g : Fin 3) (j : Fin 256) (hq : 256 * t.val + j.val < 2048) :
    tileIn0 V c 5 t (ix2 g j) = V c main_v17 (ix2 g (⟨256 * t.val + j.val, hq⟩ : Fin 2048)) := by
  obtain ⟨-, -, -, -, -, -, -, -, e0, e1⟩ := block0_rows t
  unfold tileIn0
  rw [View.read_apply]
  show V c main_v17 (((cfg0.win 5).blk t).view.emb (ix2 g j)) = V c main_v17 (ix2 g (⟨256 * t.val + j.val, hq⟩ : Fin 2048))
  refine congrArg _ (funext fun a => Fin.ext ?_)
  match a with
  | ⟨0, _⟩ => show (cfg0.win 5).index t (0 : Fin 2) * 3 + 1 * g.val = g.val; omega
  | ⟨1, _⟩ => show (cfg0.win 5).index t (1 : Fin 2) * 256 + 1 * j.val = 256 * t.val + j.val; omega

/-! ## The result array as one function of the column -/

/-- Column q of the new hidden state: the GRU column of the whole layer input and previous hidden state, rows (g, q) of the
    two weight tensors, entries (g, q) of the two bias matrices, and the previous hidden state's own entry q. -/
def region0_val (c : Dev nD) (q : Fin 2048) : EReal :=
  gruCol (fun k : Fin 512 => V c main_v9 (ix2 (0 : Fin 1) k)) (fun k : Fin 2048 => V c main_v11 (ix2 (0 : Fin 1) k))
    (fun g k => V c main_v14 (ix3 g q k)) (fun g k => V c main_v15 (ix3 g q k))
    (fun g => V c main_v16 (ix2 g q)) (fun g => V c main_v17 (ix2 g q)) (V c main_v11 (ix2 (0 : Fin 1) q))

/-- The whole 1 x 2048 array: entry (0, q) is column q. -/
def region0_arr (c : Dev nD) : S1x2048.Idx → EReal := fun i => region0_val V c (i 1)

/-- Entry j of the output block at point t is column 256 t + j: the body's column formula reads the whole input and hidden
    state, rows (g, j) of the point's weight and bias blocks, which are rows (g, 256 t + j) of the arrays, and entry
    256 t + j of the hidden state. -/
theorem block0_out (c : Dev nD) (t : Fin cfg0.N) (j : Fin 256) (hq : 256 * t.val + j.val < 2048) :
    tileOut0 (F := Ideal) (grid0.coords t) (tileIn0 V c 0 t) (tileIn0 V c 1 t) (tileIn0 V c 2 t) (tileIn0 V c 3 t) (tileIn0 V c 4 t) (tileIn0 V c 5 t)
        (ix2 (0 : Fin 1) j)
      = region0_val V c ⟨256 * t.val + j.val, hq⟩ := by
  obtain ⟨e, -⟩ := block0_point t
  have hq' : 256 * ((grid0.coords t) 0).val + j.val < 2048 := by rw [e]; exact hq
  have hj : (⟨256 * ((grid0.coords t) 0).val + j.val, hq'⟩ : Fin 2048) = ⟨256 * t.val + j.val, hq⟩ :=
    Fin.ext (congrArg (fun x => 256 * x + j.val) e)
  refine (tile0_value (grid0.coords t) (tileIn0 V c 0 t) (tileIn0 V c 1 t) (tileIn0 V c 2 t) (tileIn0 V c 3 t) (tileIn0 V c 4 t) (tileIn0 V c 5 t) j hq').trans ?_
  unfold region0_val
  rw [hj]
  simp only [block0_in0 V c t, block0_in1 V c t, block0_in2 V c t _ j _ hq, block0_in3 V c t _ j _ hq, block0_in4 V c t _ j hq, block0_in5 V c t _ j hq]

/-- What point t writes back is its block of the array: entry (0, j) of the block is the array's entry (0, 256 t + j). -/
theorem block0_flushed (c : Dev nD) (t : Fin cfg0.N) :
    (dat0 (F := Ideal) V c).flushed 6 t = ((cfg0.win 6).blk t).view.read (Elt Ideal) (region0_arr V c) := by
  obtain ⟨e0, e1, -⟩ := block0_result t
  obtain ⟨-, hin⟩ := block0_point t
  funext y
  rw [View.read_apply]
  have hy0 : (y 0).val < 1 := (y 0).isLt
  have hy1 : (y 1).val < 256 := (y 1).isLt
  have hq : 256 * t.val + (y 1).val < 2048 := by omega
  have hx : (cfg0.win 6).xinj (grid0.coords t) y = ix2 (0 : Fin 1) (⟨(y 1).val, hy1⟩ : Fin 256) := by
    funext a; apply Fin.ext
    match a with
    | ⟨0, _⟩ => show (y 0).val = 0; omega
    | ⟨1, _⟩ => rfl
  have he : ((cfg0.win 6).blk t).view.emb y = ix2 (0 : Fin 1) (⟨256 * t.val + (y 1).val, hq⟩ : Fin 2048) := by
    funext a; apply Fin.ext
    match a with
    | ⟨0, _⟩ => show (cfg0.win 6).index t (0 : Fin 2) * 1 + 1 * (y 0).val = 0; omega
    | ⟨1, _⟩ => show (cfg0.win 6).index t (1 : Fin 2) * 256 + 1 * (y 1).val = 256 * t.val + (y 1).val; omega
  show (dat0 (F := Ideal) V c).after 6 t ((cfg0.win 6).xinj (grid0.coords t) y) = region0_arr V c (((cfg0.win 6).blk t).view.emb y)
  rw [dat0_after6, hx, he]
  exact block0_out V c t ⟨(y 1).val, hy1⟩ hq

/-- Column q lies in the block of point q / 256. -/
theorem block0_mem (q : Fin 2048) (t : Fin cfg0.N) (ht : t.val = q.val / 256) :
    (ix2 (0 : Fin 1) q : S1x2048.Idx) ∈ ((cfg0.win 6).blk t).view.set := by
  obtain ⟨e0, e1, -⟩ := block0_result t
  show (ix2 (0 : Fin 1) q : S1x2048.Idx) ∈ ((View.whole main_v22).slice ((cfg0.win 6).rect t)).set
  rw [View.set_slice_whole, Rect.mem_set_unit]
  intro a
  match a with
  | ⟨0, _⟩ => show (cfg0.win 6).index t (0 : Fin 2) * 1 ≤ 0 ∧ 0 < (cfg0.win 6).index t (0 : Fin 2) * 1 + 1; omega
  | ⟨1, _⟩ => show (cfg0.win 6).index t (1 : Fin 2) * 256 ≤ q.val ∧ q.val < (cfg0.win 6).index t (1 : Fin 2) * 256 + 256; omega

/-- Column q of the array the first GRU layer's pallas_call leaves in its result buffer: the point that covers the column
    wrote the array's value there, and whichever point wrote there last wrote the same. -/
theorem region0_col (c : Dev nD) (q : Fin 2048) :
    (dat0 (F := Ideal) V c).arrAt 6 cfg0.N (ix2 (0 : Fin 1) q)
      = gruCol (fun k : Fin 512 => V c main_v9 (ix2 (0 : Fin 1) k)) (fun k : Fin 2048 => V c main_v11 (ix2 (0 : Fin 1) k))
          (fun g k => V c main_v14 (ix3 g q k)) (fun g k => V c main_v15 (ix3 g q k))
          (fun g => V c main_v16 (ix2 g q)) (fun g => V c main_v17 (ix2 g q)) (V c main_v11 (ix2 (0 : Fin 1) q)) := by
  have hN := block0_count
  have hq := q.isLt
  have ht : q.val / 256 < cfg0.N := by omega
  exact (dat0 (F := Ideal) V c).arrAt_apply_of_mem 6 (region0_arr V c) (fun t _ => block0_flushed V c t) cfg0.N ⟨q.val / 256, ht⟩
    (ix2 (0 : Fin 1) q) ht (block0_result ⟨q.val / 256, ht⟩).2.2 (block0_mem q ⟨q.val / 256, ht⟩ rfl)

end Cert.KernelIdeal.Hand

end
-- ==== Proof.Tile1.lean ====
/-
  One entry of the second GRU layer's output block, as the GRU column formula of the body's loads.

  The body stores ONE value into its 1 x 128 output block: pointwise arithmetic (sums, products, a difference from one,
  two logistics, a hyperbolic tangent) of six gate pre-activations and of the column's own previous hidden entry. Each
  pre-activation is a row vector (the layer input, or the whole previous hidden state) times the transposed 128 x K
  matrix of one gate — gate g's slice of a 3 x 128 x K weight block — into a zero accumulator, plus gate g's row of a
  3 x 128 bias block. Changing a value's format changes no value over the extended reals, and the shape changes are
  re-indexings. So entry (0, j) of the block reads, of the weights, only rows (g, j), of the biases only entries (g, j),
  and all of the input and of the hidden state.

  The steps: the product of a row with the rows of a matrix, read at an entry, is a dot product (whatever the name of
  the dimension numbers that say "contract the second axis of both, no batch axis"); a gate's slice of a stack read at
  an entry; each of the body's named values at entry (0, j); the assembly.
-/
import proofs.«147042_j85452669321958_1_alg».proof.Proof.Region1
import proofs.«147042_j85452669321958_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx

/-! ## A row against the rows of a matrix -/

/-- A one-row left operand [1, K] against a right operand [N, K], both contracted along their second axis, into a zero
    accumulator: entry (0, j) of the [1, N] product is the dot product of the row with row j of the right operand. The
    contraction index has one coordinate, k; the left operand is read at (0, k) and the right one at (j, k). -/
theorem tile1_rowdot_apply {N K : ℕ} {φ₁ φ₂ : FTy}
    (w : DotDims.WF ⟨2, ![1, K]⟩ ⟨2, ![N, K]⟩ ⟨2, ![1, N]⟩ [1] [1] [0] [0] [] [])
    (prec : Option ContractPrecision) (A : FVec Ideal ⟨2, ![1, K]⟩ φ₁) (B : FVec Ideal ⟨2, ![N, K]⟩ φ₂) (j : Fin N) :
    matmul (⟨[1], [1], [0], [0], [], [], w⟩ : DotDims _ _ _) prec A B (constant (F := Ideal) ⟨2, ![1, N]⟩ .f32 0x00000000#32)
        (ix2 (0 : Fin 1) j)
      = ∑ k : Fin K, A (ix2 (0 : Fin 1) k) * B (ix2 j k) := by
  show FloatOps.matmul _ prec A B _ (ix2 (0 : Fin 1) j) = _
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![1, K]⟩ ⟨2, ![N, K]⟩ ⟨2, ![1, N]⟩) K rfl rfl c
  have l2 : (⟨[1], [1], [0], [0], [], [], w⟩ : DotDims ⟨2, ![1, K]⟩ ⟨2, ![N, K]⟩ ⟨2, ![1, N]⟩).lhsIdx (ix2 (0 : Fin 1) j)
      ((contrEquiv1 _ K rfl rfl).symm c) = ix2 (0 : Fin 1) c := by
    funext ax; apply Fin.ext
    match ax with
    | ⟨0, _⟩ => simp [DotDims.lhsIdx]
    | ⟨1, _⟩ => simp [DotDims.lhsIdx]; exact c2
  have r2 : (⟨[1], [1], [0], [0], [], [], w⟩ : DotDims ⟨2, ![1, K]⟩ ⟨2, ![N, K]⟩ ⟨2, ![1, N]⟩).rhsIdx (ix2 (0 : Fin 1) j)
      ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- The same for ANY dimension numbers over these shapes that contract the second axis of both operands, keep the first
    axis of each and have no batch axis: such a record is the one above, whatever name a program gives it. -/
theorem tile1_rowdot_of_dims {N K : ℕ} {φ₁ φ₂ : FTy} (d : DotDims ⟨2, ![1, K]⟩ ⟨2, ![N, K]⟩ ⟨2, ![1, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![1, K]⟩ φ₁) (B : FVec Ideal ⟨2, ![N, K]⟩ φ₂) (j : Fin N) :
    matmul d prec A B (constant (F := Ideal) ⟨2, ![1, N]⟩ .f32 0x00000000#32) (ix2 (0 : Fin 1) j)
      = ∑ k : Fin K, A (ix2 (0 : Fin 1) k) * B (ix2 j k) := by
  obtain ⟨lc, rc, ln, rn, lb, rb, w⟩ := d
  simp only at hlc hrc hln hrn hlb hrb
  subst hlc hrc hln hrn hlb hrb
  exact tile1_rowdot_apply w prec A B j

/-! ## A gate's slice of a stack of three -/

/-- Gate g's rows of a stack [3, N, K] of three weight matrices: the slice of the stack at offset g along its first
    axis, read as an [N, K] matrix, has at (j, k) the stack's entry (g, j, k). -/
theorem tile1_gateRows_apply {α : Type} {N K : ℕ} (W : (⟨3, ![3, N, K]⟩ : Shape).Idx → α) (g : Fin 3) (o : ℕ) (ho : o = g.val)
    (hs : (⟨3, ![3, N, K]⟩ : Shape).Slices ![o, 0, 0] ⟨3, ![1, N, K]⟩)
    (hc : (⟨3, ![1, N, K]⟩ : Shape).ShapeCasts ⟨2, ![N, K]⟩) (j : Fin N) (k : Fin K) :
    shapeCast ⟨2, ![N, K]⟩ (extractStridedSlice ⟨3, ![1, N, K]⟩ ![o, 0, 0] W hs) hc (ix2 j k) = W (ix3 g j k) := by
  refine (shapeCast_1ab_ab_apply _ hc j k).trans ?_
  refine extractStridedSlice_apply _ W hs (ix3 (0 : Fin 1) j k) (ix3 g j k) fun ax => ?_
  match ax with
  | ⟨0, _⟩ => show g.val = o + 0; omega
  | ⟨1, _⟩ => exact (Nat.zero_add _).symm
  | ⟨2, _⟩ => exact (Nat.zero_add _).symm

/-- Gate g's row of a stack [3, N] of three bias rows: the slice at offset g along the first axis has at (0, j) the
    stack's entry (g, j). -/
theorem tile1_gateBias_apply {α : Type} {N : ℕ} (B : (⟨2, ![3, N]⟩ : Shape).Idx → α) (g : Fin 3) (o : ℕ) (ho : o = g.val)
    (hs : (⟨2, ![3, N]⟩ : Shape).Slices ![o, 0] ⟨2, ![1, N]⟩) (j : Fin N) :
    extractStridedSlice ⟨2, ![1, N]⟩ ![o, 0] B hs (ix2 (0 : Fin 1) j) = B (ix2 g j) :=
  slice2_axis0_apply o B hs (0 : Fin 1) j g (by show g.val = o + 0; omega)

/-- A gate's product: the row a (its format narrowed, which changes no value) against gate g's rows of the weight stack
    (narrowed likewise), into a zero accumulator, has at (0, j) the dot product of a with the stack's row (g, j). -/
theorem tile1_gateDot_apply {N K : ℕ} (d : DotDims ⟨2, ![1, K]⟩ ⟨2, ![N, K]⟩ ⟨2, ![1, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (a : FVec Ideal ⟨2, ![1, K]⟩ .f32) (W : FVec Ideal ⟨3, ![3, N, K]⟩ .f32)
    (g : Fin 3) (o : ℕ) (ho : o = g.val) (hs : (⟨3, ![3, N, K]⟩ : Shape).Slices ![o, 0, 0] ⟨3, ![1, N, K]⟩)
    (hc : (⟨3, ![1, N, K]⟩ : Shape).ShapeCasts ⟨2, ![N, K]⟩) (hb hb' : FTy.bits .bf16 < FTy.bits .f32) (j : Fin N) :
    matmul d prec (truncf .bf16 a hb)
        (truncf .bf16 (shapeCast ⟨2, ![N, K]⟩ (extractStridedSlice ⟨3, ![1, N, K]⟩ ![o, 0, 0] W hs) hc) hb')
        (constant (F := Ideal) ⟨2, ![1, N]⟩ .f32 0x00000000#32) (ix2 (0 : Fin 1) j)
      = ∑ k : Fin K, a (ix2 (0 : Fin 1) k) * W (ix3 g j k) := by
  rw [tile1_rowdot_of_dims d hlc hrc hln hrn hlb hrb]
  refine Finset.sum_congr rfl fun k _ => ?_
  rw [truncf_apply, truncf_apply, tile1_gateRows_apply W g o ho hs hc j k]

/-! ## The four values the body forms from the layer input, at column j

Each is opened to its operations; the shape changes that keep the shape, or go to a vector and back, drop out; what is
left is a gate's product and a gate's bias row, read as above (the side conditions are the record's six lists and the
slice offsets, all literal). -/

/-- The reset gate's input half at column j: the input row against row (0, j) of the input weights, plus bias (0, j). -/
theorem tile1_pay9_apply (X : Vec Ideal S1x2048 .f32) (W : Vec Ideal S3x128x2048 .f32) (B : Vec Ideal S3x128 .f32) (j : Fin 128) :
    k1_pay9 X W B (ix2 (0 : Fin 1) j)
      = gatePre (fun k : Fin 2048 => X (ix2 (0 : Fin 1) k)) (fun k => W (ix3 (0 : Fin 3) j k)) (B (ix2 (0 : Fin 3) j)) := by
  unfold k1_pay9 k1_pay2 k1_pay5 k1_pay7 gatePre
  simp only [shapeCast_self, shapeCast_shapeCast]
  rw [addf_apply, tile1_gateDot_apply (g := 0) (o := 0), tile1_gateBias_apply (g := 0) (o := 0)]
  all_goals rfl

/-- The update gate's input half at column j: row (1, j) of the input weights and bias (1, j). -/
theorem tile1_pay10_apply (X : Vec Ideal S1x2048 .f32) (W : Vec Ideal S3x128x2048 .f32) (B : Vec Ideal S3x128 .f32) (j : Fin 128) :
    k1_pay10 X W B (ix2 (0 : Fin 1) j)
      = gatePre (fun k : Fin 2048 => X (ix2 (0 : Fin 1) k)) (fun k => W (ix3 (1 : Fin 3) j k)) (B (ix2 (1 : Fin 3) j)) := by
  unfold k1_pay10 k1_pay2 k1_pay5 k1_pay7 gatePre
  simp only [shapeCast_self, shapeCast_shapeCast]
  rw [addf_apply, tile1_gateDot_apply (g := 1) (o := 1), tile1_gateBias_apply (g := 1) (o := 1)]
  all_goals rfl

/-- The candidate's input product at column j: the input row against row (2, j) of the input weights (its bias is added
    later, inside the stored value). -/
theorem tile1_pay11_apply (X : Vec Ideal S1x2048 .f32) (W : Vec Ideal S3x128x2048 .f32) (j : Fin 128) :
    k1_pay11 X W (ix2 (0 : Fin 1) j) = ∑ k : Fin 2048, X (ix2 (0 : Fin 1) k) * W (ix3 (2 : Fin 3) j k) := by
  unfold k1_pay11 k1_pay2 k1_pay5
  simp only [shapeCast_self]
  rw [tile1_gateDot_apply (g := 2) (o := 2)]
  all_goals rfl

/-- The candidate's input bias at column j: entry (2, j) of the input biases. -/
theorem tile1_pay12_apply (B : Vec Ideal S3x128 .f32) (j : Fin 128) :
    k1_pay12 B (ix2 (0 : Fin 1) j) = B (ix2 (2 : Fin 3) j) := by
  unfold k1_pay12 k1_pay7
  simp only [shapeCast_self]
  rw [tile1_gateBias_apply (g := 2) (o := 2)]
  all_goals rfl

/-! ## The column's own previous hidden entry -/

/-- The columns of the resident hidden state that the point's output block updates start at column 128 * i: entry
    (0, j) of that load is the hidden state's entry (0, 128 * i + j) (the offsets are (0, 128 * i), the strides one). -/
theorem tile1_hslice_apply (i : grid1.Coords) (H : Vec Ideal S1x2048 .f32) (j : Fin 128) (hq : 128 * (i 0).val + j.val < 2048) :
    k1_pay4 (View.ld H (rHt1 i)) (ix2 (0 : Fin 1) j) = H (ix2 (0 : Fin 1) ⟨128 * (i 0).val + j.val, hq⟩) := by
  unfold k1_pay4
  simp only [shapeCast_self]
  show H ((rHt1 i).idx (ix2 (0 : Fin 1) j)) = _
  refine congrArg H (funext fun a => Fin.ext ?_)
  match a with
  | ⟨0, _⟩ => show (k1_off1 i) 0 + 1 * 0 = 0; rw [k1_off1_eq]; rfl
  | ⟨1, _⟩ => show (k1_off1 i) 1 + 1 * j.val = 128 * (i 0).val + j.val; rw [k1_off1_eq]; show 128 * (i 0).val + 1 * j.val = _; omega

/-! ## The stored value at column j -/

/-- The logistic of a vector at an index is the extended reals' logistic of the element. -/
theorem tile1_logistic_apply {s : Shape} {φ : FTy} (x : FVec Ideal s φ) (i : s.Idx) : logistic x i = Ideal.logistic (x i) := rfl
/-- The hyperbolic tangent of a vector at an index is the extended reals' of the element. -/
theorem tile1_tanh_apply {s : Shape} {φ : FTy} (x : FVec Ideal s φ) (i : s.Idx) : tanh x i = Ideal.tanh (x i) := rfl

/-- The stored value at column j, from the hidden state H, the column's own previous entry hj, the hidden weights and
    biases, and the four input-side values at the column (the reset and update gates' input halves a0 and a1, the
    candidate's input product p2 and input bias c2): the three hidden-side pre-activations gh g are formed (H against row
    (g, j) of the hidden weights, plus bias (g, j)), then
      r = logistic (a0 + gh 0),  z = logistic (a1 + gh 1),  n = tanh ((p2 + c2) + r * gh 2),  (1 - z) * n + z * hj,
    the one being the word 0x3F800000. -/
theorem tile1_pay1_apply (H : Vec Ideal S1x2048 .f32) (hj : FVec Ideal S1x128 .f32) (Wh : Vec Ideal S3x128x2048 .f32)
    (Bh : Vec Ideal S3x128 .f32) (a0 a1 p2 c2 : FVec Ideal S1x128 .f32) (j : Fin 128) :
    k1_pay1 (k1_pay3 H) hj (k1_pay6 Wh) (k1_pay8 Bh) a0 a1 p2 c2 (ix2 (0 : Fin 1) j)
      = (1 - Ideal.logistic (a1 (ix2 (0 : Fin 1) j)
              + gatePre (fun k : Fin 2048 => H (ix2 (0 : Fin 1) k)) (fun k => Wh (ix3 (1 : Fin 3) j k)) (Bh (ix2 (1 : Fin 3) j))))
          * Ideal.tanh ((p2 (ix2 (0 : Fin 1) j) + c2 (ix2 (0 : Fin 1) j))
              + Ideal.logistic (a0 (ix2 (0 : Fin 1) j)
                  + gatePre (fun k : Fin 2048 => H (ix2 (0 : Fin 1) k)) (fun k => Wh (ix3 (0 : Fin 3) j k)) (Bh (ix2 (0 : Fin 3) j)))
                * gatePre (fun k : Fin 2048 => H (ix2 (0 : Fin 1) k)) (fun k => Wh (ix3 (2 : Fin 3) j k)) (Bh (ix2 (2 : Fin 3) j)))
        + Ideal.logistic (a1 (ix2 (0 : Fin 1) j)
              + gatePre (fun k : Fin 2048 => H (ix2 (0 : Fin 1) k)) (fun k => Wh (ix3 (1 : Fin 3) j k)) (Bh (ix2 (1 : Fin 3) j)))
          * hj (ix2 (0 : Fin 1) j) := by
  unfold k1_pay1 k1_pay3 k1_pay6 k1_pay8 gatePre
  simp only [shapeCast_self, shapeCast_shapeCast]
  simp only [addf_apply, mulf_apply, subf_apply, broadcast_apply, tile1_logistic_apply, tile1_tanh_apply]
  rw [tile1_gateDot_apply (g := 0) (o := 0), tile1_gateDot_apply (g := 1) (o := 1), tile1_gateDot_apply (g := 2) (o := 2),
    tile1_gateBias_apply (g := 0) (o := 0), tile1_gateBias_apply (g := 1) (o := 1), tile1_gateBias_apply (g := 2) (o := 2),
    show (FloatOps.ofBits .f32 0x3F800000#32 : Ideal .f32) = (1 : EReal) from Ideal.ofBits_one_f32]
  all_goals rfl

/-! ## The output block's entry -/

/-- Zero offsets, as the body's whole-block accesses spell them, at rank two and at rank three. -/
theorem tile1_zero2 : (![0, 0] : Fin 2 → ℕ) = fun _ => 0 := funext fun a => by fin_cases a <;> rfl
theorem tile1_zero3 : (![0, 0, 0] : Fin 3 → ℕ) = fun _ => 0 := funext fun a => by fin_cases a <;> rfl

/-- Entry (0, j) of the output block the body leaves at grid coordinates i is the GRU column of: the whole input x0; the whole
    previous hidden state x1; rows (g, j) of the two weight blocks x2, x3; entries (g, j) of the two bias blocks x4, x5;
    and the previous hidden entry of this very column, column 128 * i + j of x1. -/
theorem tile1_value (i : grid1.Coords) (x0 : Vec Ideal S1x2048 .f32) (x1 : Vec Ideal S1x2048 .f32) (x2 : Vec Ideal S3x128x2048 .f32)
    (x3 : Vec Ideal S3x128x2048 .f32) (x4 x5 : Vec Ideal S3x128 .f32) (j : Fin 128) (hq : 128 * (i 0).val + j.val < 2048) :
    tileOut1 (F := Ideal) i x0 x1 x2 x3 x4 x5 (ix2 (0 : Fin 1) j)
      = gruCol (fun k : Fin 2048 => x0 (ix2 (0 : Fin 1) k)) (fun k : Fin 2048 => x1 (ix2 (0 : Fin 1) k))
          (fun g k => x2 (ix3 g j k)) (fun g k => x3 (ix3 g j k)) (fun g => x4 (ix2 g j)) (fun g => x5 (ix2 g j))
          (x1 (ix2 (0 : Fin 1) ⟨128 * (i 0).val + j.val, hq⟩)) := by
  -- the one store covers the block, so the block holds its value; the whole-block loads read their blocks as they are
  unfold tileOut1
  rw [View.canon_unit_zero tile1_zero2]
  simp only [View.ld_unit_zero (S := S1x2048) tile1_zero2, View.ld_unit_zero (S := S1x2048) tile1_zero2,
    View.ld_unit_zero (S := S3x128x2048) tile1_zero3, View.ld_unit_zero (S := S3x128x2048) tile1_zero3,
    View.ld_unit_zero (S := S3x128) tile1_zero2]
  -- the stored value at column j, then its four input-side operands and the column's previous entry; what is left is
  -- the column formula with the candidate's input pre-activation written as its product plus its bias
  rw [tile1_pay1_apply, tile1_pay9_apply, tile1_pay10_apply, tile1_pay11_apply, tile1_pay12_apply, tile1_hslice_apply i x1 j hq]
  rfl

end Cert.KernelIdeal.Hand

end
-- ==== Proof.Blocks1.lean ====
/-
  The second GRU layer's result array after its pallas_call, column by column: each column of the new hidden state is the GRU
  column formula of the region's operand arrays.

  Column q lies in the block of grid point q / 128, at offset q % 128. That point's output block is the body's result on
  the point's input blocks; each input block is a box of its operand array (the layer input and the previous hidden state
  whole, the weight and bias blocks the 128 rows from row 128 t on of their cut axis), so entry j of the output block at point t
  is the column formula at column 128 t + j; and the write-backs, each its block of one and the same array, leave that
  array behind.
-/
import proofs.«147042_j85452669321958_1_alg».proof.Proof.Tile1
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx

variable (V : (c : Dev nD) → (b : Ref sig .tc) → Buf (Elt Ideal) ((c : Thread nD τ).loc b))

/-! ## Where the blocks sit, decided over the grid -/

/-- Point t's one grid coordinate is t, and the 128 columns from 128 t on are among the 2048. -/
theorem block1_point : ∀ t : Fin cfg1.N, ((grid1.coords t) 0).val = t.val ∧ 128 * t.val + 128 ≤ 2048 :=
  (by decide +kernel : ∀ t : Fin grid1.N, _)

/-- The two whole operands (the layer input, the previous hidden state) are block (0, 0) at every point. -/
theorem block1_whole : ∀ t : Fin cfg1.N, (cfg1.win 0).index t (0 : Fin 2) = 0 ∧ (cfg1.win 0).index t (1 : Fin 2) = 0
    ∧ (cfg1.win 1).index t (0 : Fin 2) = 0 ∧ (cfg1.win 1).index t (1 : Fin 2) = 0 :=
  (by decide +kernel : ∀ t : Fin grid1.N, _)

/-- The two weight tensors are at block (0, t, 0), the two bias matrices at block (0, t). -/
theorem block1_rows : ∀ t : Fin cfg1.N,
    (cfg1.win 2).index t (0 : Fin 3) = 0 ∧ (cfg1.win 2).index t (1 : Fin 3) = t.val ∧ (cfg1.win 2).index t (2 : Fin 3) = 0
    ∧ (cfg1.win 3).index t (0 : Fin 3) = 0 ∧ (cfg1.win 3).index t (1 : Fin 3) = t.val ∧ (cfg1.win 3).index t (2 : Fin 3) = 0
    ∧ (cfg1.win 4).index t (0 : Fin 2) = 0 ∧ (cfg1.win 4).index t (1 : Fin 2) = t.val
    ∧ (cfg1.win 5).index t (0 : Fin 2) = 0 ∧ (cfg1.win 5).index t (1 : Fin 2) = t.val :=
  (by decide +kernel : ∀ t : Fin grid1.N, _)

/-- The result is at block (0, t), and every point writes its block back. -/
theorem block1_result : ∀ t : Fin cfg1.N, (cfg1.win 6).index t (0 : Fin 2) = 0 ∧ (cfg1.win 6).index t (1 : Fin 2) = t.val
    ∧ (cfg1.win 6).flush t = true :=
  (by decide +kernel : ∀ t : Fin grid1.N, _)

/-- The blocks are as many as fill the 2048 columns. -/
theorem block1_count : cfg1.N * 128 = 2048 := (by decide +kernel : grid1.N * 128 = 2048)

/-! ## The input blocks as boxes of their arrays

A block's entry sits in the array, on each axis, at the block index times the block's size plus the entry's own coordinate. -/

/-- The layer input's block is the whole row. -/
theorem block1_in0 (c : Dev nD) (t : Fin cfg1.N) (k : Fin 2048) :
    tileIn1 V c 0 t (ix2 (0 : Fin 1) k) = V c main_v22 (ix2 (0 : Fin 1) k) := by
  obtain ⟨e0, e1, -⟩ := block1_whole t
  unfold tileIn1
  rw [View.read_apply]
  show V c main_v22 (((cfg1.win 0).blk t).view.emb (ix2 (0 : Fin 1) k)) = V c main_v22 (ix2 (0 : Fin 1) k)
  refine congrArg _ (funext fun a => Fin.ext ?_)
  match a with
  | ⟨0, _⟩ => show (cfg1.win 0).index t (0 : Fin 2) * 1 + 1 * 0 = 0; omega
  | ⟨1, _⟩ => show (cfg1.win 0).index t (1 : Fin 2) * 2048 + 1 * k.val = k.val; omega

/-- The previous hidden state's block is the whole row. -/
theorem block1_in1 (c : Dev nD) (t : Fin cfg1.N) (k : Fin 2048) :
    tileIn1 V c 1 t (ix2 (0 : Fin 1) k) = V c main_v13 (ix2 (0 : Fin 1) k) := by
  obtain ⟨-, -, e0, e1⟩ := block1_whole t
  unfold tileIn1
  rw [View.read_apply]
  show V c main_v13 (((cfg1.win 1).blk t).view.emb (ix2 (0 : Fin 1) k)) = V c main_v13 (ix2 (0 : Fin 1) k)
  refine congrArg _ (funext fun a => Fin.ext ?_)
  match a with
  | ⟨0, _⟩ => show (cfg1.win 1).index t (0 : Fin 2) * 1 + 1 * 0 = 0; omega
  | ⟨1, _⟩ => show (cfg1.win 1).index t (1 : Fin 2) * 2048 + 1 * k.val = k.val; omega

/-- Row (g, j) of the input weights' block at point t is row (g, 128 t + j) of the tensor. -/
theorem block1_in2 (c : Dev nD) (t : Fin cfg1.N) (g : Fin 3) (j : Fin 128) (k : Fin 2048) (hq : 128 * t.val + j.val < 2048) :
    tileIn1 V c 2 t (ix3 g j k) = V c main_v18 (ix3 g (⟨128 * t.val + j.val, hq⟩ : Fin 2048) k) := by
  obtain ⟨e0, e1, e2, -⟩ := block1_rows t
  unfold tileIn1
  rw [View.read_apply]
  show V c main_v18 (((cfg1.win 2).blk t).view.emb (ix3 g j k)) = V c main_v18 (ix3 g (⟨128 * t.val + j.val, hq⟩ : Fin 2048) k)
  refine congrArg _ (funext fun a => Fin.ext ?_)
  match a with
  | ⟨0, _⟩ => show (cfg1.win 2).index t (0 : Fin 3) * 3 + 1 * g.val = g.val; omega
  | ⟨1, _⟩ => show (cfg1.win 2).index t (1 : Fin 3) * 128 + 1 * j.val = 128 * t.val + j.val; omega
  | ⟨2, _⟩ => show (cfg1.win 2).index t (2 : Fin 3) * 2048 + 1 * k.val = k.val; omega

/-- Row (g, j) of the hidden weights' block at point t is row (g, 128 t + j) of the tensor. -/
theorem block1_in3 (c : Dev nD) (t : Fin cfg1.N) (g : Fin 3) (j : Fin 128) (k : Fin 2048) (hq : 128 * t.val + j.val < 2048) :
    tileIn1 V c 3 t (ix3 g j k) = V c main_v19 (ix3 g (⟨128 * t.val + j.val, hq⟩ : Fin 2048) k) := by
  obtain ⟨-, -, -, e0, e1, e2, -⟩ := block1_rows t
  unfold tileIn1
  rw [View.read_apply]
  show V c main_v19 (((cfg1.win 3).blk t).view.emb (ix3 g j k)) = V c main_v19 (ix3 g (⟨128 * t.val + j.val, hq⟩ : Fin 2048) k)
  refine congrArg _ (funext fun a => Fin.ext ?_)
  match a with
  | ⟨0, _⟩ => show (cfg1.win 3).index t (0 : Fin 3) * 3 + 1 * g.val = g.val; omega
  | ⟨1, _⟩ => show (cfg1.win 3).index t (1 : Fin 3) * 128 + 1 * j.val = 128 * t.val + j.val; omega
  | ⟨2, _⟩ => show (cfg1.win 3).index t (2 : Fin 3) * 2048 + 1 * k.val = k.val; omega

/-- Entry (g, j) of the input biases' block at point t is entry (g, 128 t + j) of the matrix. -/
theorem block1_in4 (c : Dev nD) (t : Fin cfg1.N) (g : Fin 3) (j : Fin 128) (hq : 128 * t.val + j.val < 2048) :
    tileIn1 V c 4 t (ix2 g j) = V c main_v20 (ix2 g (⟨128 * t.val + j.val, hq⟩ : Fin 2048)) := by
  obtain ⟨-, -, -, -, -, -, e0, e1, -⟩ := block1_rows t
  unfold tileIn1
  rw [View.read_apply]
  show V c main_v20 (((cfg1.win 4).blk t).view.emb (ix2 g j)) = V c main_v20 (ix2 g (⟨128 * t.val + j.val, hq⟩ : Fin 2048))
  refine congrArg _ (funext fun a => Fin.ext ?_)
  match a with
  | ⟨0, _⟩ => show (cfg1.win 4).index t (0 : Fin 2) * 3 + 1 * g.val = g.val; omega
  | ⟨1, _⟩ => show (cfg1.win 4).index t (1 : Fin 2) * 128 + 1 * j.val = 128 * t.val + j.val; omega

/-- Entry (g, j) of the hidden biases' block at point t is entry (g, 128 t + j) of the matrix. -/
theorem block1_in5 (c : Dev nD) (t : Fin cfg1.N) (g : Fin 3) (j : Fin 128) (hq : 128 * t.val + j.val < 2048) :
    tileIn1 V c 5 t (ix2 g j) = V c main_v21 (ix2 g (⟨128 * t.val + j.val, hq⟩ : Fin 2048)) := by
  obtain ⟨-, -, -, -, -, -, -, -, e0, e1⟩ := block1_rows t
  unfold tileIn1
  rw [View.read_apply]
  show V c main_v21 (((cfg1.win 5).blk t).view.emb (ix2 g j)) = V c main_v21 (ix2 g (⟨128 * t.val + j.val, hq⟩ : Fin 2048))
  refine congrArg _ (funext fun a => Fin.ext ?_)
  match a with
  | ⟨0, _⟩ => show (cfg1.win 5).index t (0 : Fin 2) * 3 + 1 * g.val = g.val; omega
  | ⟨1, _⟩ => show (cfg1.win 5).index t (1 : Fin 2) * 128 + 1 * j.val = 128 * t.val + j.val; omega

/-! ## The result array as one function of the column -/

/-- Column q of the new hidden state: the GRU column of the whole layer input and previous hidden state, rows (g, q) of the
    two weight tensors, entries (g, q) of the two bias matrices, and the previous hidden state's own entry q. -/
def region1_val (c : Dev nD) (q : Fin 2048) : EReal :=
  gruCol (fun k : Fin 2048 => V c main_v22 (ix2 (0 : Fin 1) k)) (fun k : Fin 2048 => V c main_v13 (ix2 (0 : Fin 1) k))
    (fun g k => V c main_v18 (ix3 g q k)) (fun g k => V c main_v19 (ix3 g q k))
    (fun g => V c main_v20 (ix2 g q)) (fun g => V c main_v21 (ix2 g q)) (V c main_v13 (ix2 (0 : Fin 1) q))

/-- The whole 1 x 2048 array: entry (0, q) is column q. -/
def region1_arr (c : Dev nD) : S1x2048.Idx → EReal := fun i => region1_val V c (i 1)

/-- Entry j of the output block at point t is column 128 t + j: the body's column formula reads the whole input and hidden
    state, rows (g, j) of the point's weight and bias blocks, which are rows (g, 128 t + j) of the arrays, and entry
    128 t + j of the hidden state. -/
theorem block1_out (c : Dev nD) (t : Fin cfg1.N) (j : Fin 128) (hq : 128 * t.val + j.val < 2048) :
    tileOut1 (F := Ideal) (grid1.coords t) (tileIn1 V c 0 t) (tileIn1 V c 1 t) (tileIn1 V c 2 t) (tileIn1 V c 3 t) (tileIn1 V c 4 t) (tileIn1 V c 5 t)
        (ix2 (0 : Fin 1) j)
      = region1_val V c ⟨128 * t.val + j.val, hq⟩ := by
  obtain ⟨e, -⟩ := block1_point t
  have hq' : 128 * ((grid1.coords t) 0).val + j.val < 2048 := by rw [e]; exact hq
  have hj : (⟨128 * ((grid1.coords t) 0).val + j.val, hq'⟩ : Fin 2048) = ⟨128 * t.val + j.val, hq⟩ :=
    Fin.ext (congrArg (fun x => 128 * x + j.val) e)
  refine (tile1_value (grid1.coords t) (tileIn1 V c 0 t) (tileIn1 V c 1 t) (tileIn1 V c 2 t) (tileIn1 V c 3 t) (tileIn1 V c 4 t) (tileIn1 V c 5 t) j hq').trans ?_
  unfold region1_val
  rw [hj]
  simp only [block1_in0 V c t, block1_in1 V c t, block1_in2 V c t _ j _ hq, block1_in3 V c t _ j _ hq, block1_in4 V c t _ j hq, block1_in5 V c t _ j hq]

/-- What point t writes back is its block of the array: entry (0, j) of the block is the array's entry (0, 128 t + j). -/
theorem block1_flushed (c : Dev nD) (t : Fin cfg1.N) :
    (dat1 (F := Ideal) V c).flushed 6 t = ((cfg1.win 6).blk t).view.read (Elt Ideal) (region1_arr V c) := by
  obtain ⟨e0, e1, -⟩ := block1_result t
  obtain ⟨-, hin⟩ := block1_point t
  funext y
  rw [View.read_apply]
  have hy0 : (y 0).val < 1 := (y 0).isLt
  have hy1 : (y 1).val < 128 := (y 1).isLt
  have hq : 128 * t.val + (y 1).val < 2048 := by omega
  have hx : (cfg1.win 6).xinj (grid1.coords t) y = ix2 (0 : Fin 1) (⟨(y 1).val, hy1⟩ : Fin 128) := by
    funext a; apply Fin.ext
    match a with
    | ⟨0, _⟩ => show (y 0).val = 0; omega
    | ⟨1, _⟩ => rfl
  have he : ((cfg1.win 6).blk t).view.emb y = ix2 (0 : Fin 1) (⟨128 * t.val + (y 1).val, hq⟩ : Fin 2048) := by
    funext a; apply Fin.ext
    match a with
    | ⟨0, _⟩ => show (cfg1.win 6).index t (0 : Fin 2) * 1 + 1 * (y 0).val = 0; omega
    | ⟨1, _⟩ => show (cfg1.win 6).index t (1 : Fin 2) * 128 + 1 * (y 1).val = 128 * t.val + (y 1).val; omega
  show (dat1 (F := Ideal) V c).after 6 t ((cfg1.win 6).xinj (grid1.coords t) y) = region1_arr V c (((cfg1.win 6).blk t).view.emb y)
  rw [dat1_after6, hx, he]
  exact block1_out V c t ⟨(y 1).val, hy1⟩ hq

/-- Column q lies in the block of point q / 128. -/
theorem block1_mem (q : Fin 2048) (t : Fin cfg1.N) (ht : t.val = q.val / 128) :
    (ix2 (0 : Fin 1) q : S1x2048.Idx) ∈ ((cfg1.win 6).blk t).view.set := by
  obtain ⟨e0, e1, -⟩ := block1_result t
  show (ix2 (0 : Fin 1) q : S1x2048.Idx) ∈ ((View.whole main_v23).slice ((cfg1.win 6).rect t)).set
  rw [View.set_slice_whole, Rect.mem_set_unit]
  intro a
  match a with
  | ⟨0, _⟩ => show (cfg1.win 6).index t (0 : Fin 2) * 1 ≤ 0 ∧ 0 < (cfg1.win 6).index t (0 : Fin 2) * 1 + 1; omega
  | ⟨1, _⟩ => show (cfg1.win 6).index t (1 : Fin 2) * 128 ≤ q.val ∧ q.val < (cfg1.win 6).index t (1 : Fin 2) * 128 + 128; omega

/-- Column q of the array the second GRU layer's pallas_call leaves in its result buffer: the point that covers the column
    wrote the array's value there, and whichever point wrote there last wrote the same. -/
theorem region1_col (c : Dev nD) (q : Fin 2048) :
    (dat1 (F := Ideal) V c).arrAt 6 cfg1.N (ix2 (0 : Fin 1) q)
      = gruCol (fun k : Fin 2048 => V c main_v22 (ix2 (0 : Fin 1) k)) (fun k : Fin 2048 => V c main_v13 (ix2 (0 : Fin 1) k))
          (fun g k => V c main_v18 (ix3 g q k)) (fun g k => V c main_v19 (ix3 g q k))
          (fun g => V c main_v20 (ix2 g q)) (fun g => V c main_v21 (ix2 g q)) (V c main_v13 (ix2 (0 : Fin 1) q)) := by
  have hN := block1_count
  have hq := q.isLt
  have ht : q.val / 128 < cfg1.N := by omega
  exact (dat1 (F := Ideal) V c).arrAt_apply_of_mem 6 (region1_arr V c) (fun t _ => block1_flushed V c t) cfg1.N ⟨q.val / 128, ht⟩
    (ix2 (0 : Fin 1) q) ht (block1_result ⟨q.val / 128, ht⟩).2.2 (block1_mem q ⟨q.val / 128, ht⟩ rfl)

end Cert.KernelIdeal.Hand

end
-- ==== Proof.HostReads.lean ====
/-
  What the host operations before the first pallas_call leave in the regions' operand arrays, entry by entry.

  The layer-one input is the embedding table's row named by the index word (wrapped when negative, then clamped by the
  dynamic slice into the table's 64 rows), laid out as a 1 x 512 row; the two previous hidden states are the two 1 x 2048
  slices of the stacked state; each packed 6144-row weight matrix (bias vector) is reshaped to 3 x 2048 rows (entries), so
  that entry (g, r, k) of the reshaped tensor is entry (g * 2048 + r, k) of the matrix.
-/
import proofs.«147042_j85452669321958_1_alg».proof.Proof.Gen.KernelIdeal.Launch
import proofs.«147042_j85452669321958_1_alg».proof.Proof.Gen.KernelIdeal.Regions
import proofs.«147042_j85452669321958_1_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx

variable (W : Valuation τ sig (Elt Ideal))

/-- Row g * 2048 + r of a 6144-row array: gate g's row for hidden column r. -/
abbrev packedRow (g : Fin 3) (r : Fin 2048) : Fin 6144 := ⟨g.val * 2048 + r.val, by omega⟩

/-! ## The layout operations read at an index, over an abstract array -/

section Generic
variable {α : Type}

/-- A one-entry vector reshaped to a scalar: its entry. -/
theorem reshape0_apply (x : (⟨1, ![1]⟩ : Shape).Idx → α) (h : (⟨1, ![1]⟩ : Shape).ShapeCasts (⟨0, ![]⟩ : Shape))
    (j : (⟨0, ![]⟩ : Shape).Idx) : shapeCast (⟨0, ![]⟩ : Shape) x h j = x (ix1 (0 : Fin 1)) :=
  shapeCast_apply x h j (ix1 (0 : Fin 1)) (by
    rw [Shape.rowMajor_val_one]
    exact (Shape.rowMajorPi_zero _ _).symm)

/-- A dynamic slice of one row out of a 64 x 512 table, read at column k. The row is the first start index clamped into
    the table's rows: the clamp of an integer s into [0, 64 - 1] is min s.toNat 63, whatever the sign of s. The column
    start clamps into [0, 512 - 512], so to 0 whatever it is, the slice being as wide as the table. -/
theorem dynRow_apply (x : (⟨2, ![64, 512]⟩ : Shape).Idx → α) (start : Fin 2 → ℤ)
    (h : (⟨2, ![64, 512]⟩ : Shape).Slices (fun _ => 0) (⟨2, ![1, 512]⟩ : Shape)) (k : Fin 512) :
    Host.dynamicSlice (⟨2, ![1, 512]⟩ : Shape) x start h (ix2 (0 : Fin 1) k)
      = x (ix2 (⟨min (start 0).toNat 63, by omega⟩ : Fin 64) k) := by
  unfold Host.dynamicSlice
  refine extractStridedSlice_apply _ x _ (ix2 (0 : Fin 1) k) (ix2 (⟨min (start 0).toNat 63, by omega⟩ : Fin 64) k) fun a => ?_
  match a with
  | ⟨0, _⟩ =>
    show min (start 0).toNat 63 = (min (max (start 0) 0) ((64 - 1 : ℕ) : ℤ)).toNat + 0
    omega
  | ⟨1, _⟩ =>
    show k.val = (min (max (start 1) 0) ((512 - 512 : ℕ) : ℤ)).toNat + k.val
    omega

/-- Row c of a 2 x 1 x 2048 stack, sliced out (offset o = c on the leading axis, 0 on the others) and reshaped to
    1 x 2048: entry (0, k) is entry (c, 0, k) of the stack. -/
theorem sliceRow_apply (x : (⟨3, ![2, 1, 2048]⟩ : Shape).Idx → α) (o : ℕ) (c : Fin 2) (hc : c.val = o)
    (hs : (⟨3, ![2, 1, 2048]⟩ : Shape).Slices ![o, 0, 0] (⟨3, ![1, 1, 2048]⟩ : Shape))
    (h : (⟨3, ![1, 1, 2048]⟩ : Shape).ShapeCasts (⟨2, ![1, 2048]⟩ : Shape)) (k : Fin 2048) :
    shapeCast (⟨2, ![1, 2048]⟩ : Shape) (extractStridedSlice (⟨3, ![1, 1, 2048]⟩ : Shape) ![o, 0, 0] x hs) h (ix2 (0 : Fin 1) k)
      = x (ix3 c (0 : Fin 1) k) := by
  refine (shapeCast_apply _ h (ix2 (0 : Fin 1) k) (ix3 (0 : Fin 1) (0 : Fin 1) k) (by
    rw [Shape.rowMajor_val_three, Shape.rowMajor_val_two]
    show (0 * 1 + 0) * 2048 + k.val = 0 * 2048 + k.val
    omega)).trans ?_
  refine extractStridedSlice_apply _ x hs (ix3 (0 : Fin 1) (0 : Fin 1) k) (ix3 c (0 : Fin 1) k) fun a => ?_
  match a with
  | ⟨0, _⟩ => show c.val = o + 0; omega
  | ⟨1, _⟩ => show 0 = 0 + 0; rfl
  | ⟨2, _⟩ => show k.val = 0 + k.val; omega

/-- A 6144 x K matrix reshaped to 3 x 2048 x K: entry (g, r, k) is entry (g * 2048 + r, k), the two having the same
    row-major position (g * 2048 + r) * K + k. -/
theorem reshape3_apply {K : ℕ} (x : (⟨2, ![6144, K]⟩ : Shape).Idx → α)
    (h : (⟨2, ![6144, K]⟩ : Shape).ShapeCasts (⟨3, ![3, 2048, K]⟩ : Shape)) (g : Fin 3) (r : Fin 2048) (k : Fin K) :
    shapeCast (⟨3, ![3, 2048, K]⟩ : Shape) x h (ix3 g r k) = x (ix2 (packedRow g r) k) :=
  shapeCast_apply x h (ix3 g r k) (ix2 (packedRow g r) k) (by
    rw [Shape.rowMajor_val_two, Shape.rowMajor_val_three]
    show (g.val * 2048 + r.val) * K + k.val = (g.val * 2048 + r.val) * K + k.val
    rfl)

/-- A 6144-entry vector reshaped to 3 x 2048: entry (g, r) is entry g * 2048 + r. -/
theorem reshape2_apply (x : (⟨1, ![6144]⟩ : Shape).Idx → α)
    (h : (⟨1, ![6144]⟩ : Shape).ShapeCasts (⟨2, ![3, 2048]⟩ : Shape)) (g : Fin 3) (r : Fin 2048) :
    shapeCast (⟨2, ![3, 2048]⟩ : Shape) x h (ix2 g r) = x (ix1 (packedRow g r)) :=
  shapeCast_apply x h (ix2 g r) (ix1 (packedRow g r)) (by
    rw [Shape.rowMajor_val_one, Shape.rowMajor_val_two]
    show g.val * 2048 + r.val = g.val * 2048 + r.val
    rfl)

end Generic

/-- A host operation indexed by two rank-0 operands given as a literal pair of references: its result, with each index
    operand's contents read at its own reference (so that what the line left at each of the two can be computed in turn). -/
theorem unaryIndexed2_result {Val : EltTy → Type} (a p q y : Ref sig .tc) (T : BufTy)
    (f : a.ty.Contents Val → (Fin 2 → T.Contents Val) → y.ty.Contents Val) (hT ha hix hy) (F : Valuation τ sig Val) :
    (StableHlo.unaryIndexed (τ := τ) a ![p, q] T y f hT ha hix hy).result F (no_index (Proc.devRef .tc y))
      = f (F (Proc.devRef .tc a))
          (Fin.cons (cast (congrArg (fun U : BufTy => U.Contents Val) (hT 0)) (F (Proc.devRef .tc p)))
            (Fin.cons (cast (congrArg (fun U : BufTy => U.Contents Val) (hT 1)) (F (Proc.devRef .tc q))) (fun i => i.elim0))) := by
  rw [StableHlo.unaryIndexed_result]; congr 1; funext k; fin_cases k <;> rfl

/-! ## The eleven operand arrays -/

/-- The first layer's input row: the embedding row the index word names. The buffer is the broadcast to 1 x 512 of the
    512-vector reshaped from the 1 x 512 dynamic slice of the table at (the wrapped index word, a column start); entry
    (0, k) of it is the table's entry (row, k), the row being the wrapped index word read signed and clamped. -/
theorem pre_v9 (k : Fin 512) :
    StableHlo.after (hostOps0 (F := Ideal)) W (Proc.devRef .tc main_v9) (ix2 (0 : Fin 1) k)
      = W (Proc.devRef .tc main_arg2) (ix2 (embRow (W (Proc.devRef .tc main_arg0) (ix1 (0 : Fin 1)))) k) := by
  -- the whole buffer as the operations' composed term over the argument arrays
  simp (disch := decide) only [StableHlo.after_cons, StableHlo.after_nil, StableHlo.nullary_result', StableHlo.unary_result',
    StableHlo.binary_result', StableHlo.ternary_result', StableHlo.reshape_result', unaryIndexed2_result,
    StableHlo.nullary_result_ne', StableHlo.unary_result_ne', StableHlo.binary_result_ne', StableHlo.ternary_result_ne',
    StableHlo.reshape_result_ne', StableHlo.unaryIndexed_result_ne']
  -- the broadcast along the new leading axis, then the reshape 1 x 512 → 512, read at (0, k)
  refine (broadcastInDim_apply _ _ _ (ix2 (0 : Fin 1) k) (ix1 k) (fun a => match a with | ⟨0, _⟩ => rfl)).trans ?_
  refine (shapeCast_apply _ _ (ix1 k) (ix2 (0 : Fin 1) k) (by
    rw [Shape.rowMajor_val_two, Shape.rowMajor_val_one]
    show 0 * 512 + k.val = k.val
    omega)).trans ?_
  -- the dynamic slice: the table's row at the clamped first start index
  refine (dynRow_apply _ _ _ k).trans ?_
  -- the first start index is the wrapped index word: select (x < 0) (x + 64) x at x the index argument's one entry
  refine congrArg (fun w : BitVec 32 => W (Proc.devRef .tc main_arg2) (ix2 (⟨min w.toInt.toNat 63, by omega⟩ : Fin 64) k)) ?_
  show Scalar.select (IntOp.cmpi .slt (shapeCast S_ (W (Proc.devRef .tc main_arg0)) shapeCasts_S1_S_ (Shape.Idx.first h_S_)) 0#32)
      (IntOp.addi (shapeCast S_ (W (Proc.devRef .tc main_arg0)) shapeCasts_S1_S_ (Shape.Idx.first h_S_)) 64#32)
      (shapeCast S_ (W (Proc.devRef .tc main_arg0)) shapeCasts_S1_S_ (Shape.Idx.first h_S_)) = _
  rw [reshape0_apply (W (Proc.devRef .tc main_arg0)) shapeCasts_S1_S_ (Shape.Idx.first h_S_)]
  rfl

/-- The two layers' previous hidden states: rows 0 and 1 of the stacked state, each sliced out and reshaped to 1 x 2048. -/
theorem pre_v11 (k : Fin 2048) :
    StableHlo.after (hostOps0 (F := Ideal)) W (Proc.devRef .tc main_v11) (ix2 (0 : Fin 1) k)
      = W (Proc.devRef .tc main_arg1) (ix3 (0 : Fin 2) (0 : Fin 1) k) := by
  have e : StableHlo.after (hostOps0 (F := Ideal)) W (Proc.devRef .tc main_v11)
      = shapeCast S1x2048 (extractStridedSlice S1x1x2048 ![0, 0, 0] (W (Proc.devRef .tc main_arg1)) slices_S2x1x2048_S1x1x2048_0_0_0)
          shapeCasts_S1x1x2048_S1x2048 := by
    after_results
    rfl
  rw [e]
  exact sliceRow_apply _ 0 0 rfl _ _ k
theorem pre_v13 (k : Fin 2048) :
    StableHlo.after (hostOps0 (F := Ideal)) W (Proc.devRef .tc main_v13) (ix2 (0 : Fin 1) k)
      = W (Proc.devRef .tc main_arg1) (ix3 (1 : Fin 2) (0 : Fin 1) k) := by
  have e : StableHlo.after (hostOps0 (F := Ideal)) W (Proc.devRef .tc main_v13)
      = shapeCast S1x2048 (extractStridedSlice S1x1x2048 ![1, 0, 0] (W (Proc.devRef .tc main_arg1)) slices_S2x1x2048_S1x1x2048_1_0_0)
          shapeCasts_S1x1x2048_S1x2048 := by
    after_results
    rfl
  rw [e]
  exact sliceRow_apply _ 1 1 rfl _ _ k

/-- The packed weights and biases, gate by gate: each buffer is the reshape of its argument array. -/
theorem pre_v14 (g : Fin 3) (r : Fin 2048) (k : Fin 512) :
    StableHlo.after (hostOps0 (F := Ideal)) W (Proc.devRef .tc main_v14) (ix3 g r k) = W (Proc.devRef .tc main_arg3) (ix2 (packedRow g r) k) := by
  have e : StableHlo.after (hostOps0 (F := Ideal)) W (Proc.devRef .tc main_v14)
      = shapeCast S3x2048x512 (W (Proc.devRef .tc main_arg3)) shapeCasts_S6144x512_S3x2048x512 := by
    after_results
    rfl
  rw [e]
  exact reshape3_apply _ _ g r k
theorem pre_v15 (g : Fin 3) (r : Fin 2048) (k : Fin 2048) :
    StableHlo.after (hostOps0 (F := Ideal)) W (Proc.devRef .tc main_v15) (ix3 g r k) = W (Proc.devRef .tc main_arg4) (ix2 (packedRow g r) k) := by
  have e : StableHlo.after (hostOps0 (F := Ideal)) W (Proc.devRef .tc main_v15)
      = shapeCast S3x2048x2048 (W (Proc.devRef .tc main_arg4)) shapeCasts_S6144x2048_S3x2048x2048 := by
    after_results
    rfl
  rw [e]
  exact reshape3_apply _ _ g r k
theorem pre_v16 (g : Fin 3) (r : Fin 2048) :
    StableHlo.after (hostOps0 (F := Ideal)) W (Proc.devRef .tc main_v16) (ix2 g r) = W (Proc.devRef .tc main_arg5) (ix1 (packedRow g r)) := by
  have e : StableHlo.after (hostOps0 (F := Ideal)) W (Proc.devRef .tc main_v16)
      = shapeCast S3x2048 (W (Proc.devRef .tc main_arg5)) shapeCasts_S6144_S3x2048 := by
    after_results
    rfl
  rw [e]
  exact reshape2_apply _ _ g r
theorem pre_v17 (g : Fin 3) (r : Fin 2048) :
    StableHlo.after (hostOps0 (F := Ideal)) W (Proc.devRef .tc main_v17) (ix2 g r) = W (Proc.devRef .tc main_arg6) (ix1 (packedRow g r)) := by
  have e : StableHlo.after (hostOps0 (F := Ideal)) W (Proc.devRef .tc main_v17)
      = shapeCast S3x2048 (W (Proc.devRef .tc main_arg6)) shapeCasts_S6144_S3x2048 := by
    after_results
    rfl
  rw [e]
  exact reshape2_apply _ _ g r
theorem pre_v18 (g : Fin 3) (r : Fin 2048) (k : Fin 2048) :
    StableHlo.after (hostOps0 (F := Ideal)) W (Proc.devRef .tc main_v18) (ix3 g r k) = W (Proc.devRef .tc main_arg7) (ix2 (packedRow g r) k) := by
  have e : StableHlo.after (hostOps0 (F := Ideal)) W (Proc.devRef .tc main_v18)
      = shapeCast S3x2048x2048 (W (Proc.devRef .tc main_arg7)) shapeCasts_S6144x2048_S3x2048x2048 := by
    after_results
    rfl
  rw [e]
  exact reshape3_apply _ _ g r k
theorem pre_v19 (g : Fin 3) (r : Fin 2048) (k : Fin 2048) :
    StableHlo.after (hostOps0 (F := Ideal)) W (Proc.devRef .tc main_v19) (ix3 g r k) = W (Proc.devRef .tc main_arg8) (ix2 (packedRow g r) k) := by
  have e : StableHlo.after (hostOps0 (F := Ideal)) W (Proc.devRef .tc main_v19)
      = shapeCast S3x2048x2048 (W (Proc.devRef .tc main_arg8)) shapeCasts_S6144x2048_S3x2048x2048 := by
    after_results
    rfl
  rw [e]
  exact reshape3_apply _ _ g r k
theorem pre_v20 (g : Fin 3) (r : Fin 2048) :
    StableHlo.after (hostOps0 (F := Ideal)) W (Proc.devRef .tc main_v20) (ix2 g r) = W (Proc.devRef .tc main_arg9) (ix1 (packedRow g r)) := by
  have e : StableHlo.after (hostOps0 (F := Ideal)) W (Proc.devRef .tc main_v20)
      = shapeCast S3x2048 (W (Proc.devRef .tc main_arg9)) shapeCasts_S6144_S3x2048 := by
    after_results
    rfl
  rw [e]
  exact reshape2_apply _ _ g r
theorem pre_v21 (g : Fin 3) (r : Fin 2048) :
    StableHlo.after (hostOps0 (F := Ideal)) W (Proc.devRef .tc main_v21) (ix2 g r) = W (Proc.devRef .tc main_arg10) (ix1 (packedRow g r)) := by
  have e : StableHlo.after (hostOps0 (F := Ideal)) W (Proc.devRef .tc main_v21)
      = shapeCast S3x2048 (W (Proc.devRef .tc main_arg10)) shapeCasts_S6144_S3x2048 := by
    after_results
    rfl
  rw [e]
  exact reshape2_apply _ _ g r

end Cert.KernelIdeal.Hand

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibGatherRows.lean ====
/-
  THE HOST'S GATHER OF WHOLE ROWS READ AT AN INDEX.

  What x[idx] of a matrix x : [P, C] at a column idx : [N, 1] of row numbers lowers to: a gather with offset axes [1],
  collapsed slice axes [0], no batching axes, start index map [0], the index vector on axis 1 and slices of one row
  (slice sizes [1, C]). Result element (n, ch) is x at row idx[n, 0] — read signed and clamped into [0, P - 1], as
  the gather clamps every start index — and column ch (gather_rows_apply).

  The operand index of a gather is, on each operand axis, the clamped start plus the batching coordinate plus the
  offset coordinate. On axis 0 (collapsed, named by the start index map) only the start is there; on axis 1 (kept, not
  named) only the offset coordinate, which is the result index's coordinate on the one offset axis. The start index is
  read at the start-indices index [n, 0] (siIdx_rows): the result's one batch axis carries n, and the index vector's
  axis has extent one.

  The extents P, C, N and the index width w are variables; the dimension numbers are known only through the equations
  on their lists.
-/
import Idealize.ShloMosaic.PureOps.ShapeOps
import Idealize.ShloMosaic.Lib.ValueIdx
import proofs.«147042_j85452669321958_1_alg».proof.Proof.LibScatterSum

namespace Idealize.ShloMosaic.GatherRows

open Idealize.ShloMosaic Idealize.ShloMosaic.ValueIdx Idealize.ShloMosaic.ScatterSum

section Rows
variable {α : Type} {P C N w : Nat}

/-- Result index (n, ch) reads its start index at [n, 0]. -/
theorem siIdx_rows (d : GatherDims (⟨2, ![P, C]⟩ : Shape) (⟨2, ![N, 1]⟩ : Shape) (⟨2, ![N, C]⟩ : Shape))
    (hod : d.offsetDims = [1]) (hiv : d.indexVectorDim = 1) (n : Fin N) (ch : Fin C)
    (c : Fin d.startIndexMap.length) : d.siIdx (ix2 n ch) c = ix2 n (0 : Fin 1) := by
  have hbd : d.batchDims = [0] := by
    show Shape.kept _ d.offsetDims = [0]
    rw [hod]; rfl
  funext b
  refine Fin.ext ?_
  match b with
  | ⟨0, hb⟩ =>
    unfold GatherDims.siIdx
    rw [dif_neg (by rw [hiv]; exact Nat.zero_ne_one)]
    unfold GatherDims.siCoord
    exact congrArg (fun e => (ix2 n ch e).val) (getElem_of_eq_singleton hbd _ _)
  | ⟨1, hb⟩ =>
    have h1 : (d.siIdx (ix2 n ch) c ⟨1, hb⟩).val < 1 := (d.siIdx (ix2 n ch) c ⟨1, hb⟩).isLt
    show (d.siIdx (ix2 n ch) c ⟨1, hb⟩).val = 0
    omega

/-- THE GATHER READ AT (n, ch): the operand at the row idx[n, 0] names, read signed and clamped into [0, P - 1], and
    column ch. -/
theorem gather_rows_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  have h0mem : (0 : Fin 2) ∈ d.startIndexMap := by rw [hsm]; exact List.mem_singleton.2 rfl
  have h1nmem : (1 : Fin 2) ∉ d.startIndexMap := by
    rw [hsm]; exact fun h => h10 (List.mem_singleton.1 h)
  have hnb : ∀ a : Fin 2, a ∉ d.operandBatchingDims := by
    intro a; rw [hob]; exact List.not_mem_nil
  have h0k : (0 : Fin 2) ∉ d.sKept := fun h =>
    ((d.mem_sKept _).1 h).1 (by rw [hcd]; exact List.mem_singleton.2 rfl)
  have h1k : (1 : Fin 2) ∈ d.sKept :=
    (d.mem_sKept _).2 ⟨by rw [hcd]; exact fun h => h10 (List.mem_singleton.1 h), hnb 1⟩
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    unfold GatherDims.start
    rw [dif_pos h0mem, siIdx_rows d hod hiv n ch, hss]
    rfl
  | ⟨1, _⟩ =>
    show d.start (ix2 n ch) idx 1 + d.batchCoord (ix2 n ch) 1 + d.offCoord (ix2 n ch) 1 = ch.val
    rw [d.batchCoord_eq_zero _ _ (hnb 1)]
    unfold GatherDims.start GatherDims.offCoord
    rw [dif_neg h1nmem, dif_pos h1k]
    show 0 + 0 + ((ix2 n ch) (d.offsetDims[d.sKept.idxOf 1]'_)).val = ch.val
    simp only [Nat.zero_add]
    exact congrArg (fun e => (ix2 n ch e).val) (getElem_of_eq_singleton hod _ _)

end Rows

end Idealize.ShloMosaic.GatherRows
-- ==== Proof.RefCols.lean ====
/-
  The reference's two hidden states, column by column, as the GRU column formula of its argument arrays.

  The reference computes each layer's six gate pre-activations as two host dot products against the TRANSPOSED 6144-row
  weight matrices plus broadcast biases, slices the 6144 columns into the three gates, and combines them pointwise;
  the reference spells the logistic function as 1 / (1 + exp (-x)), which is the extended reals' logistic. Column q of a gate g is
  column g * 2048 + q of the packed product. The first layer's input is the embedding row the index word names.
-/
import proofs.«147042_j85452669321958_1_alg».proof.Proof.Gen.ReferenceIdeal.Run
import proofs.«147042_j85452669321958_1_alg».proof.Proof.Spec
import proofs.«147042_j85452669321958_1_alg».proof.Proof.LibGatherRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.ReferenceIdeal.Hand

open Cert.ReferenceIdeal Cert.ReferenceIdeal.Gen Cert.ReferenceIdeal.Value Cert.GruSpec
open Idealize.ShloMosaic Idealize.ShloMosaic.TcCoe Idealize.ShloMosaic.ValueIdx

/-! ## The host dot products and the packed pre-activations, column by column -/

/-- The operand indices of the 1 x 512 by 512 x 6144 product at result index j and contraction position k, axis by
    axis: the left operand is read at (j 0, k) and the right operand at (k, j 1). -/
theorem lhs512_0 (j : S1x6144.Idx) (k : dot_S1x512_S512x6144_S1x6144_1_0_0_1_n_n.contr.Idx) :
    (dot_S1x512_S512x6144_S1x6144_1_0_0_1_n_n.lhsIdx j k 0).val = (j 0).val := by
  unfold DotDims.lhsIdx
  rw [dif_neg (show ¬ (0 : Fin S1x512.rank) ∈ dot_S1x512_S512x6144_S1x6144_1_0_0_1_n_n.lhsBatch by decide),
    dif_pos (show (0 : Fin S1x512.rank) ∈ dot_S1x512_S512x6144_S1x6144_1_0_0_1_n_n.lhsNonContracting by decide)]
  rfl

theorem lhs512_1 (j : S1x6144.Idx) (k : dot_S1x512_S512x6144_S1x6144_1_0_0_1_n_n.contr.Idx) :
    (dot_S1x512_S512x6144_S1x6144_1_0_0_1_n_n.lhsIdx j k 1).val = (k ⟨0, by decide⟩).val :=
  DotDims.lhsIdx_val_of_single _ rfl j k

theorem rhs512_0 (j : S1x6144.Idx) (k : dot_S1x512_S512x6144_S1x6144_1_0_0_1_n_n.contr.Idx) :
    (dot_S1x512_S512x6144_S1x6144_1_0_0_1_n_n.rhsIdx j k 0).val = (k ⟨0, by decide⟩).val :=
  DotDims.rhsIdx_val_of_single _ rfl j k

theorem rhs512_1 (j : S1x6144.Idx) (k : dot_S1x512_S512x6144_S1x6144_1_0_0_1_n_n.contr.Idx) :
    (dot_S1x512_S512x6144_S1x6144_1_0_0_1_n_n.rhsIdx j k 1).val = (j 1).val := by
  unfold DotDims.rhsIdx
  rw [dif_neg (show ¬ (1 : Fin S512x6144.rank) ∈ dot_S1x512_S512x6144_S1x6144_1_0_0_1_n_n.rhsBatch by decide),
    dif_pos (show (1 : Fin S512x6144.rank) ∈ dot_S1x512_S512x6144_S1x6144_1_0_0_1_n_n.rhsNonContracting by decide)]
  rfl

/-- Entry (0, c) of the host product of a one-row matrix x with a 512 x 6144 matrix w: the sum over k of x (0, k) * w (k, c). -/
theorem dot512_col (x : FVec Ideal S1x512 .f32) (w : FVec Ideal S512x6144 .f32) (c : Fin 6144) :
    Host.dotGeneral (F := Ideal) dot_S1x512_S512x6144_S1x6144_1_0_0_1_n_n none x w (ix2 (0 : Fin 1) c)
      = ∑ k : Fin 512, x (ix2 (0 : Fin 1) k) * w (ix2 k c) := by
  show FloatOps.dotGeneral dot_S1x512_S512x6144_S1x6144_1_0_0_1_n_n none .single x w (ix2 (0 : Fin 1) c) = _
  rw [Ideal.dotGeneral_apply,
    ← Equiv.sum_comp (contrEquiv1 dot_S1x512_S512x6144_S1x6144_1_0_0_1_n_n 512 rfl rfl).symm]
  refine Finset.sum_congr rfl fun k _ => ?_
  have hk := contrEquiv1_symm_val dot_S1x512_S512x6144_S1x6144_1_0_0_1_n_n 512 rfl rfl k
  have hl : dot_S1x512_S512x6144_S1x6144_1_0_0_1_n_n.lhsIdx (ix2 (0 : Fin 1) c)
      ((contrEquiv1 dot_S1x512_S512x6144_S1x6144_1_0_0_1_n_n 512 rfl rfl).symm k) = ix2 (0 : Fin 1) k :=
    funext fun a => Fin.ext (by
      match a with
      | ⟨0, _⟩ => exact lhs512_0 _ _
      | ⟨1, _⟩ => exact (lhs512_1 _ _).trans hk)
  have hr : dot_S1x512_S512x6144_S1x6144_1_0_0_1_n_n.rhsIdx (ix2 (0 : Fin 1) c)
      ((contrEquiv1 dot_S1x512_S512x6144_S1x6144_1_0_0_1_n_n 512 rfl rfl).symm k) = ix2 k c :=
    funext fun a => Fin.ext (by
      match a with
      | ⟨0, _⟩ => exact (rhs512_0 _ _).trans hk
      | ⟨1, _⟩ => exact rhs512_1 _ _)
  rw [hl, hr]

/-- A packed gate pre-activation, column c: the product with the TRANSPOSED weight matrix reads row c of the weights,
    and the bias broadcast along the columns reads entry c. -/
theorem pre512_col (x : FVec Ideal S1x512 .f32) (W : FVec Ideal S6144x512 .f32) (b : FVec Ideal S6144 .f32) (c : Fin 6144) :
    addf (Host.dotGeneral (F := Ideal) dot_S1x512_S512x6144_S1x6144_1_0_0_1_n_n none x
        (transpose S512x6144 [1, 0] W transposes_S6144x512_S512x6144_1_0))
      (broadcastInDim S1x6144 ![1] bcast_S6144_S1x6144_1 b) (ix2 (0 : Fin 1) c)
      = gatePre (fun k : Fin 512 => x (ix2 (0 : Fin 1) k)) (fun k : Fin 512 => W (ix2 c k)) (b (ix1 c)) := by
  rw [addf_apply, dot512_col]
  unfold gatePre
  congr 1
  · exact Finset.sum_congr rfl fun k _ => by rw [transpose_ix2_apply]
  · exact broadcastInDim_apply _ _ _ _ (ix1 c) (fun a => by match a with | ⟨0, _⟩ => rfl)

/-- The operand indices of the 1 x 2048 by 2048 x 6144 product at result index j and contraction position k, axis by
    axis: the left operand is read at (j 0, k) and the right operand at (k, j 1). -/
theorem lhs2048_0 (j : S1x6144.Idx) (k : dot_S1x2048_S2048x6144_S1x6144_1_0_0_1_n_n.contr.Idx) :
    (dot_S1x2048_S2048x6144_S1x6144_1_0_0_1_n_n.lhsIdx j k 0).val = (j 0).val := by
  unfold DotDims.lhsIdx
  rw [dif_neg (show ¬ (0 : Fin S1x2048.rank) ∈ dot_S1x2048_S2048x6144_S1x6144_1_0_0_1_n_n.lhsBatch by decide),
    dif_pos (show (0 : Fin S1x2048.rank) ∈ dot_S1x2048_S2048x6144_S1x6144_1_0_0_1_n_n.lhsNonContracting by decide)]
  rfl

theorem lhs2048_1 (j : S1x6144.Idx) (k : dot_S1x2048_S2048x6144_S1x6144_1_0_0_1_n_n.contr.Idx) :
    (dot_S1x2048_S2048x6144_S1x6144_1_0_0_1_n_n.lhsIdx j k 1).val = (k ⟨0, by decide⟩).val :=
  DotDims.lhsIdx_val_of_single _ rfl j k

theorem rhs2048_0 (j : S1x6144.Idx) (k : dot_S1x2048_S2048x6144_S1x6144_1_0_0_1_n_n.contr.Idx) :
    (dot_S1x2048_S2048x6144_S1x6144_1_0_0_1_n_n.rhsIdx j k 0).val = (k ⟨0, by decide⟩).val :=
  DotDims.rhsIdx_val_of_single _ rfl j k

theorem rhs2048_1 (j : S1x6144.Idx) (k : dot_S1x2048_S2048x6144_S1x6144_1_0_0_1_n_n.contr.Idx) :
    (dot_S1x2048_S2048x6144_S1x6144_1_0_0_1_n_n.rhsIdx j k 1).val = (j 1).val := by
  unfold DotDims.rhsIdx
  rw [dif_neg (show ¬ (1 : Fin S2048x6144.rank) ∈ dot_S1x2048_S2048x6144_S1x6144_1_0_0_1_n_n.rhsBatch by decide),
    dif_pos (show (1 : Fin S2048x6144.rank) ∈ dot_S1x2048_S2048x6144_S1x6144_1_0_0_1_n_n.rhsNonContracting by decide)]
  rfl

/-- Entry (0, c) of the host product of a one-row matrix x with a 2048 x 6144 matrix w: the sum over k of x (0, k) * w (k, c). -/
theorem dot2048_col (x : FVec Ideal S1x2048 .f32) (w : FVec Ideal S2048x6144 .f32) (c : Fin 6144) :
    Host.dotGeneral (F := Ideal) dot_S1x2048_S2048x6144_S1x6144_1_0_0_1_n_n none x w (ix2 (0 : Fin 1) c)
      = ∑ k : Fin 2048, x (ix2 (0 : Fin 1) k) * w (ix2 k c) := by
  show FloatOps.dotGeneral dot_S1x2048_S2048x6144_S1x6144_1_0_0_1_n_n none .single x w (ix2 (0 : Fin 1) c) = _
  rw [Ideal.dotGeneral_apply,
    ← Equiv.sum_comp (contrEquiv1 dot_S1x2048_S2048x6144_S1x6144_1_0_0_1_n_n 2048 rfl rfl).symm]
  refine Finset.sum_congr rfl fun k _ => ?_
  have hk := contrEquiv1_symm_val dot_S1x2048_S2048x6144_S1x6144_1_0_0_1_n_n 2048 rfl rfl k
  have hl : dot_S1x2048_S2048x6144_S1x6144_1_0_0_1_n_n.lhsIdx (ix2 (0 : Fin 1) c)
      ((contrEquiv1 dot_S1x2048_S2048x6144_S1x6144_1_0_0_1_n_n 2048 rfl rfl).symm k) = ix2 (0 : Fin 1) k :=
    funext fun a => Fin.ext (by
      match a with
      | ⟨0, _⟩ => exact lhs2048_0 _ _
      | ⟨1, _⟩ => exact (lhs2048_1 _ _).trans hk)
  have hr : dot_S1x2048_S2048x6144_S1x6144_1_0_0_1_n_n.rhsIdx (ix2 (0 : Fin 1) c)
      ((contrEquiv1 dot_S1x2048_S2048x6144_S1x6144_1_0_0_1_n_n 2048 rfl rfl).symm k) = ix2 k c :=
    funext fun a => Fin.ext (by
      match a with
      | ⟨0, _⟩ => exact (rhs2048_0 _ _).trans hk
      | ⟨1, _⟩ => exact rhs2048_1 _ _)
  rw [hl, hr]

/-- A packed gate pre-activation, column c: the product with the TRANSPOSED weight matrix reads row c of the weights,
    and the bias broadcast along the columns reads entry c. -/
theorem pre2048_col (x : FVec Ideal S1x2048 .f32) (W : FVec Ideal S6144x2048 .f32) (b : FVec Ideal S6144 .f32) (c : Fin 6144) :
    addf (Host.dotGeneral (F := Ideal) dot_S1x2048_S2048x6144_S1x6144_1_0_0_1_n_n none x
        (transpose S2048x6144 [1, 0] W transposes_S6144x2048_S2048x6144_1_0))
      (broadcastInDim S1x6144 ![1] bcast_S6144_S1x6144_1 b) (ix2 (0 : Fin 1) c)
      = gatePre (fun k : Fin 2048 => x (ix2 (0 : Fin 1) k)) (fun k : Fin 2048 => W (ix2 c k)) (b (ix1 c)) := by
  rw [addf_apply, dot2048_col]
  unfold gatePre
  congr 1
  · exact Finset.sum_congr rfl fun k _ => by rw [transpose_ix2_apply]
  · exact broadcastInDim_apply _ _ _ _ (ix1 c) (fun a => by match a with | ⟨0, _⟩ => rfl)

/-! ## One layer, column by column -/

/-- Row g * 2048 + q of a 6144-row array: gate g's row for hidden column q. -/
abbrev gateRow (g : Fin 3) (q : Fin 2048) : Fin 6144 := ⟨g.val * 2048 + q.val, by omega⟩

/-- The number one, broadcast: every entry is 1. -/
theorem one_bcast (j : S1x2048.Idx) :
    broadcastInDim S1x2048 ![] bcast_S_S1x2048 (constant (F := Ideal) S_ .f32 0x3F800000#32) j = (1 : EReal) := by
  rw [broadcastInDim_scalar_apply, constant_apply, Ideal.ofBits_one_f32]

/-- 1 / (1 + exp (-x)), entry by entry, is the logistic function of the extended reals. -/
theorem sigm_apply (x : FVec Ideal S1x2048 .f32) (j : S1x2048.Idx) :
    Host.divf (broadcastInDim S1x2048 ![] bcast_S_S1x2048 (constant (F := Ideal) S_ .f32 0x3F800000#32))
      (addf (broadcastInDim S1x2048 ![] bcast_S_S1x2048 (constant (F := Ideal) S_ .f32 0x3F800000#32)) (Host.exp (Host.negf x))) j
      = Ideal.logistic (x j) := by
  show Ideal.div (broadcastInDim S1x2048 ![] bcast_S_S1x2048 (constant (F := Ideal) S_ .f32 0x3F800000#32) j)
      (broadcastInDim S1x2048 ![] bcast_S_S1x2048 (constant (F := Ideal) S_ .f32 0x3F800000#32) j + Ideal.exp (-(x j))) = _
  rw [one_bcast]
  rfl

/-- One GRU layer as the reference spells it, on the two packed pre-activation rows gi, gh (6144 columns: reset, update,
    candidate) and the previous hidden row h. -/
def gruLayer (gi gh : FVec Ideal S1x6144 .f32) (h : FVec Ideal S1x2048 .f32) : FVec Ideal S1x2048 .f32 :=
  addf (mulf (subf (broadcastInDim S1x2048 ![] bcast_S_S1x2048 (constant S_ .f32 0x3F800000#32)) (Host.divf (broadcastInDim S1x2048 ![] bcast_S_S1x2048 (constant S_ .f32 0x3F800000#32)) (addf (broadcastInDim S1x2048 ![] bcast_S_S1x2048 (constant S_ .f32 0x3F800000#32)) (Host.exp (Host.negf (addf (extractStridedSlice S1x2048 ![0, 2048] gi slices_S1x6144_S1x2048_0_2048) (extractStridedSlice S1x2048 ![0, 2048] gh slices_S1x6144_S1x2048_0_2048))))))) (Host.tanh (addf (extractStridedSlice S1x2048 ![0, 4096] gi slices_S1x6144_S1x2048_0_4096) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (addf (extractStridedSlice S1x2048 ![0, 0] gi slices_S1x6144_S1x2048_0_0) (extractStridedSlice S1x2048 ![0, 0] gh slices_S1x6144_S1x2048_0_0)))))) (extractStridedSlice S1x2048 ![0, 4096] gh slices_S1x6144_S1x2048_0_4096))))) (mulf (Host.divf (broadcastInDim S1x2048 ![] bcast_S_S1x2048 (constant S_ .f32 0x3F800000#32)) (addf (broadcastInDim S1x2048 ![] bcast_S_S1x2048 (constant S_ .f32 0x3F800000#32)) (Host.exp (Host.negf (addf (extractStridedSlice S1x2048 ![0, 2048] gi slices_S1x6144_S1x2048_0_2048) (extractStridedSlice S1x2048 ![0, 2048] gh slices_S1x6144_S1x2048_0_2048)))))) h)

/-- The three column ranges of a packed row: column q of gate g's range is column g * 2048 + q. -/
theorem gate0_apply (X : FVec Ideal S1x6144 .f32) (q : Fin 2048) :
    extractStridedSlice S1x2048 ![0, 0] X slices_S1x6144_S1x2048_0_0 (ix2 (0 : Fin 1) q) = X (ix2 (0 : Fin 1) (gateRow 0 q)) :=
  slice2_axis1_apply 0 X _ 0 q (gateRow 0 q) (by show 0 * 2048 + q.val = 0 + q.val; omega)

theorem gate1_apply (X : FVec Ideal S1x6144 .f32) (q : Fin 2048) :
    extractStridedSlice S1x2048 ![0, 2048] X slices_S1x6144_S1x2048_0_2048 (ix2 (0 : Fin 1) q) = X (ix2 (0 : Fin 1) (gateRow 1 q)) :=
  slice2_axis1_apply 2048 X _ 0 q (gateRow 1 q) (by show 1 * 2048 + q.val = 2048 + q.val; omega)

theorem gate2_apply (X : FVec Ideal S1x6144 .f32) (q : Fin 2048) :
    extractStridedSlice S1x2048 ![0, 4096] X slices_S1x6144_S1x2048_0_4096 (ix2 (0 : Fin 1) q) = X (ix2 (0 : Fin 1) (gateRow 2 q)) :=
  slice2_axis1_apply 4096 X _ 0 q (gateRow 2 q) (by show 2 * 2048 + q.val = 4096 + q.val; omega)

/-- Column q of the layer: the update gate z and the reset gate r are logistic functions of the summed pre-activations
    of their column ranges, the candidate is tanh of the third range with the hidden part scaled by r, and the result
    is (1 - z) * candidate + z * h. -/
theorem gruLayer_col (gi gh : FVec Ideal S1x6144 .f32) (h : FVec Ideal S1x2048 .f32) (q : Fin 2048) :
    gruLayer gi gh h (ix2 (0 : Fin 1) q)
      = (1 - Ideal.logistic (gi (ix2 (0 : Fin 1) (gateRow 1 q)) + gh (ix2 (0 : Fin 1) (gateRow 1 q))))
          * Ideal.tanh (gi (ix2 (0 : Fin 1) (gateRow 2 q))
              + Ideal.logistic (gi (ix2 (0 : Fin 1) (gateRow 0 q)) + gh (ix2 (0 : Fin 1) (gateRow 0 q))) * gh (ix2 (0 : Fin 1) (gateRow 2 q)))
        + Ideal.logistic (gi (ix2 (0 : Fin 1) (gateRow 1 q)) + gh (ix2 (0 : Fin 1) (gateRow 1 q))) * h (ix2 (0 : Fin 1) q) := by
  unfold gruLayer
  rw [addf_apply, mulf_apply, mulf_apply, subf_apply, one_bcast, sigm_apply, addf_apply, gate1_apply, gate1_apply]
  show _ * Ideal.tanh (_ + _ * _) + _ = _
  rw [gate2_apply, gate2_apply, sigm_apply, addf_apply, gate0_apply, gate0_apply]

/-! ## The layers' inputs -/

/-- A 1-vector of words made a 1 x 1 column: its one entry is the vector's. -/
theorem word_column (v : IVec S1 32) :
    broadcastInDim S1x1 ![0] bcast_S1_S1x1_0 v (ix2 (0 : Fin 1) (0 : Fin 1)) = v (ix1 (0 : Fin 1)) :=
  broadcastInDim_apply _ _ _ _ (ix1 (0 : Fin 1)) (fun a => by match a with | ⟨0, _⟩ => rfl)

/-- The first layer's input: the reference adds 64 to a negative index word, makes the word a 1 x 1 column and gathers
    that row of the 64-row table, the gather clamping the row into [0, 63]. Entry k of the gathered row is entry k of
    row embRow of the table. -/
theorem embedded_apply (E : FVec Ideal S64x512 .f32) (a0 : IVec S1 32) (k : Fin 512) :
    Host.gather gather_S64x512_S1x1_S1x512_1_0_n_n_0_1_1512 E
        (broadcastInDim S1x1 ![0] bcast_S1_S1x1_0
          (select (cmpi .slt a0 (broadcastInDim S1 ![] bcast_S_S1 (constantI S_ 32 0#32)))
            (addi a0 (broadcastInDim S1 ![] bcast_S_S1 (constantI S_ 32 64#32))) a0)) (ix2 (0 : Fin 1) k)
      = E (ix2 (embRow (a0 (ix1 (0 : Fin 1)))) k) := by
  refine (GatherRows.gather_rows_apply (by decide) _ rfl rfl rfl rfl rfl rfl E _ (0 : Fin 1) k).trans ?_
  refine congrArg (fun r : Fin 64 => E (ix2 r k)) (Fin.ext ?_)
  exact congrArg (fun w : BitVec 32 => min w.toInt.toNat 63) (word_column _)

/-- A layer's previous hidden state: row l of the 2 x 1 x 2048 state array, as a one-row matrix. -/
theorem prev0_apply (H : FVec Ideal S2x1x2048 .f32) (k : Fin 2048) :
    shapeCast S1x2048 (extractStridedSlice S1x1x2048 ![0, 0, 0] H slices_S2x1x2048_S1x1x2048_0_0_0) shapeCasts_S1x1x2048_S1x2048
        (ix2 (0 : Fin 1) k) = H (ix3 (0 : Fin 2) (0 : Fin 1) k) := by
  rw [shapeCast_1ab_ab_apply]
  exact extractStridedSlice_apply _ _ _ _ (ix3 (0 : Fin 2) (0 : Fin 1) k)
    (fun a => by match a with | ⟨0, _⟩ => rfl | ⟨1, _⟩ => rfl | ⟨2, _⟩ => exact (Nat.zero_add _).symm)

theorem prev1_apply (H : FVec Ideal S2x1x2048 .f32) (k : Fin 2048) :
    shapeCast S1x2048 (extractStridedSlice S1x1x2048 ![1, 0, 0] H slices_S2x1x2048_S1x1x2048_1_0_0) shapeCasts_S1x1x2048_S1x2048
        (ix2 (0 : Fin 1) k) = H (ix3 (1 : Fin 2) (0 : Fin 1) k) := by
  rw [shapeCast_1ab_ab_apply]
  exact extractStridedSlice_apply _ _ _ _ (ix3 (1 : Fin 2) (0 : Fin 1) k)
    (fun a => by match a with | ⟨0, _⟩ => rfl | ⟨1, _⟩ => rfl | ⟨2, _⟩ => exact (Nat.zero_add _).symm)

/-! ## The reference's two layers -/

variable (V0 : Valuation τ sig (Elt Ideal))

/-- The reference's first hidden state is the layer formula on its two packed pre-activation rows. -/
theorem h0_eq_layer : res_main_v44 (F := Ideal) V0 = gruLayer (res_main_v12 V0) (res_main_v16 V0) (res_main_v8 V0) := rfl

/-- … and its second is the same formula on the second layer's rows. -/
theorem h1_eq_layer : res_main_v82 (F := Ideal) V0 = gruLayer (res_main_v50 V0) (res_main_v54 V0) (res_main_v46 V0) := rfl

/-- Column q of the first layer's new hidden state. -/
theorem ref_h0_col (q : Fin 2048) :
    res_main_v44 (F := Ideal) V0 (ix2 (0 : Fin 1) q)
      = gruCol (fun k : Fin 512 => V0 (Proc.devRef .tc main_arg2) (ix2 (embRow (V0 (Proc.devRef .tc main_arg0) (ix1 (0 : Fin 1)))) k))
          (fun k : Fin 2048 => V0 (Proc.devRef .tc main_arg1) (ix3 (0 : Fin 2) (0 : Fin 1) k))
          (fun g k => V0 (Proc.devRef .tc main_arg3) (ix2 (gateRow g q) k)) (fun g k => V0 (Proc.devRef .tc main_arg4) (ix2 (gateRow g q) k))
          (fun g => V0 (Proc.devRef .tc main_arg5) (ix1 (gateRow g q))) (fun g => V0 (Proc.devRef .tc main_arg6) (ix1 (gateRow g q)))
          (V0 (Proc.devRef .tc main_arg1) (ix3 (0 : Fin 2) (0 : Fin 1) q)) := by
  have hgi : ∀ c : Fin 6144, res_main_v12 (F := Ideal) V0 (ix2 (0 : Fin 1) c)
      = gatePre (fun k : Fin 512 => V0 (Proc.devRef .tc main_arg2) (ix2 (embRow (V0 (Proc.devRef .tc main_arg0) (ix1 (0 : Fin 1)))) k))
          (fun k : Fin 512 => V0 (Proc.devRef .tc main_arg3) (ix2 c k)) (V0 (Proc.devRef .tc main_arg5) (ix1 c)) := fun c => by
    unfold res_main_v12
    rw [pre512_col]
    exact congrArg (fun x => gatePre x _ _) (funext fun k => embedded_apply _ _ k)
  have hh : ∀ k : Fin 2048, res_main_v8 (F := Ideal) V0 (ix2 (0 : Fin 1) k)
      = V0 (Proc.devRef .tc main_arg1) (ix3 (0 : Fin 2) (0 : Fin 1) k) := fun k => prev0_apply _ k
  have hgh : ∀ c : Fin 6144, res_main_v16 (F := Ideal) V0 (ix2 (0 : Fin 1) c)
      = gatePre (fun k : Fin 2048 => V0 (Proc.devRef .tc main_arg1) (ix3 (0 : Fin 2) (0 : Fin 1) k))
          (fun k : Fin 2048 => V0 (Proc.devRef .tc main_arg4) (ix2 c k)) (V0 (Proc.devRef .tc main_arg6) (ix1 c)) := fun c => by
    unfold res_main_v16
    rw [pre2048_col]
    exact congrArg (fun x => gatePre x _ _) (funext fun k => hh k)
  rw [h0_eq_layer, gruLayer_col, hgi, hgi, hgi, hgh, hgh, hgh, hh]
  rfl

/-- Column q of the second layer's new hidden state: the same formula over the first layer's result. -/
theorem ref_h1_col (q : Fin 2048) :
    res_main_v82 (F := Ideal) V0 (ix2 (0 : Fin 1) q)
      = gruCol (fun k : Fin 2048 => res_main_v44 (F := Ideal) V0 (ix2 (0 : Fin 1) k))
          (fun k : Fin 2048 => V0 (Proc.devRef .tc main_arg1) (ix3 (1 : Fin 2) (0 : Fin 1) k))
          (fun g k => V0 (Proc.devRef .tc main_arg7) (ix2 (gateRow g q) k)) (fun g k => V0 (Proc.devRef .tc main_arg8) (ix2 (gateRow g q) k))
          (fun g => V0 (Proc.devRef .tc main_arg9) (ix1 (gateRow g q))) (fun g => V0 (Proc.devRef .tc main_arg10) (ix1 (gateRow g q)))
          (V0 (Proc.devRef .tc main_arg1) (ix3 (1 : Fin 2) (0 : Fin 1) q)) := by
  have hgi : ∀ c : Fin 6144, res_main_v50 (F := Ideal) V0 (ix2 (0 : Fin 1) c)
      = gatePre (fun k : Fin 2048 => res_main_v44 (F := Ideal) V0 (ix2 (0 : Fin 1) k))
          (fun k : Fin 2048 => V0 (Proc.devRef .tc main_arg7) (ix2 c k)) (V0 (Proc.devRef .tc main_arg9) (ix1 c)) := fun c => by
    unfold res_main_v50
    rw [pre2048_col]
  have hh : ∀ k : Fin 2048, res_main_v46 (F := Ideal) V0 (ix2 (0 : Fin 1) k)
      = V0 (Proc.devRef .tc main_arg1) (ix3 (1 : Fin 2) (0 : Fin 1) k) := fun k => prev1_apply _ k
  have hgh : ∀ c : Fin 6144, res_main_v54 (F := Ideal) V0 (ix2 (0 : Fin 1) c)
      = gatePre (fun k : Fin 2048 => V0 (Proc.devRef .tc main_arg1) (ix3 (1 : Fin 2) (0 : Fin 1) k))
          (fun k : Fin 2048 => V0 (Proc.devRef .tc main_arg8) (ix2 c k)) (V0 (Proc.devRef .tc main_arg10) (ix1 c)) := fun c => by
    unfold res_main_v54
    rw [pre2048_col]
    exact congrArg (fun x => gatePre x _ _) (funext fun k => hh k)
  rw [h1_eq_layer, gruLayer_col, hgi, hgi, hgi, hgh, hgh, hgh, hh]
  rfl

end Cert.ReferenceIdeal.Hand

end
-- ==== Proof.Tail.lean ====
/-
  The host operations after the two pallas_calls, read back: the head and the stacked hidden states.

  Both programs end with the same operations on the second layer's hidden state h1: logits = h1 · w_head^T + b_head, a
  softmax over the 16 logits (subtract the maximum, exponentiate, divide by the sum), and the two hidden states stacked
  along a new leading axis. The head is carried as ONE function of (h1, w_head, b_head), never opened: the two programs
  agree on it as soon as they agree on h1.
-/
import proofs.«147042_j85452669321958_1_alg».proof.Proof.Gen.KernelIdeal.Launch
import proofs.«147042_j85452669321958_1_alg».proof.Proof.Gen.ReferenceIdeal.Run
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

/-- The head: softmax (h1 · w_head^T + b_head), in the host's operations. -/
def headProbs (h1 : FVec Ideal S1x2048 .f32) (w : FVec Ideal S16x2048 .f32) (b : FVec Ideal S16 .f32) : FVec Ideal S1x16 .f32 :=
  Host.divf
    (Host.exp (subf (addf (Host.dotGeneral dot_S1x2048_S2048x16_S1x16_1_0_0_1_n_n none h1 (transpose S2048x16 [1, 0] w transposes_S16x2048_S2048x16_1_0)) (broadcastInDim S1x16 ![1] bcast_S16_S1x16_1 b))
      (broadcastInDim S1x16 ![0, 1] bcast_S1x1_S1x16_0_1 (broadcastInDim S1x1 ![0] bcast_S1_S1x1_0 (maximumf (broadcastInDim S1 ![] bcast_S_S1 (constant (F := Ideal) S_ .f32 0xFF800000#32))
        (Host.reduce FloatOps.maximumf (addf (Host.dotGeneral dot_S1x2048_S2048x16_S1x16_1_0_0_1_n_n none h1 (transpose S2048x16 [1, 0] w transposes_S16x2048_S2048x16_1_0)) (broadcastInDim S1x16 ![1] bcast_S16_S1x16_1 b)) (constant (F := Ideal) S_ .f32 0xFF800000#32) reducesTo_S1x16_S1_d1 h_S_))))))
    (broadcastInDim S1x16 ![0, 1] bcast_S1x1_S1x16_0_1 (broadcastInDim S1x1 ![0] bcast_S1_S1x1_0 (Host.reduceAdd
      (Host.exp (subf (addf (Host.dotGeneral dot_S1x2048_S2048x16_S1x16_1_0_0_1_n_n none h1 (transpose S2048x16 [1, 0] w transposes_S16x2048_S2048x16_1_0)) (broadcastInDim S1x16 ![1] bcast_S16_S1x16_1 b))
        (broadcastInDim S1x16 ![0, 1] bcast_S1x1_S1x16_0_1 (broadcastInDim S1x1 ![0] bcast_S1_S1x1_0 (maximumf (broadcastInDim S1 ![] bcast_S_S1 (constant (F := Ideal) S_ .f32 0xFF800000#32))
          (Host.reduce FloatOps.maximumf (addf (Host.dotGeneral dot_S1x2048_S2048x16_S1x16_1_0_0_1_n_n none h1 (transpose S2048x16 [1, 0] w transposes_S16x2048_S2048x16_1_0)) (broadcastInDim S1x16 ![1] bcast_S16_S1x16_1 b)) (constant (F := Ideal) S_ .f32 0xFF800000#32) reducesTo_S1x16_S1_d1 h_S_))))))
      (constant (F := Ideal) S_ .f32 0x00000000#32) reducesTo_S1x16_S1_d1 h_S_)))

/-- The two hidden states stacked along a new leading axis. -/
def stackStates (h0 h1 : FVec Ideal S1x2048 .f32) : FVec Ideal S2x1x2048 .f32 :=
  concatenate S2x1x2048 0 [⟨S1x1x2048, broadcastInDim S1x1x2048 ![1, 2] bcast_S1x2048_S1x1x2048_1_2 h0⟩,
    ⟨S1x1x2048, broadcastInDim S1x1x2048 ![1, 2] bcast_S1x2048_S1x1x2048_1_2 h1⟩] concatenates_S1x1x2048_S1x1x2048_S2x1x2048_d0

variable (W : Valuation τ sig (Elt Ideal))

/-- The kernel program's probabilities are the head of its second hidden state. -/
theorem post_v38 : StableHlo.after (hostOps2 (F := Ideal)) W (Proc.devRef .tc main_v38)
    = headProbs (W (Proc.devRef .tc main_v23)) (W (Proc.devRef .tc main_arg11)) (W (Proc.devRef .tc main_arg12)) := by
  after_results_simp <;> rfl

/-- The kernel program's stacked result. -/
theorem post_v41 : StableHlo.after (hostOps2 (F := Ideal)) W (Proc.devRef .tc main_v41)
    = stackStates (W (Proc.devRef .tc main_v22)) (W (Proc.devRef .tc main_v23)) := by
  after_results_simp <;> rfl

end Cert.KernelIdeal.Hand

namespace Cert.ReferenceIdeal.Hand

open Cert.ReferenceIdeal Cert.ReferenceIdeal.Gen Cert.ReferenceIdeal.Value
open Idealize.ShloMosaic Idealize.ShloMosaic.TcCoe

variable (V0 : Valuation τ sig (Elt Ideal))

/-- The reference's probabilities are the same head of ITS second hidden state. -/
theorem ref_probs :
    Host.divf (res_main_v93 (F := Ideal) V0) (broadcastInDim S1x16 ![0, 1] bcast_S1x1_S1x16_0_1 (broadcastInDim S1x1 ![0] bcast_S1_S1x1_0 (Host.reduceAdd (res_main_v93 (F := Ideal) V0) (constant S_ .f32 0x00000000#32) reducesTo_S1x16_S1_d1 h_S_)))
      = Cert.KernelIdeal.Hand.headProbs (res_main_v82 (F := Ideal) V0) (V0 (Proc.devRef .tc main_arg11)) (V0 (Proc.devRef .tc main_arg12)) := by
  rfl

/-- The reference's stacked result. -/
theorem ref_stack :
    concatenate S2x1x2048 0 [⟨S1x1x2048, (broadcastInDim S1x1x2048 ![1, 2] bcast_S1x2048_S1x1x2048_1_2 (res_main_v44 (F := Ideal) V0))⟩, ⟨S1x1x2048, (broadcastInDim S1x1x2048 ![1, 2] bcast_S1x2048_S1x1x2048_1_2 (res_main_v82 (F := Ideal) V0))⟩] concatenates_S1x1x2048_S1x1x2048_S2x1x2048_d0
      = Cert.KernelIdeal.Hand.stackStates (res_main_v44 (F := Ideal) V0) (res_main_v82 (F := Ideal) V0) := by
  rfl

end Cert.ReferenceIdeal.Hand

end
-- ==== Proof.Bridge.lean ====
/-
  The two programs' results agree.

  From memories that agree on the thirteen arguments: the first layer's hidden state the kernel program leaves in its
  result buffer is, column by column, the GRU column of the region's operand arrays, which the host operations before
  the region read off the arguments; the reference's first hidden state is the same GRU column of the same argument
  entries. The second layer repeats this over the first layer's result. The head and the stacking are one function of
  the hidden states on both sides.
-/
import proofs.«147042_j85452669321958_1_alg».proof.Proof.Assembly
import proofs.«147042_j85452669321958_1_alg».proof.Proof.Blocks0
import proofs.«147042_j85452669321958_1_alg».proof.Proof.Blocks1
import proofs.«147042_j85452669321958_1_alg».proof.Proof.HostReads
import proofs.«147042_j85452669321958_1_alg».proof.Proof.RefCols
import proofs.«147042_j85452669321958_1_alg».proof.Proof.Tail

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx Idealize.SL.Sem

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's memory agrees with the kernel program's on the thirteen arguments, on core c. -/
def Agree (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)
  ∧ m' ((c.tc : Thread Cert.ReferenceIdeal.nD Cert.ReferenceIdeal.τ).loc Cert.ReferenceIdeal.main_arg10) = m ((c.tc : Thread nD τ).loc main_arg10)
  ∧ m' ((c.tc : Thread Cert.ReferenceIdeal.nD Cert.ReferenceIdeal.τ).loc Cert.ReferenceIdeal.main_arg11) = m ((c.tc : Thread nD τ).loc main_arg11)
  ∧ m' ((c.tc : Thread Cert.ReferenceIdeal.nD Cert.ReferenceIdeal.τ).loc Cert.ReferenceIdeal.main_arg12) = m ((c.tc : Thread nD τ).loc main_arg12)

/-- The reference's launch contents. -/
abbrev refLaunch (c : Dev nD) : Valuation Cert.ReferenceIdeal.τ Cert.ReferenceIdeal.sig (Elt Ideal) := StableHlo.launchContents m' c

variable {m m'}

/-- An argument's buffer is not touched before the last host stretch. -/
theorem buf3_arg (c : Dev nD) (b : Ref sig .tc) (h0 : b ∉ hostOps0_W)
    (hr0 : ∀ w, Pipeline.arrRef spec0 w ≠ b) (hr1 : ∀ w, Pipeline.arrRef spec1 w ≠ b) :
    buf3 m c (Proc.devRef .tc b) = buf0 m c (Proc.devRef .tc b) :=
  (buf3_of_ne m c b hr1).trans ((buf2_of_ne m c b hr0).trans (StableHlo.after_of_writes_sub hostOps0 _ hostOps0_writes h0))

/-- An operand array of the second region that the first region does not touch holds what the first host stretch left. -/
theorem buf2_pre (c : Dev nD) (b : Ref sig .tc) (hr0 : ∀ w, Pipeline.arrRef spec0 w ≠ b) :
    buf2 m c (Proc.devRef .tc b) = StableHlo.after (hostOps0 (F := Ideal)) (buf0 m c) (Proc.devRef .tc b) :=
  buf2_of_ne m c b hr0

/-- FIRST LAYER: the kernel program's first hidden state is the reference's. -/
theorem h0_agree (c : Dev nD) (h : Agree m m' c) :
    buf2 m c (Proc.devRef .tc main_v22) = Cert.ReferenceIdeal.Value.res_main_v44 (F := Ideal) (refLaunch m' c) := by
  obtain ⟨e0, e1, e2, e3, e4, e5, e6, -⟩ := h
  funext y
  obtain ⟨a, q, rfl⟩ : ∃ (a : Fin 1) (q : Fin 2048), y = ix2 a q := ⟨y 0, y 1, eq_ix2 y⟩
  obtain rfl : a = 0 := Subsingleton.elim _ _
  refine ((congrFun (buf2_arr m c 6) (ix2 (0 : Fin 1) q)).trans (region0_col (ent1 m) c q)).trans ?_
  refine Eq.trans ?_ (Cert.ReferenceIdeal.Hand.ref_h0_col (refLaunch m' c) q).symm
  show gruCol (fun k : Fin 512 => StableHlo.after (hostOps0 (F := Ideal)) (buf0 m c) (Proc.devRef .tc main_v9) (ix2 (0 : Fin 1) k))
      (fun k : Fin 2048 => StableHlo.after (hostOps0 (F := Ideal)) (buf0 m c) (Proc.devRef .tc main_v11) (ix2 (0 : Fin 1) k))
      (fun g k => StableHlo.after (hostOps0 (F := Ideal)) (buf0 m c) (Proc.devRef .tc main_v14) (ix3 g q k))
      (fun g k => StableHlo.after (hostOps0 (F := Ideal)) (buf0 m c) (Proc.devRef .tc main_v15) (ix3 g q k))
      (fun g => StableHlo.after (hostOps0 (F := Ideal)) (buf0 m c) (Proc.devRef .tc main_v16) (ix2 g q))
      (fun g => StableHlo.after (hostOps0 (F := Ideal)) (buf0 m c) (Proc.devRef .tc main_v17) (ix2 g q))
      (StableHlo.after (hostOps0 (F := Ideal)) (buf0 m c) (Proc.devRef .tc main_v11) (ix2 (0 : Fin 1) q)) = _
  rw [show (fun k : Fin 512 => StableHlo.after (hostOps0 (F := Ideal)) (buf0 m c) (Proc.devRef .tc main_v9) (ix2 (0 : Fin 1) k)) = _ from
      funext fun k => pre_v9 (buf0 m c) k,
    show (fun k : Fin 2048 => StableHlo.after (hostOps0 (F := Ideal)) (buf0 m c) (Proc.devRef .tc main_v11) (ix2 (0 : Fin 1) k)) = _ from
      funext fun k => pre_v11 (buf0 m c) k,
    show (fun g k => StableHlo.after (hostOps0 (F := Ideal)) (buf0 m c) (Proc.devRef .tc main_v14) (ix3 g q k)) = _ from
      funext fun g => funext fun k => pre_v14 (buf0 m c) g q k,
    show (fun g k => StableHlo.after (hostOps0 (F := Ideal)) (buf0 m c) (Proc.devRef .tc main_v15) (ix3 g q k)) = _ from
      funext fun g => funext fun k => pre_v15 (buf0 m c) g q k,
    show (fun g => StableHlo.after (hostOps0 (F := Ideal)) (buf0 m c) (Proc.devRef .tc main_v16) (ix2 g q)) = _ from
      funext fun g => pre_v16 (buf0 m c) g q,
    show (fun g => StableHlo.after (hostOps0 (F := Ideal)) (buf0 m c) (Proc.devRef .tc main_v17) (ix2 g q)) = _ from
      funext fun g => pre_v17 (buf0 m c) g q,
    pre_v11 (buf0 m c) q]
  show _ = gruCol (fun k : Fin 512 => m' ((c.tc : Thread Cert.ReferenceIdeal.nD Cert.ReferenceIdeal.τ).loc Cert.ReferenceIdeal.main_arg2)
        (ix2 (embRow (m' ((c.tc : Thread Cert.ReferenceIdeal.nD Cert.ReferenceIdeal.τ).loc Cert.ReferenceIdeal.main_arg0) (ix1 (0 : Fin 1)))) k))
      (fun k : Fin 2048 => m' ((c.tc : Thread Cert.ReferenceIdeal.nD Cert.ReferenceIdeal.τ).loc Cert.ReferenceIdeal.main_arg1) (ix3 (0 : Fin 2) (0 : Fin 1) k))
      (fun g k => m' ((c.tc : Thread Cert.ReferenceIdeal.nD Cert.ReferenceIdeal.τ).loc Cert.ReferenceIdeal.main_arg3) (ix2 (Cert.ReferenceIdeal.Hand.gateRow g q) k))
      (fun g k => m' ((c.tc : Thread Cert.ReferenceIdeal.nD Cert.ReferenceIdeal.τ).loc Cert.ReferenceIdeal.main_arg4) (ix2 (Cert.ReferenceIdeal.Hand.gateRow g q) k))
      (fun g => m' ((c.tc : Thread Cert.ReferenceIdeal.nD Cert.ReferenceIdeal.τ).loc Cert.ReferenceIdeal.main_arg5) (ix1 (Cert.ReferenceIdeal.Hand.gateRow g q)))
      (fun g => m' ((c.tc : Thread Cert.ReferenceIdeal.nD Cert.ReferenceIdeal.τ).loc Cert.ReferenceIdeal.main_arg6) (ix1 (Cert.ReferenceIdeal.Hand.gateRow g q)))
      (m' ((c.tc : Thread Cert.ReferenceIdeal.nD Cert.ReferenceIdeal.τ).loc Cert.ReferenceIdeal.main_arg1) (ix3 (0 : Fin 2) (0 : Fin 1) q))
  rw [e0, e1, e2, e3, e4, e5, e6]

/-- SECOND LAYER: the kernel program's second hidden state is the reference's. -/
theorem h1_agree (c : Dev nD) (h : Agree m m' c) :
    buf3 m c (Proc.devRef .tc main_v23) = Cert.ReferenceIdeal.Value.res_main_v82 (F := Ideal) (refLaunch m' c) := by
  have h0 := h0_agree c h
  obtain ⟨-, e1, -, -, -, -, -, e7, e8, e9, e10, -⟩ := h
  funext y
  obtain ⟨a, q, rfl⟩ : ∃ (a : Fin 1) (q : Fin 2048), y = ix2 a q := ⟨y 0, y 1, eq_ix2 y⟩
  obtain rfl : a = 0 := Subsingleton.elim _ _
  refine ((congrFun (buf3_arr m c 6) (ix2 (0 : Fin 1) q)).trans (region1_col (ent2 m) c q)).trans ?_
  refine Eq.trans ?_ (Cert.ReferenceIdeal.Hand.ref_h1_col (refLaunch m' c) q).symm
  show gruCol (fun k : Fin 2048 => buf2 m c (Proc.devRef .tc main_v22) (ix2 (0 : Fin 1) k))
      (fun k : Fin 2048 => buf2 m c (Proc.devRef .tc main_v13) (ix2 (0 : Fin 1) k))
      (fun g k => buf2 m c (Proc.devRef .tc main_v18) (ix3 g q k))
      (fun g k => buf2 m c (Proc.devRef .tc main_v19) (ix3 g q k))
      (fun g => buf2 m c (Proc.devRef .tc main_v20) (ix2 g q))
      (fun g => buf2 m c (Proc.devRef .tc main_v21) (ix2 g q))
      (buf2 m c (Proc.devRef .tc main_v13) (ix2 (0 : Fin 1) q)) = _
  rw [h0, buf2_pre c main_v13 (by decide), buf2_pre c main_v18 (by decide), buf2_pre c main_v19 (by decide),
    buf2_pre c main_v20 (by decide), buf2_pre c main_v21 (by decide)]
  rw [show (fun k : Fin 2048 => StableHlo.after (hostOps0 (F := Ideal)) (buf0 m c) (Proc.devRef .tc main_v13) (ix2 (0 : Fin 1) k)) = _ from
      funext fun k => pre_v13 (buf0 m c) k,
    show (fun g k => StableHlo.after (hostOps0 (F := Ideal)) (buf0 m c) (Proc.devRef .tc main_v18) (ix3 g q k)) = _ from
      funext fun g => funext fun k => pre_v18 (buf0 m c) g q k,
    show (fun g k => StableHlo.after (hostOps0 (F := Ideal)) (buf0 m c) (Proc.devRef .tc main_v19) (ix3 g q k)) = _ from
      funext fun g => funext fun k => pre_v19 (buf0 m c) g q k,
    show (fun g => StableHlo.after (hostOps0 (F := Ideal)) (buf0 m c) (Proc.devRef .tc main_v20) (ix2 g q)) = _ from
      funext fun g => pre_v20 (buf0 m c) g q,
    show (fun g => StableHlo.after (hostOps0 (F := Ideal)) (buf0 m c) (Proc.devRef .tc main_v21) (ix2 g q)) = _ from
      funext fun g => pre_v21 (buf0 m c) g q,
    pre_v13 (buf0 m c) q]
  show _ = gruCol (fun k : Fin 2048 => Cert.ReferenceIdeal.Value.res_main_v44 (F := Ideal) (refLaunch m' c) (ix2 (0 : Fin 1) k))
      (fun k : Fin 2048 => m' ((c.tc : Thread Cert.ReferenceIdeal.nD Cert.ReferenceIdeal.τ).loc Cert.ReferenceIdeal.main_arg1) (ix3 (1 : Fin 2) (0 : Fin 1) k))
      (fun g k => m' ((c.tc : Thread Cert.ReferenceIdeal.nD Cert.ReferenceIdeal.τ).loc Cert.ReferenceIdeal.main_arg7) (ix2 (Cert.ReferenceIdeal.Hand.gateRow g q) k))
      (fun g k => m' ((c.tc : Thread Cert.ReferenceIdeal.nD Cert.ReferenceIdeal.τ).loc Cert.ReferenceIdeal.main_arg8) (ix2 (Cert.ReferenceIdeal.Hand.gateRow g q) k))
      (fun g => m' ((c.tc : Thread Cert.ReferenceIdeal.nD Cert.ReferenceIdeal.τ).loc Cert.ReferenceIdeal.main_arg9) (ix1 (Cert.ReferenceIdeal.Hand.gateRow g q)))
      (fun g => m' ((c.tc : Thread Cert.ReferenceIdeal.nD Cert.ReferenceIdeal.τ).loc Cert.ReferenceIdeal.main_arg10) (ix1 (Cert.ReferenceIdeal.Hand.gateRow g q)))
      (m' ((c.tc : Thread Cert.ReferenceIdeal.nD Cert.ReferenceIdeal.τ).loc Cert.ReferenceIdeal.main_arg1) (ix3 (1 : Fin 2) (0 : Fin 1) q))
  rw [e1, e7, e8, e9, e10]

/-- The first hidden state is still in its buffer after the second region, which only reads it. -/
theorem buf3_v22 (c : Dev nD) : buf3 m c (Proc.devRef .tc main_v22) = buf2 m c (Proc.devRef .tc main_v22) :=
  (buf3_arr m c 0).trans (((dat1 (ent2 m) c).arrAt_in 0 rfl _).trans (dat1_A (ent2 m) c 0))

/-- THE PROBABILITIES agree. -/
theorem probs_agree (c : Dev nD) (h : Agree m m' c) :
    buf4 m c (Proc.devRef .tc main_v38)
      = Cert.KernelIdeal.Hand.headProbs (Cert.ReferenceIdeal.Value.res_main_v82 (F := Ideal) (refLaunch m' c))
          (refLaunch m' c (Proc.devRef .tc Cert.ReferenceIdeal.main_arg11)) (refLaunch m' c (Proc.devRef .tc Cert.ReferenceIdeal.main_arg12)) := by
  have h1 := h1_agree c h
  obtain ⟨-, -, -, -, -, -, -, -, -, -, -, e11, e12⟩ := h
  refine (post_v38 (buf3 m c)).trans ?_
  rw [h1, buf3_arg c main_arg11 (by decide) (by decide) (by decide), buf3_arg c main_arg12 (by decide) (by decide) (by decide)]
  show _ = headProbs _ (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
  rw [e11, e12]

/-- THE STACKED HIDDEN STATES agree. -/
theorem states_agree (c : Dev nD) (h : Agree m m' c) :
    buf4 m c (Proc.devRef .tc main_v41)
      = stackStates (Cert.ReferenceIdeal.Value.res_main_v44 (F := Ideal) (refLaunch m' c)) (Cert.ReferenceIdeal.Value.res_main_v82 (F := Ideal) (refLaunch m' c)) := by
  refine (post_v41 (buf3 m c)).trans ?_
  rw [buf3_v22, h0_agree c h, h1_agree c h]

end Cert.KernelIdeal.Hand

end
-- ==== Proof.lean ====
/-
  The certificate of the two-layer GRU controller step: one kernel per GRU layer (the layer's six matrix-vector
  products cut into blocks of output columns, bf16 operands, f32 accumulation) with the embedding lookup, the head and the
  softmax on the host, against the plain array-program reference.

  Over the extended reals the two programs are the same function: a change of float format is the identity; a matrix
  unit's product into a zero accumulator and a host dot product are the same finite sum; the kernel's logistic is the
  reference's 1 / (1 + exp (-x)); the dynamic slice and the gather clamp the embedding index alike. So every column of
  each hidden state is the same GRU column formula (Proof/Spec.lean) of the same argument entries on both sides
  (Proof/Bridge.lean), and the head is one function of the second hidden state. No law of the extended reals beyond
  reading both sides as that formula is needed, so the precondition (finite inputs) is not used.

  The frames: each program's run is composed from its host stretches and its two pipelined regions
  (Proof/Assembly.lean for the idealized program, its word-level sibling for the printed one), each region from one
  symbolic run of the kernel body at a generic grid point (Proof/Region0.lean, Proof/Region1.lean); the reference's run is
  the generated one. The idealization rewrote nothing, so the preservation claim is trivial.
-/
import proofs.«147042_j85452669321958_1_alg».proof.Defs
import proofs.«147042_j85452669321958_1_alg».proof.Proof.Gen.Kernel
import proofs.«147042_j85452669321958_1_alg».proof.Proof.Gen.KernelIdeal
import proofs.«147042_j85452669321958_1_alg».proof.Proof.Gen.ReferenceIdeal
import proofs.«147042_j85452669321958_1_alg».proof.Proof.Gen.ReferenceIdeal.Run
import proofs.«147042_j85452669321958_1_alg».proof.Proof.Gen.Pre_finite_inputs
import proofs.«147042_j85452669321958_1_alg».proof.Proof.Assembly
import proofs.«147042_j85452669321958_1_alg».proof.Proof.BitsAssembly
import proofs.«147042_j85452669321958_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The printed program runs and leaves its arguments as launched: every unscoped buffer ends at the fold's last
    contents, and no item of @main writes an argument. -/
theorem frame_kernel : Cert.frame_Kernel (hKernel := Cert.Kernel.Gen.facts) (hPre_finite_inputs := Cert.Pre_finite_inputs.Gen.facts) :=
  fun m ρ _ => (θ_run Cert.Kernel.defs _ _).mono (fun r h c =>
    ⟨(h c _ (Cert.Kernel.Hand.mem_unscoped Cert.Kernel.main_arg0 (by decide))).trans (Cert.Kernel.Hand.buf4_untouched m c Cert.Kernel.main_arg0 (by decide) (by decide) (by decide) (by decide)),
      (h c _ (Cert.Kernel.Hand.mem_unscoped Cert.Kernel.main_arg1 (by decide))).trans (Cert.Kernel.Hand.buf4_untouched m c Cert.Kernel.main_arg1 (by decide) (by decide) (by decide) (by decide)),
      (h c _ (Cert.Kernel.Hand.mem_unscoped Cert.Kernel.main_arg2 (by decide))).trans (Cert.Kernel.Hand.buf4_untouched m c Cert.Kernel.main_arg2 (by decide) (by decide) (by decide) (by decide)),
      (h c _ (Cert.Kernel.Hand.mem_unscoped Cert.Kernel.main_arg3 (by decide))).trans (Cert.Kernel.Hand.buf4_untouched m c Cert.Kernel.main_arg3 (by decide) (by decide) (by decide) (by decide)),
      (h c _ (Cert.Kernel.Hand.mem_unscoped Cert.Kernel.main_arg4 (by decide))).trans (Cert.Kernel.Hand.buf4_untouched m c Cert.Kernel.main_arg4 (by decide) (by decide) (by decide) (by decide)),
      (h c _ (Cert.Kernel.Hand.mem_unscoped Cert.Kernel.main_arg5 (by decide))).trans (Cert.Kernel.Hand.buf4_untouched m c Cert.Kernel.main_arg5 (by decide) (by decide) (by decide) (by decide)),
      (h c _ (Cert.Kernel.Hand.mem_unscoped Cert.Kernel.main_arg6 (by decide))).trans (Cert.Kernel.Hand.buf4_untouched m c Cert.Kernel.main_arg6 (by decide) (by decide) (by decide) (by decide)),
      (h c _ (Cert.Kernel.Hand.mem_unscoped Cert.Kernel.main_arg7 (by decide))).trans (Cert.Kernel.Hand.buf4_untouched m c Cert.Kernel.main_arg7 (by decide) (by decide) (by decide) (by decide)),
      (h c _ (Cert.Kernel.Hand.mem_unscoped Cert.Kernel.main_arg8 (by decide))).trans (Cert.Kernel.Hand.buf4_untouched m c Cert.Kernel.main_arg8 (by decide) (by decide) (by decide) (by decide)),
      (h c _ (Cert.Kernel.Hand.mem_unscoped Cert.Kernel.main_arg9 (by decide))).trans (Cert.Kernel.Hand.buf4_untouched m c Cert.Kernel.main_arg9 (by decide) (by decide) (by decide) (by decide)),
      (h c _ (Cert.Kernel.Hand.mem_unscoped Cert.Kernel.main_arg10 (by decide))).trans (Cert.Kernel.Hand.buf4_untouched m c Cert.Kernel.main_arg10 (by decide) (by decide) (by decide) (by decide)),
      (h c _ (Cert.Kernel.Hand.mem_unscoped Cert.Kernel.main_arg11 (by decide))).trans (Cert.Kernel.Hand.buf4_untouched m c Cert.Kernel.main_arg11 (by decide) (by decide) (by decide) (by decide)),
      (h c _ (Cert.Kernel.Hand.mem_unscoped Cert.Kernel.main_arg12 (by decide))).trans (Cert.Kernel.Hand.buf4_untouched m c Cert.Kernel.main_arg12 (by decide) (by decide) (by decide) (by decide))⟩)
    (Cert.Kernel.Hand.run_all (F := Bits) m ρ)

/-- The same for the idealized program. -/
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun r h c =>
    ⟨(h c _ (Cert.KernelIdeal.Hand.mem_unscoped Cert.KernelIdeal.main_arg0 (by decide))).trans (Cert.KernelIdeal.Hand.buf4_untouched m c Cert.KernelIdeal.main_arg0 (by decide) (by decide) (by decide) (by decide)),
      (h c _ (Cert.KernelIdeal.Hand.mem_unscoped Cert.KernelIdeal.main_arg1 (by decide))).trans (Cert.KernelIdeal.Hand.buf4_untouched m c Cert.KernelIdeal.main_arg1 (by decide) (by decide) (by decide) (by decide)),
      (h c _ (Cert.KernelIdeal.Hand.mem_unscoped Cert.KernelIdeal.main_arg2 (by decide))).trans (Cert.KernelIdeal.Hand.buf4_untouched m c Cert.KernelIdeal.main_arg2 (by decide) (by decide) (by decide) (by decide)),
      (h c _ (Cert.KernelIdeal.Hand.mem_unscoped Cert.KernelIdeal.main_arg3 (by decide))).trans (Cert.KernelIdeal.Hand.buf4_untouched m c Cert.KernelIdeal.main_arg3 (by decide) (by decide) (by decide) (by decide)),
      (h c _ (Cert.KernelIdeal.Hand.mem_unscoped Cert.KernelIdeal.main_arg4 (by decide))).trans (Cert.KernelIdeal.Hand.buf4_untouched m c Cert.KernelIdeal.main_arg4 (by decide) (by decide) (by decide) (by decide)),
      (h c _ (Cert.KernelIdeal.Hand.mem_unscoped Cert.KernelIdeal.main_arg5 (by decide))).trans (Cert.KernelIdeal.Hand.buf4_untouched m c Cert.KernelIdeal.main_arg5 (by decide) (by decide) (by decide) (by decide)),
      (h c _ (Cert.KernelIdeal.Hand.mem_unscoped Cert.KernelIdeal.main_arg6 (by decide))).trans (Cert.KernelIdeal.Hand.buf4_untouched m c Cert.KernelIdeal.main_arg6 (by decide) (by decide) (by decide) (by decide)),
      (h c _ (Cert.KernelIdeal.Hand.mem_unscoped Cert.KernelIdeal.main_arg7 (by decide))).trans (Cert.KernelIdeal.Hand.buf4_untouched m c Cert.KernelIdeal.main_arg7 (by decide) (by decide) (by decide) (by decide)),
      (h c _ (Cert.KernelIdeal.Hand.mem_unscoped Cert.KernelIdeal.main_arg8 (by decide))).trans (Cert.KernelIdeal.Hand.buf4_untouched m c Cert.KernelIdeal.main_arg8 (by decide) (by decide) (by decide) (by decide)),
      (h c _ (Cert.KernelIdeal.Hand.mem_unscoped Cert.KernelIdeal.main_arg9 (by decide))).trans (Cert.KernelIdeal.Hand.buf4_untouched m c Cert.KernelIdeal.main_arg9 (by decide) (by decide) (by decide) (by decide)),
      (h c _ (Cert.KernelIdeal.Hand.mem_unscoped Cert.KernelIdeal.main_arg10 (by decide))).trans (Cert.KernelIdeal.Hand.buf4_untouched m c Cert.KernelIdeal.main_arg10 (by decide) (by decide) (by decide) (by decide)),
      (h c _ (Cert.KernelIdeal.Hand.mem_unscoped Cert.KernelIdeal.main_arg11 (by decide))).trans (Cert.KernelIdeal.Hand.buf4_untouched m c Cert.KernelIdeal.main_arg11 (by decide) (by decide) (by decide) (by decide)),
      (h c _ (Cert.KernelIdeal.Hand.mem_unscoped Cert.KernelIdeal.main_arg12 (by decide))).trans (Cert.KernelIdeal.Hand.buf4_untouched m c Cert.KernelIdeal.main_arg12 (by decide) (by decide) (by decide) (by decide))⟩)
    (Cert.KernelIdeal.Hand.run_all (F := Ideal) m ρ)

/-- The reference's frame is its generated run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The two idealized programs end with equal results: the kernel program's are read off its run's last contents, the
    reference's off its generated run, and the two agree (Proof/Bridge.lean). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.buf4 m c (Proc.devRef .tc Cert.KernelIdeal.main_v38),
    fun c => Cert.KernelIdeal.Hand.buf4 m c (Proc.devRef .tc Cert.KernelIdeal.main_v41), ?_, ?_⟩
  · exact (θ_run Cert.KernelIdeal.defs _ _).mono (fun r h c =>
      ⟨h c _ (Cert.KernelIdeal.Hand.mem_unscoped Cert.KernelIdeal.main_v38 (by decide)),
      h c _ (Cert.KernelIdeal.Hand.mem_unscoped Cert.KernelIdeal.main_v41 (by decide)),
      (h c _ (Cert.KernelIdeal.Hand.mem_unscoped Cert.KernelIdeal.main_arg0 (by decide))).trans (Cert.KernelIdeal.Hand.buf4_untouched m c Cert.KernelIdeal.main_arg0 (by decide) (by decide) (by decide) (by decide)),
      (h c _ (Cert.KernelIdeal.Hand.mem_unscoped Cert.KernelIdeal.main_arg1 (by decide))).trans (Cert.KernelIdeal.Hand.buf4_untouched m c Cert.KernelIdeal.main_arg1 (by decide) (by decide) (by decide) (by decide)),
      (h c _ (Cert.KernelIdeal.Hand.mem_unscoped Cert.KernelIdeal.main_arg2 (by decide))).trans (Cert.KernelIdeal.Hand.buf4_untouched m c Cert.KernelIdeal.main_arg2 (by decide) (by decide) (by decide) (by decide)),
      (h c _ (Cert.KernelIdeal.Hand.mem_unscoped Cert.KernelIdeal.main_arg3 (by decide))).trans (Cert.KernelIdeal.Hand.buf4_untouched m c Cert.KernelIdeal.main_arg3 (by decide) (by decide) (by decide) (by decide)),
      (h c _ (Cert.KernelIdeal.Hand.mem_unscoped Cert.KernelIdeal.main_arg4 (by decide))).trans (Cert.KernelIdeal.Hand.buf4_untouched m c Cert.KernelIdeal.main_arg4 (by decide) (by decide) (by decide) (by decide)),
      (h c _ (Cert.KernelIdeal.Hand.mem_unscoped Cert.KernelIdeal.main_arg5 (by decide))).trans (Cert.KernelIdeal.Hand.buf4_untouched m c Cert.KernelIdeal.main_arg5 (by decide) (by decide) (by decide) (by decide)),
      (h c _ (Cert.KernelIdeal.Hand.mem_unscoped Cert.KernelIdeal.main_arg6 (by decide))).trans (Cert.KernelIdeal.Hand.buf4_untouched m c Cert.KernelIdeal.main_arg6 (by decide) (by decide) (by decide) (by decide)),
      (h c _ (Cert.KernelIdeal.Hand.mem_unscoped Cert.KernelIdeal.main_arg7 (by decide))).trans (Cert.KernelIdeal.Hand.buf4_untouched m c Cert.KernelIdeal.main_arg7 (by decide) (by decide) (by decide) (by decide)),
      (h c _ (Cert.KernelIdeal.Hand.mem_unscoped Cert.KernelIdeal.main_arg8 (by decide))).trans (Cert.KernelIdeal.Hand.buf4_untouched m c Cert.KernelIdeal.main_arg8 (by decide) (by decide) (by decide) (by decide)),
      (h c _ (Cert.KernelIdeal.Hand.mem_unscoped Cert.KernelIdeal.main_arg9 (by decide))).trans (Cert.KernelIdeal.Hand.buf4_untouched m c Cert.KernelIdeal.main_arg9 (by decide) (by decide) (by decide) (by decide)),
      (h c _ (Cert.KernelIdeal.Hand.mem_unscoped Cert.KernelIdeal.main_arg10 (by decide))).trans (Cert.KernelIdeal.Hand.buf4_untouched m c Cert.KernelIdeal.main_arg10 (by decide) (by decide) (by decide) (by decide)),
      (h c _ (Cert.KernelIdeal.Hand.mem_unscoped Cert.KernelIdeal.main_arg11 (by decide))).trans (Cert.KernelIdeal.Hand.buf4_untouched m c Cert.KernelIdeal.main_arg11 (by decide) (by decide) (by decide) (by decide)),
      (h c _ (Cert.KernelIdeal.Hand.mem_unscoped Cert.KernelIdeal.main_arg12 (by decide))).trans (Cert.KernelIdeal.Hand.buf4_untouched m c Cert.KernelIdeal.main_arg12 (by decide) (by decide) (by decide) (by decide))⟩)
      (Cert.KernelIdeal.Hand.run_all (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · exact (Cert.ReferenceIdeal.Hand.ref_probs _).trans (Cert.KernelIdeal.Hand.probs_agree c (hagree c)).symm
    · exact (Cert.ReferenceIdeal.Hand.ref_stack _).trans (Cert.KernelIdeal.Hand.states_agree c (hagree c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
